-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000 : Shape := ⟨1, ![100000]⟩
abbrev S50000 : Shape := ⟨1, ![50000]⟩
abbrev S2000000 : Shape := ⟨1, ![2000000]⟩
abbrev S500000 : Shape := ⟨1, ![500000]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  bcast_S_S2000000 : S_.BroadcastsInDim S2000000 (![] : Fin 0 → Fin S2000000.rank)
  reducesTo_S2000000_S_d0 : S2000000.ReducesTo [0] S_
  bcast_S_S500000 : S_.BroadcastsInDim S500000 (![] : Fin 0 → Fin S500000.rank)
  reducesTo_S500000_S_d0 : S500000.ReducesTo [0] S_

variable [Facts]

def fn_part7 {F : FTy → Type} [FloatOps F] (main_arg5 : IVec S500000 32) (main_arg6 : IVec S500000 32) (main_v115 : IVec S_ 1) (main_v116 : IVec S500000 32) : IVec S_ 1 :=
  let main_v117 : IVec S500000 1 := cmpi .sge main_arg5 main_v116
  let main_c_49 : IVec S_ 1 := constantI S_ 1 1#1
  let main_v118 : IVec S_ 1 := (fun x v => Host.reduce IntOp.andi x v reducesTo_S500000_S_d0 h_S_) main_v117 main_c_49
  let main_v119 : IVec S_ 1 := andi main_v115 main_v118
  let main_c_50 : IVec S_ 32 := constantI S_ 32 100000#32
  let main_v120 : IVec S500000 32 := broadcastInDim S500000 ![] bcast_S_S500000 main_c_50
  let main_v121 : IVec S500000 1 := cmpi .slt main_arg5 main_v120
  let main_c_51 : IVec S_ 1 := constantI S_ 1 1#1
  let main_v122 : IVec S_ 1 := (fun x v => Host.reduce IntOp.andi x v reducesTo_S500000_S_d0 h_S_) main_v121 main_c_51
  let main_v123 : IVec S_ 1 := andi main_v119 main_v122
  let main_c_52 : IVec S_ 32 := constantI S_ 32 0#32
  let main_v124 : IVec S500000 32 := broadcastInDim S500000 ![] bcast_S_S500000 main_c_52
  let main_v125 : IVec S500000 1 := cmpi .sge main_arg6 main_v124
  let main_c_53 : IVec S_ 1 := constantI S_ 1 1#1
  let main_v126 : IVec S_ 1 := (fun x v => Host.reduce IntOp.andi x v reducesTo_S500000_S_d0 h_S_) main_v125 main_c_53
  let main_v127 : IVec S_ 1 := andi main_v123 main_v126
  let main_c_54 : IVec S_ 32 := constantI S_ 32 50000#32
  let main_v128 : IVec S500000 32 := broadcastInDim S500000 ![] bcast_S_S500000 main_c_54
  let main_v129 : IVec S500000 1 := cmpi .slt main_arg6 main_v128
  let main_c_55 : IVec S_ 1 := constantI S_ 1 1#1
  let main_v130 : IVec S_ 1 := (fun x v => Host.reduce IntOp.andi x v reducesTo_S500000_S_d0 h_S_) main_v129 main_c_55
  let main_v131 : IVec S_ 1 := andi main_v127 main_v130
  main_v131

def fn_part6 {F : FTy → Type} [FloatOps F] (main_arg3 : IVec S2000000 32) (main_arg4 : IVec S2000000 32) (main_arg5 : IVec S500000 32) (main_arg6 : IVec S500000 32) (main_v99 : IVec S_ 1) (main_v100 : IVec S2000000 32) : IVec S_ 1 :=
  let main_v101 : IVec S2000000 1 := cmpi .sge main_arg3 main_v100
  let main_c_41 : IVec S_ 1 := constantI S_ 1 1#1
  let main_v102 : IVec S_ 1 := (fun x v => Host.reduce IntOp.andi x v reducesTo_S2000000_S_d0 h_S_) main_v101 main_c_41
  let main_v103 : IVec S_ 1 := andi main_v99 main_v102
  let main_c_42 : IVec S_ 32 := constantI S_ 32 100000#32
  let main_v104 : IVec S2000000 32 := broadcastInDim S2000000 ![] bcast_S_S2000000 main_c_42
  let main_v105 : IVec S2000000 1 := cmpi .slt main_arg3 main_v104
  let main_c_43 : IVec S_ 1 := constantI S_ 1 1#1
  let main_v106 : IVec S_ 1 := (fun x v => Host.reduce IntOp.andi x v reducesTo_S2000000_S_d0 h_S_) main_v105 main_c_43
  let main_v107 : IVec S_ 1 := andi main_v103 main_v106
  let main_c_44 : IVec S_ 32 := constantI S_ 32 0#32
  let main_v108 : IVec S2000000 32 := broadcastInDim S2000000 ![] bcast_S_S2000000 main_c_44
  let main_v109 : IVec S2000000 1 := cmpi .sge main_arg4 main_v108
  let main_c_45 : IVec S_ 1 := constantI S_ 1 1#1
  let main_v110 : IVec S_ 1 := (fun x v => Host.reduce IntOp.andi x v reducesTo_S2000000_S_d0 h_S_) main_v109 main_c_45
  let main_v111 : IVec S_ 1 := andi main_v107 main_v110
  let main_c_46 : IVec S_ 32 := constantI S_ 32 50000#32
  let main_v112 : IVec S2000000 32 := broadcastInDim S2000000 ![] bcast_S_S2000000 main_c_46
  let main_v113 : IVec S2000000 1 := cmpi .slt main_arg4 main_v112
  let main_c_47 : IVec S_ 1 := constantI S_ 1 1#1
  let main_v114 : IVec S_ 1 := (fun x v => Host.reduce IntOp.andi x v reducesTo_S2000000_S_d0 h_S_) main_v113 main_c_47
  let main_v115 : IVec S_ 1 := andi main_v111 main_v114
  let main_c_48 : IVec S_ 32 := constantI S_ 32 0#32
  let main_v116 : IVec S500000 32 := broadcastInDim S500000 ![] bcast_S_S500000 main_c_48
  fn_part7 (F := F) main_arg5 main_arg6 main_v115 main_v116

def fn_part5 {F : FTy → Type} [FloatOps F] (main_arg1 : IVec S100000 32) (main_arg2 : IVec S50000 32) (main_arg3 : IVec S2000000 32) (main_arg4 : IVec S2000000 32) (main_arg5 : IVec S500000 32) (main_arg6 : IVec S500000 32) (main_v83 : IVec S_ 1) (main_v84 : IVec S100000 32) : IVec S_ 1 :=
  let main_v85 : IVec S100000 1 := cmpi .sge main_arg1 main_v84
  let main_c_33 : IVec S_ 1 := constantI S_ 1 1#1
  let main_v86 : IVec S_ 1 := (fun x v => Host.reduce IntOp.andi x v reducesTo_S100000_S_d0 h_S_) main_v85 main_c_33
  let main_v87 : IVec S_ 1 := andi main_v83 main_v86
  let main_c_34 : IVec S_ 32 := constantI S_ 32 100000#32
  let main_v88 : IVec S100000 32 := broadcastInDim S100000 ![] bcast_S_S100000 main_c_34
  let main_v89 : IVec S100000 1 := cmpi .slt main_arg1 main_v88
  let main_c_35 : IVec S_ 1 := constantI S_ 1 1#1
  let main_v90 : IVec S_ 1 := (fun x v => Host.reduce IntOp.andi x v reducesTo_S100000_S_d0 h_S_) main_v89 main_c_35
  let main_v91 : IVec S_ 1 := andi main_v87 main_v90
  let main_c_36 : IVec S_ 32 := constantI S_ 32 0#32
  let main_v92 : IVec S50000 32 := broadcastInDim S50000 ![] bcast_S_S50000 main_c_36
  let main_v93 : IVec S50000 1 := cmpi .sge main_arg2 main_v92
  let main_c_37 : IVec S_ 1 := constantI S_ 1 1#1
  let main_v94 : IVec S_ 1 := (fun x v => Host.reduce IntOp.andi x v reducesTo_S50000_S_d0 h_S_) main_v93 main_c_37
  let main_v95 : IVec S_ 1 := andi main_v91 main_v94
  let main_c_38 : IVec S_ 32 := constantI S_ 32 50000#32
  let main_v96 : IVec S50000 32 := broadcastInDim S50000 ![] bcast_S_S50000 main_c_38
  let main_v97 : IVec S50000 1 := cmpi .slt main_arg2 main_v96
  let main_c_39 : IVec S_ 1 := constantI S_ 1 1#1
  let main_v98 : IVec S_ 1 := (fun x v => Host.reduce IntOp.andi x v reducesTo_S50000_S_d0 h_S_) main_v97 main_c_39
  let main_v99 : IVec S_ 1 := andi main_v95 main_v98
  let main_c_40 : IVec S_ 32 := constantI S_ 32 0#32
  let main_v100 : IVec S2000000 32 := broadcastInDim S2000000 ![] bcast_S_S2000000 main_c_40
  fn_part6 (F := F) main_arg3 main_arg4 main_arg5 main_arg6 main_v99 main_v100

def fn_part4 {F : FTy → Type} [FloatOps F] (main_arg1 : IVec S100000 32) (main_arg2 : IVec S50000 32) (main_arg3 : IVec S2000000 32) (main_arg4 : IVec S2000000 32) (main_arg5 : IVec S500000 32) (main_arg6 : IVec S500000 32) (main_arg20 : FVec F S64x64 .f32) (main_arg21 : FVec F S64 .f32) (main_arg22 : FVec F S64x64 .f32) (main_v63 : IVec S_ 1) (main_v67 : IVec S_ 1) : IVec S_ 1 :=
  let main_v68 : IVec S_ 1 := andi main_v63 main_v67
  let main_v69 : FVec F S64x64 .f32 := Host.absf main_arg20
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg21
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg22
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_c_32 : IVec S_ 32 := constantI S_ 32 0#32
  let main_v84 : IVec S100000 32 := broadcastInDim S100000 ![] bcast_S_S100000 main_c_32
  fn_part5 (F := F) main_arg1 main_arg2 main_arg3 main_arg4 main_arg5 main_arg6 main_v83 main_v84

def fn_part3 {F : FTy → Type} [FloatOps F] (main_arg1 : IVec S100000 32) (main_arg2 : IVec S50000 32) (main_arg3 : IVec S2000000 32) (main_arg4 : IVec S2000000 32) (main_arg5 : IVec S500000 32) (main_arg6 : IVec S500000 32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg17
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg19
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg2 main_arg3 main_arg4 main_arg5 main_arg6 main_arg20 main_arg21 main_arg22 main_v63 main_v67

def fn_part2 {F : FTy → Type} [FloatOps F] (main_arg1 : IVec S100000 32) (main_arg2 : IVec S50000 32) (main_arg3 : IVec S2000000 32) (main_arg4 : IVec S2000000 32) (main_arg5 : IVec S500000 32) (main_arg6 : IVec S500000 32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg14
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg16
  let main_cst_18 : FVec F S_ .f32 := constant S_ .f32 0x7F800000#32
  let main_v50 : FVec F S64x64 .f32 := broadcastInDim S64x64 ![] bcast_S_S64x64 main_cst_18
  fn_part3 (F := F) main_arg1 main_arg2 main_arg3 main_arg4 main_arg5 main_arg6 main_arg17 main_arg18 main_arg19 main_arg20 main_arg21 main_arg22 main_v48 main_v49 main_v50

def fn_part1 {F : FTy → Type} [FloatOps F] (main_arg1 : IVec S100000 32) (main_arg2 : IVec S50000 32) (main_arg3 : IVec S2000000 32) (main_arg4 : IVec S2000000 32) (main_arg5 : IVec S500000 32) (main_arg6 : IVec S500000 32) (main_arg10 : FVec F S64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg10
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg11
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg3 main_arg4 main_arg5 main_arg6 main_arg13 main_arg14 main_arg15 main_arg16 main_arg17 main_arg18 main_arg19 main_arg20 main_arg21 main_arg22 main_v33

def fn {F : FTy → Type} [FloatOps F] (main_arg0 : FVec F S50000x128 .f32) (main_arg1 : IVec S100000 32) (main_arg2 : IVec S50000 32) (main_arg3 : IVec S2000000 32) (main_arg4 : IVec S2000000 32) (main_arg5 : IVec S500000 32) (main_arg6 : IVec S500000 32) (main_arg7 : FVec F S100000x64 .f32) (main_arg8 : FVec F S50000x64 .f32) (main_arg9 : FVec F S64x128 .f32) (main_arg10 : FVec F S64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x64 .f32 := Host.absf main_arg7
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg8
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x128 .f32 := Host.absf main_arg9
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg2 main_arg3 main_arg4 main_arg5 main_arg6 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S100000 : Shape := ⟨1, ![100000]⟩
abbrev S50000 : Shape := ⟨1, ![50000]⟩
abbrev S2000000 : Shape := ⟨1, ![2000000]⟩
abbrev S500000 : Shape := ⟨1, ![500000]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S50000x1 : Shape := ⟨2, ![50000, 1]⟩
abbrev S128x64 : Shape := ⟨2, ![128, 64]⟩
abbrev S10000x128 : Shape := ⟨2, ![10000, 128]⟩
abbrev S10000x64 : Shape := ⟨2, ![10000, 64]⟩
abbrev S1x64 : Shape := ⟨2, ![1, 64]⟩
abbrev S2000000x1 : Shape := ⟨2, ![2000000, 1]⟩
abbrev S2000000x64 : Shape := ⟨2, ![2000000, 64]⟩
abbrev S5000x64 : Shape := ⟨2, ![5000, 64]⟩
abbrev S5000x1 : Shape := ⟨2, ![5000, 1]⟩
abbrev S500000x1 : Shape := ⟨2, ![500000, 1]⟩
abbrev S500000x64 : Shape := ⟨2, ![500000, 64]⟩

abbrev nBuf : Space → Nat
  | .hbm => 252
  | .vmem => 52
  | .smem => 0
  | _ => 0

abbrev hbmTy0_0 (i : Nat) : BufTy := match i % 128 with
  | 0 => ⟨S50000x128, .f32⟩
  | 1 => ⟨S100000, .i32⟩
  | 2 => ⟨S50000, .i32⟩
  | 3 => ⟨S2000000, .i32⟩
  | 4 => ⟨S2000000, .i32⟩
  | 5 => ⟨S500000, .i32⟩
  | 6 => ⟨S500000, .i32⟩
  | 7 => ⟨S100000x64, .f32⟩
  | 8 => ⟨S50000x64, .f32⟩
  | 9 => ⟨S64x128, .f32⟩
  | 10 => ⟨S64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S64x64, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S1, .i32⟩
  | 32 => ⟨S_, .i32⟩
  | 33 => ⟨S100000x1, .i32⟩
  | 34 => ⟨S100000x1, .i1⟩
  | 35 => ⟨S1x1, .i32⟩
  | 36 => ⟨S100000x1, .i32⟩
  | 37 => ⟨S100000x1, .i1⟩
  | 38 => ⟨S100000x1, .i1⟩
  | 39 => ⟨S_, .i1⟩
  | 40 => ⟨S100000, .i1⟩
  | 41 => ⟨S100000x64, .f32⟩
  | 42 => ⟨S100000x64, .i1⟩
  | 43 => ⟨S_, .f32⟩
  | 44 => ⟨S100000x64, .f32⟩
  | 45 => ⟨S100000x64, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S1, .i32⟩
  | 55 => ⟨S_, .i32⟩
  | 56 => ⟨S50000x1, .i32⟩
  | 57 => ⟨S50000x1, .i1⟩
  | 58 => ⟨S1x1, .i32⟩
  | 59 => ⟨S50000x1, .i32⟩
  | 60 => ⟨S50000x1, .i1⟩
  | 61 => ⟨S50000x1, .i1⟩
  | 62 => ⟨S_, .i1⟩
  | 63 => ⟨S50000, .i1⟩
  | 64 => ⟨S50000x64, .f32⟩
  | 65 => ⟨S50000x64, .i1⟩
  | 66 => ⟨S_, .f32⟩
  | 67 => ⟨S50000x64, .f32⟩
  | 68 => ⟨S50000x64, .f32⟩
  | 69 => ⟨S128x64, .f32⟩
  | 70 => ⟨S50000x64, .f32⟩
  | 71 => ⟨S_, .f32⟩
  | 72 => ⟨S2000000, .f32⟩
  | 73 => ⟨S_, .f32⟩
  | 74 => ⟨S50000, .f32⟩
  | 75 => ⟨S2000000x1, .i32⟩
  | 76 => ⟨S50000, .f32⟩
  | 77 => ⟨S50000x1, .f32⟩
  | 78 => ⟨S_, .f32⟩
  | 79 => ⟨S100000, .f32⟩
  | 80 => ⟨S2000000x1, .i32⟩
  | 81 => ⟨S100000, .f32⟩
  | 82 => ⟨S100000x1, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S1, .i32⟩
  | 92 => ⟨S_, .i32⟩
  | 93 => ⟨S2000000x1, .i32⟩
  | 94 => ⟨S2000000x1, .i1⟩
  | 95 => ⟨S1x1, .i32⟩
  | 96 => ⟨S2000000x1, .i32⟩
  | 97 => ⟨S2000000x1, .i1⟩
  | 98 => ⟨S2000000x1, .i1⟩
  | 99 => ⟨S_, .i1⟩
  | 100 => ⟨S2000000, .i1⟩
  | 101 => ⟨S2000000x64, .f32⟩
  | 102 => ⟨S2000000x64, .i1⟩
  | 103 => ⟨S_, .f32⟩
  | 104 => ⟨S2000000x64, .f32⟩
  | 105 => ⟨S2000000x64, .f32⟩
  | 106 => ⟨S_, .f32⟩
  | 107 => ⟨S50000x64, .f32⟩
  | 108 => ⟨S2000000x1, .i32⟩
  | 109 => ⟨S50000x64, .f32⟩
  | 110 => ⟨S64x64, .f32⟩
  | 111 => ⟨S64x64, .f32⟩
  | 112 => ⟨S50000x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S1, .i32⟩
  | 122 => ⟨S_, .i32⟩
  | 123 => ⟨S2000000x1, .i32⟩
  | 124 => ⟨S2000000x1, .i1⟩
  | 125 => ⟨S1x1, .i32⟩
  | 126 => ⟨S2000000x1, .i32⟩
  | 127 => ⟨S2000000x1, .i1⟩
  | _ => ⟨S50000x128, .f32⟩

abbrev hbmTy0_1 (i : Nat) : BufTy := match i % 128 with
  | 0 => ⟨S2000000x1, .i1⟩
  | 1 => ⟨S_, .i1⟩
  | 2 => ⟨S2000000, .i1⟩
  | 3 => ⟨S2000000x64, .f32⟩
  | 4 => ⟨S2000000x64, .i1⟩
  | 5 => ⟨S_, .f32⟩
  | 6 => ⟨S2000000x64, .f32⟩
  | 7 => ⟨S2000000x64, .f32⟩
  | 8 => ⟨S_, .f32⟩
  | 9 => ⟨S100000x64, .f32⟩
  | 10 => ⟨S2000000x1, .i32⟩
  | 11 => ⟨S100000x64, .f32⟩
  | 12 => ⟨S64x64, .f32⟩
  | 13 => ⟨S64x64, .f32⟩
  | 14 => ⟨S100000x64, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S1, .i32⟩
  | 24 => ⟨S_, .i32⟩
  | 25 => ⟨S2000000x1, .i32⟩
  | 26 => ⟨S2000000x1, .i1⟩
  | 27 => ⟨S1x1, .i32⟩
  | 28 => ⟨S2000000x1, .i32⟩
  | 29 => ⟨S2000000x1, .i1⟩
  | 30 => ⟨S2000000x1, .i1⟩
  | 31 => ⟨S_, .i1⟩
  | 32 => ⟨S2000000, .i1⟩
  | 33 => ⟨S2000000x64, .f32⟩
  | 34 => ⟨S2000000x64, .i1⟩
  | 35 => ⟨S_, .f32⟩
  | 36 => ⟨S2000000x64, .f32⟩
  | 37 => ⟨S2000000x64, .f32⟩
  | 38 => ⟨S_, .f32⟩
  | 39 => ⟨S50000x64, .f32⟩
  | 40 => ⟨S2000000x1, .i32⟩
  | 41 => ⟨S50000x64, .f32⟩
  | 42 => ⟨S64x64, .f32⟩
  | 43 => ⟨S64x64, .f32⟩
  | 44 => ⟨S50000x64, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S1, .i32⟩
  | 54 => ⟨S_, .i32⟩
  | 55 => ⟨S2000000x1, .i32⟩
  | 56 => ⟨S2000000x1, .i1⟩
  | 57 => ⟨S1x1, .i32⟩
  | 58 => ⟨S2000000x1, .i32⟩
  | 59 => ⟨S2000000x1, .i1⟩
  | 60 => ⟨S2000000x1, .i1⟩
  | 61 => ⟨S_, .i1⟩
  | 62 => ⟨S2000000, .i1⟩
  | 63 => ⟨S2000000x64, .f32⟩
  | 64 => ⟨S2000000x64, .i1⟩
  | 65 => ⟨S_, .f32⟩
  | 66 => ⟨S2000000x64, .f32⟩
  | 67 => ⟨S2000000x64, .f32⟩
  | 68 => ⟨S_, .f32⟩
  | 69 => ⟨S100000x64, .f32⟩
  | 70 => ⟨S2000000x1, .i32⟩
  | 71 => ⟨S100000x64, .f32⟩
  | 72 => ⟨S64x64, .f32⟩
  | 73 => ⟨S64x64, .f32⟩
  | 74 => ⟨S100000x64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S1, .i32⟩
  | 84 => ⟨S_, .i32⟩
  | 85 => ⟨S500000x1, .i32⟩
  | 86 => ⟨S500000x1, .i1⟩
  | 87 => ⟨S1x1, .i32⟩
  | 88 => ⟨S500000x1, .i32⟩
  | 89 => ⟨S500000x1, .i1⟩
  | 90 => ⟨S500000x1, .i1⟩
  | 91 => ⟨S_, .i1⟩
  | 92 => ⟨S500000, .i1⟩
  | 93 => ⟨S500000x64, .f32⟩
  | 94 => ⟨S500000x64, .i1⟩
  | 95 => ⟨S_, .f32⟩
  | 96 => ⟨S500000x64, .f32⟩
  | 97 => ⟨S500000x64, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S1, .i32⟩
  | 107 => ⟨S_, .i32⟩
  | 108 => ⟨S500000x1, .i32⟩
  | 109 => ⟨S500000x1, .i1⟩
  | 110 => ⟨S1x1, .i32⟩
  | 111 => ⟨S500000x1, .i32⟩
  | 112 => ⟨S500000x1, .i1⟩
  | 113 => ⟨S500000x1, .i1⟩
  | 114 => ⟨S_, .i1⟩
  | 115 => ⟨S500000, .i1⟩
  | 116 => ⟨S500000x64, .f32⟩
  | 117 => ⟨S500000x64, .i1⟩
  | 118 => ⟨S_, .f32⟩
  | 119 => ⟨S500000x64, .f32⟩
  | 120 => ⟨S500000x64, .f32⟩
  | 121 => ⟨S500000x64, .f32⟩
  | 122 => ⟨S_, .f32⟩
  | 123 => ⟨S500000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x1, .f32⟩
  | .local _ .vmem, ⟨44, _⟩ => ⟨S5000x1, .f32⟩
  | .local _ .vmem, ⟨45, _⟩ => ⟨S5000x64, .f32⟩
  | .local _ .vmem, ⟨46, _⟩ => ⟨S5000x64, .f32⟩
  | .local _ .vmem, ⟨47, _⟩ => ⟨S64x64, .f32⟩
  | .local _ .vmem, ⟨48, _⟩ => ⟨S64, .f32⟩
  | .local _ .vmem, ⟨49, _⟩ => ⟨S64x64, .f32⟩
  | .local _ .vmem, ⟨50, _⟩ => ⟨S5000x64, .f32⟩
  | .local _ .vmem, ⟨51, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v0 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v1 : Ref sig .tc := ⟨.hbm, 68, rfl⟩
abbrev main_v2 : Ref sig .tc := ⟨.hbm, 69, rfl⟩
abbrev main_v3 : Ref sig .tc := ⟨.hbm, 70, rfl⟩
abbrev main_cst : Ref sig .tc := ⟨.hbm, 71, rfl⟩
abbrev main_v4 : Ref sig .tc := ⟨.hbm, 72, rfl⟩
abbrev main_cst_0 : Ref sig .tc := ⟨.hbm, 73, rfl⟩
abbrev main_v5 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_cst_1 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v13 : Ref sig .tc := ⟨.hbm, 105, rfl⟩
abbrev main_cst_2 : Ref sig .tc := ⟨.hbm, 106, rfl⟩
abbrev main_v14 : Ref sig .tc := ⟨.hbm, 107, rfl⟩
abbrev main_v15 : Ref sig .tc := ⟨.hbm, 108, rfl⟩
abbrev main_v16 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v20 : Ref sig .tc := ⟨.hbm, 135, rfl⟩
abbrev main_cst_3 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_v24 : Ref sig .tc := ⟨.hbm, 140, rfl⟩
abbrev main_v25 : Ref sig .tc := ⟨.hbm, 141, rfl⟩
abbrev main_v26 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v27 : Ref sig .tc := ⟨.hbm, 165, rfl⟩
abbrev main_cst_4 : Ref sig .tc := ⟨.hbm, 166, rfl⟩
abbrev main_v28 : Ref sig .tc := ⟨.hbm, 167, rfl⟩
abbrev main_v29 : Ref sig .tc := ⟨.hbm, 168, rfl⟩
abbrev main_v30 : Ref sig .tc := ⟨.hbm, 169, rfl⟩
abbrev main_v31 : Ref sig .tc := ⟨.hbm, 170, rfl⟩
abbrev main_v32 : Ref sig .tc := ⟨.hbm, 171, rfl⟩
abbrev main_v33 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v34 : Ref sig .tc := ⟨.hbm, 195, rfl⟩
abbrev main_cst_5 : Ref sig .tc := ⟨.hbm, 196, rfl⟩
abbrev main_v35 : Ref sig .tc := ⟨.hbm, 197, rfl⟩
abbrev main_v36 : Ref sig .tc := ⟨.hbm, 198, rfl⟩
abbrev main_v37 : Ref sig .tc := ⟨.hbm, 199, rfl⟩
abbrev main_v38 : Ref sig .tc := ⟨.hbm, 200, rfl⟩
abbrev main_v39 : Ref sig .tc := ⟨.hbm, 201, rfl⟩
abbrev main_v40 : Ref sig .tc := ⟨.hbm, 202, rfl⟩
abbrev main_call6_c : Ref sig .tc := ⟨.hbm, 203, rfl⟩
abbrev main_call6_v0 : Ref sig .tc := ⟨.hbm, 204, rfl⟩
abbrev main_call6_v1 : Ref sig .tc := ⟨.hbm, 205, rfl⟩
abbrev main_call6_c_0 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_c_1 : Ref sig .tc := ⟨.hbm, 211, rfl⟩
abbrev main_call6_c_2 : Ref sig .tc := ⟨.hbm, 212, rfl⟩
abbrev main_call6_v6 : Ref sig .tc := ⟨.hbm, 213, rfl⟩
abbrev main_call6_v7 : Ref sig .tc := ⟨.hbm, 214, rfl⟩
abbrev main_call6_v8 : Ref sig .tc := ⟨.hbm, 215, rfl⟩
abbrev main_call6_v9 : Ref sig .tc := ⟨.hbm, 216, rfl⟩
abbrev main_call6_v10 : Ref sig .tc := ⟨.hbm, 217, rfl⟩
abbrev main_call6_v11 : Ref sig .tc := ⟨.hbm, 218, rfl⟩
abbrev main_call6_c_3 : Ref sig .tc := ⟨.hbm, 219, rfl⟩
abbrev main_call6_v12 : Ref sig .tc := ⟨.hbm, 220, rfl⟩
abbrev main_call6_v13 : Ref sig .tc := ⟨.hbm, 221, rfl⟩
abbrev main_call6_v14 : Ref sig .tc := ⟨.hbm, 222, rfl⟩
abbrev main_call6_cst : Ref sig .tc := ⟨.hbm, 223, rfl⟩
abbrev main_call6_v15 : Ref sig .tc := ⟨.hbm, 224, rfl⟩
abbrev main_v41 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v42 : Ref sig .tc := ⟨.hbm, 248, rfl⟩
abbrev main_v43 : Ref sig .tc := ⟨.hbm, 249, rfl⟩
abbrev main_cst_6 : Ref sig .tc := ⟨.hbm, 250, rfl⟩
abbrev main_v44 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem6_1 : DmaSem sig := 51

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x64_0 : S50000.BroadcastsInDim S50000x64 (![0] : Fin 1 → Fin S50000x64.rank)
  bcast_S_S50000x64 : S_.BroadcastsInDim S50000x64 (![] : Fin 0 → Fin S50000x64.rank)
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x64_0 : S500000.BroadcastsInDim S500000x64 (![0] : Fin 1 → Fin S500000x64.rank)
  bcast_S_S500000x64 : S_.BroadcastsInDim S500000x64 (![] : Fin 0 → Fin S500000x64.rank)
  reducesTo_S500000x64_S500000_d1 : S500000x64.ReducesTo [1] S500000
  gather_S100000x64_S100000x1_S100000x64_1_0_n_n_0_1_164_wf : GatherDims.WF S100000x64 S100000x1 S100000x64 [1] [0] [] [0] [] 1 ![1, 64]
  gather_S50000x64_S50000x1_S50000x64_1_0_n_n_0_1_164_wf : GatherDims.WF S50000x64 S50000x1 S50000x64 [1] [0] [] [0] [] 1 ![1, 64]
  dot_S10000x128_S128x64_S10000x64_1_0_0_1_n_n_wf : DotDims.WF S10000x128 S128x64 S10000x64 [1] [0] [0] [1] [] []
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  dot_S5000x64_S64x64_S5000x64_1_0_0_1_n_n_wf : DotDims.WF S5000x64 S64x64 S5000x64 [1] [0] [0] [1] [] []
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg21) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v39) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v40) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S100000 : Shape := ⟨1, ![100000]⟩
abbrev S50000 : Shape := ⟨1, ![50000]⟩
abbrev S2000000 : Shape := ⟨1, ![2000000]⟩
abbrev S500000 : Shape := ⟨1, ![500000]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S100000x1 : Shape := ⟨2, ![100000, 1]⟩
abbrev S128x64 : Shape := ⟨2, ![128, 64]⟩
abbrev S1x64 : Shape := ⟨2, ![1, 64]⟩
abbrev S50000x1 : Shape := ⟨2, ![50000, 1]⟩
abbrev S2000000x1 : Shape := ⟨2, ![2000000, 1]⟩
abbrev S2000000x64 : Shape := ⟨2, ![2000000, 64]⟩
abbrev S500000x1 : Shape := ⟨2, ![500000, 1]⟩
abbrev S500000x64 : Shape := ⟨2, ![500000, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S100000, .i32⟩
  | 2 => ⟨S50000, .i32⟩
  | 3 => ⟨S2000000, .i32⟩
  | 4 => ⟨S2000000, .i32⟩
  | 5 => ⟨S500000, .i32⟩
  | 6 => ⟨S500000, .i32⟩
  | 7 => ⟨S100000x64, .f32⟩
  | 8 => ⟨S50000x64, .f32⟩
  | 9 => ⟨S64x128, .f32⟩
  | 10 => ⟨S64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S64x64, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x64, .f32⟩
  | 32 => ⟨S128x64, .f32⟩
  | 33 => ⟨S50000x64, .f32⟩
  | 34 => ⟨S1x64, .f32⟩
  | 35 => ⟨S50000x64, .f32⟩
  | 36 => ⟨S50000x64, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x64, .f32⟩
  | 46 => ⟨S50000x64, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S_, .f32⟩
  | 57 => ⟨S50000x64, .f32⟩
  | 58 => ⟨S2000000x1, .i32⟩
  | 59 => ⟨S50000x64, .f32⟩
  | 60 => ⟨S_, .f32⟩
  | 61 => ⟨S2000000, .f32⟩
  | 62 => ⟨S_, .f32⟩
  | 63 => ⟨S50000, .f32⟩
  | 64 => ⟨S2000000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x64, .f32⟩
  | 71 => ⟨S50000x64, .f32⟩
  | 72 => ⟨S64x64, .f32⟩
  | 73 => ⟨S50000x64, .f32⟩
  | 74 => ⟨S1x64, .f32⟩
  | 75 => ⟨S50000x64, .f32⟩
  | 76 => ⟨S50000x64, .f32⟩
  | 77 => ⟨S64x64, .f32⟩
  | 78 => ⟨S50000x64, .f32⟩
  | 79 => ⟨S50000x64, .f32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x64, .f32⟩
  | 89 => ⟨S_, .f32⟩
  | 90 => ⟨S100000x64, .f32⟩
  | 91 => ⟨S2000000x1, .i32⟩
  | 92 => ⟨S100000x64, .f32⟩
  | 93 => ⟨S_, .f32⟩
  | 94 => ⟨S2000000, .f32⟩
  | 95 => ⟨S_, .f32⟩
  | 96 => ⟨S100000, .f32⟩
  | 97 => ⟨S2000000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x64, .f32⟩
  | 104 => ⟨S100000x64, .f32⟩
  | 105 => ⟨S64x64, .f32⟩
  | 106 => ⟨S100000x64, .f32⟩
  | 107 => ⟨S1x64, .f32⟩
  | 108 => ⟨S100000x64, .f32⟩
  | 109 => ⟨S100000x64, .f32⟩
  | 110 => ⟨S64x64, .f32⟩
  | 111 => ⟨S100000x64, .f32⟩
  | 112 => ⟨S100000x64, .f32⟩
  | 113 => ⟨S_, .f32⟩
  | 114 => ⟨S50000x64, .f32⟩
  | 115 => ⟨S50000x64, .f32⟩
  | 116 => ⟨S_, .f32⟩
  | 117 => ⟨S100000x64, .f32⟩
  | 118 => ⟨S100000x64, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S50000x128, .f32⟩

abbrev hbmTy0_1 (i : Nat) : BufTy := match i % 128 with
  | 0 => ⟨S_, .f32⟩
  | 1 => ⟨S50000x64, .f32⟩
  | 2 => ⟨S2000000x1, .i32⟩
  | 3 => ⟨S50000x64, .f32⟩
  | 4 => ⟨S_, .f32⟩
  | 5 => ⟨S2000000, .f32⟩
  | 6 => ⟨S_, .f32⟩
  | 7 => ⟨S50000, .f32⟩
  | 8 => ⟨S2000000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x64, .f32⟩
  | 15 => ⟨S50000x64, .f32⟩
  | 16 => ⟨S64x64, .f32⟩
  | 17 => ⟨S50000x64, .f32⟩
  | 18 => ⟨S1x64, .f32⟩
  | 19 => ⟨S50000x64, .f32⟩
  | 20 => ⟨S50000x64, .f32⟩
  | 21 => ⟨S64x64, .f32⟩
  | 22 => ⟨S50000x64, .f32⟩
  | 23 => ⟨S50000x64, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S_, .f32⟩
  | 34 => ⟨S100000x64, .f32⟩
  | 35 => ⟨S2000000x1, .i32⟩
  | 36 => ⟨S100000x64, .f32⟩
  | 37 => ⟨S_, .f32⟩
  | 38 => ⟨S2000000, .f32⟩
  | 39 => ⟨S_, .f32⟩
  | 40 => ⟨S100000, .f32⟩
  | 41 => ⟨S2000000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S64x64, .f32⟩
  | 50 => ⟨S100000x64, .f32⟩
  | 51 => ⟨S1x64, .f32⟩
  | 52 => ⟨S100000x64, .f32⟩
  | 53 => ⟨S100000x64, .f32⟩
  | 54 => ⟨S64x64, .f32⟩
  | 55 => ⟨S100000x64, .f32⟩
  | 56 => ⟨S100000x64, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x64, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x64, .f32⟩
  | 75 => ⟨S500000x64, .f32⟩
  | 76 => ⟨S_, .f32⟩
  | 77 => ⟨S500000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_10 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_cst_12 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call0_cst : Ref sig .tc := ⟨.hbm, 113, rfl⟩
abbrev main_call0_v0 : Ref sig .tc := ⟨.hbm, 114, rfl⟩
abbrev main_v74 : Ref sig .tc := ⟨.hbm, 115, rfl⟩
abbrev main_call1_cst : Ref sig .tc := ⟨.hbm, 116, rfl⟩
abbrev main_call1_v0 : Ref sig .tc := ⟨.hbm, 117, rfl⟩
abbrev main_v75 : Ref sig .tc := ⟨.hbm, 118, rfl⟩
abbrev main_c_14 : Ref sig .tc := ⟨.hbm, 119, rfl⟩
abbrev main_v76 : Ref sig .tc := ⟨.hbm, 120, rfl⟩
abbrev main_v77 : Ref sig .tc := ⟨.hbm, 121, rfl⟩
abbrev main_c_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_16 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_17 : Ref sig .tc := ⟨.hbm, 132, rfl⟩
abbrev main_v86 : Ref sig .tc := ⟨.hbm, 133, rfl⟩
abbrev main_cst_18 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_19 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_20 : Ref sig .tc := ⟨.hbm, 152, rfl⟩
abbrev main_v103 : Ref sig .tc := ⟨.hbm, 153, rfl⟩
abbrev main_v104 : Ref sig .tc := ⟨.hbm, 154, rfl⟩
abbrev main_c_21 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_22 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_23 : Ref sig .tc := ⟨.hbm, 165, rfl⟩
abbrev main_v113 : Ref sig .tc := ⟨.hbm, 166, rfl⟩
abbrev main_cst_24 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_25 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_26 : Ref sig .tc := ⟨.hbm, 185, rfl⟩
abbrev main_v130 : Ref sig .tc := ⟨.hbm, 186, rfl⟩
abbrev main_v131 : Ref sig .tc := ⟨.hbm, 187, rfl⟩
abbrev main_c_27 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_28 : Ref sig .tc := ⟨.hbm, 194, rfl⟩
abbrev main_v137 : Ref sig .tc := ⟨.hbm, 195, rfl⟩
abbrev main_v138 : Ref sig .tc := ⟨.hbm, 196, rfl⟩
abbrev main_c_29 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_30 : Ref sig .tc := ⟨.hbm, 204, rfl⟩
abbrev main_v145 : Ref sig .tc := ⟨.hbm, 205, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S100000x64_S100000x1_S100000x64_1_0_n_n_0_1_164_wf : GatherDims.WF S100000x64 S100000x1 S100000x64 [1] [0] [] [0] [] 1 ![1, 64]
  dot_S50000x128_S128x64_S50000x64_1_0_0_1_n_n_wf : DotDims.WF S50000x128 S128x64 S50000x64 [1] [0] [0] [1] [] []
  gather_S50000x64_S50000x1_S50000x64_1_0_n_n_0_1_164_wf : GatherDims.WF S50000x64 S50000x1 S50000x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.IdxRange.lean ====
import proofs.«406355_j49280454754830_3_alg».proof.Pre_finite_inputs
import proofs.«406355_j49280454754830_3_alg».proof.Proof.Gen.Pre_finite_inputs
import Idealize.ShloMosaic.Lib.ReduceAll
import Idealize.ShloMosaic.Lib.StableHlo.Predicate
import Idealize.ShloMosaic.Lib.ValueIdx

/-!
# The index ranges stated by the precondition

The precondition is a left-nested conjunction of twenty-nine "all elements satisfy" tests. The outermost
twelve say, of each of the six integer tables, that every entry is at least zero and below the
extent it indexes. Each such test is a reduction by conjunction of an elementwise signed comparison
against a broadcast scalar; its value being one means the comparison holds at every element, and the
signed comparison of words is the comparison of their integer readings.
-/

namespace Cert.IdxRange
open Idealize.ShloMosaic Cert.Pre_finite_inputs

/-- The rank-zero shape has a single index. -/
instance : Subsingleton S_.Idx := ⟨fun a b => funext fun d => d.elim0⟩

/-- A conjunction of two scalar bits is one exactly when both are. -/
theorem andi_one {x y : IVec S_ 1} {i : S_.Idx} : andi x y i = 1#1 ↔ x i = 1#1 ∧ y i = 1#1 :=
  IntOp.andi_eq_one

/-- "All entries are at least zero": the reduction by conjunction of the comparison with a zero vector. -/
theorem all_sge {s : Shape} {axes : List (Fin s.rank)} (x z : IVec s 32) (hz : ∀ j, z j = 0#32)
    (hr : s.ReducesTo axes S_) (h0 : 0 < S_.numel) (i : S_.Idx)
    (h : Host.reduce IntOp.andi (cmpi .sge x z) (constantI S_ 1 1#1) hr h0 i = 1#1) :
    ∀ j, 0 ≤ (x j).toInt := by
  intro j
  have e : IntOp.cmpi .sge (x j) (z j) = 1#1 := Host.reduce_andi_all (cmpi .sge x z) _ hr h0 i h j
  rw [hz j, IntOp.cmpi_sge] at e
  exact e

/-- "All entries are below n": the reduction by conjunction of the comparison with a constant vector. -/
theorem all_slt {s : Shape} {axes : List (Fin s.rank)} (x z : IVec s 32) (n : Nat) (hn : n < 2 ^ 31)
    (hz : ∀ j, z j = BitVec.ofNat 32 n)
    (hr : s.ReducesTo axes S_) (h0 : 0 < S_.numel) (i : S_.Idx)
    (h : Host.reduce IntOp.andi (cmpi .slt x z) (constantI S_ 1 1#1) hr h0 i = 1#1) :
    ∀ j, (x j).toInt < n := by
  intro j
  have e : IntOp.cmpi .slt (x j) (z j) = 1#1 := Host.reduce_andi_all (cmpi .slt x z) _ hr h0 i h j
  rw [hz j, IntOp.cmpi_slt, StableHlo.Predicate.toInt_ofNat_small n hn] at e
  exact e

/-- The last part: the tests of the fifth and sixth integer tables. -/
theorem part7 (a5 a6 : IVec S500000 32) (acc : IVec S_ 1) (z : IVec S500000 32) (hz : ∀ j, z j = 0#32) (i : S_.Idx)
    (h : fn_part7 (F := Ideal) a5 a6 acc z i = 1#1) :
    acc i = 1#1 ∧ (∀ j, 0 ≤ (a5 j).toInt ∧ (a5 j).toInt < 100000) ∧ (∀ j, 0 ≤ (a6 j).toInt ∧ (a6 j).toInt < 50000) := by
  unfold fn_part7 at h
  dsimp only at h
  obtain ⟨h, h4⟩ := andi_one.1 h
  obtain ⟨h, h3⟩ := andi_one.1 h
  obtain ⟨h, h2⟩ := andi_one.1 h
  obtain ⟨h, h1⟩ := andi_one.1 h
  have f1 := all_sge a5 z hz _ _ i h1
  have f2 := all_slt a5 _ 100000 (by norm_num) (fun _ => rfl) _ _ i h2
  have f3 := all_sge a6 _ (fun _ => rfl) _ _ i h3
  have f4 := all_slt a6 _ 50000 (by norm_num) (fun _ => rfl) _ _ i h4
  exact ⟨h, fun j => ⟨f1 j, f2 j⟩, fun j => ⟨f3 j, f4 j⟩⟩

/-- The sixth part: the tests of the third and fourth integer tables, then the last part. -/
theorem part6 (a3 a4 : IVec S2000000 32) (a5 a6 : IVec S500000 32) (acc : IVec S_ 1) (z : IVec S2000000 32)
    (hz : ∀ j, z j = 0#32) (i : S_.Idx)
    (h : fn_part6 (F := Ideal) a3 a4 a5 a6 acc z i = 1#1) :
    acc i = 1#1 ∧ (∀ j, 0 ≤ (a3 j).toInt ∧ (a3 j).toInt < 100000) ∧ (∀ j, 0 ≤ (a4 j).toInt ∧ (a4 j).toInt < 50000)
      ∧ (∀ j, 0 ≤ (a5 j).toInt ∧ (a5 j).toInt < 100000) ∧ (∀ j, 0 ≤ (a6 j).toInt ∧ (a6 j).toInt < 50000) := by
  unfold fn_part6 at h
  dsimp only at h
  obtain ⟨h, r5, r6⟩ := part7 a5 a6 _ _ (fun _ => rfl) i h
  obtain ⟨h, h4⟩ := andi_one.1 h
  obtain ⟨h, h3⟩ := andi_one.1 h
  obtain ⟨h, h2⟩ := andi_one.1 h
  obtain ⟨h, h1⟩ := andi_one.1 h
  have f1 := all_sge a3 z hz _ _ i h1
  have f2 := all_slt a3 _ 100000 (by norm_num) (fun _ => rfl) _ _ i h2
  have f3 := all_sge a4 _ (fun _ => rfl) _ _ i h3
  have f4 := all_slt a4 _ 50000 (by norm_num) (fun _ => rfl) _ _ i h4
  exact ⟨h, fun j => ⟨f1 j, f2 j⟩, fun j => ⟨f3 j, f4 j⟩, r5, r6⟩

/-- The fifth part: the tests of the first and second integer tables, then the later parts. -/
theorem part5 (a1 : IVec S100000 32) (a2 : IVec S50000 32) (a3 a4 : IVec S2000000 32) (a5 a6 : IVec S500000 32)
    (acc : IVec S_ 1) (z : IVec S100000 32) (hz : ∀ j, z j = 0#32) (i : S_.Idx)
    (h : fn_part5 (F := Ideal) a1 a2 a3 a4 a5 a6 acc z i = 1#1) :
    acc i = 1#1 ∧ (∀ j, 0 ≤ (a1 j).toInt ∧ (a1 j).toInt < 100000) ∧ (∀ j, 0 ≤ (a2 j).toInt ∧ (a2 j).toInt < 50000)
      ∧ (∀ j, 0 ≤ (a3 j).toInt ∧ (a3 j).toInt < 100000) ∧ (∀ j, 0 ≤ (a4 j).toInt ∧ (a4 j).toInt < 50000)
      ∧ (∀ j, 0 ≤ (a5 j).toInt ∧ (a5 j).toInt < 100000) ∧ (∀ j, 0 ≤ (a6 j).toInt ∧ (a6 j).toInt < 50000) := by
  unfold fn_part5 at h
  dsimp only at h
  obtain ⟨h, r3, r4, r5, r6⟩ := part6 a3 a4 a5 a6 _ _ (fun _ => rfl) i h
  obtain ⟨h, h4⟩ := andi_one.1 h
  obtain ⟨h, h3⟩ := andi_one.1 h
  obtain ⟨h, h2⟩ := andi_one.1 h
  obtain ⟨h, h1⟩ := andi_one.1 h
  have f1 := all_sge a1 z hz _ _ i h1
  have f2 := all_slt a1 _ 100000 (by norm_num) (fun _ => rfl) _ _ i h2
  have f3 := all_sge a2 _ (fun _ => rfl) _ _ i h3
  have f4 := all_slt a2 _ 50000 (by norm_num) (fun _ => rfl) _ _ i h4
  exact ⟨h, fun j => ⟨f1 j, f2 j⟩, fun j => ⟨f3 j, f4 j⟩, r3, r4, r5, r6⟩

/-- The precondition holding gives the range of every entry of the six integer tables. The seventeen
    inner conjuncts (the tests on the real tables) are carried along unopened. -/
theorem ranges_of_pre
    (a0 : FVec Ideal S50000x128 .f32) (a1 : IVec S100000 32) (a2 : IVec S50000 32) (a3 : IVec S2000000 32) (a4 : IVec S2000000 32)
    (a5 : IVec S500000 32) (a6 : IVec S500000 32) (a7 : FVec Ideal S100000x64 .f32) (a8 : FVec Ideal S50000x64 .f32) (a9 : FVec Ideal S64x128 .f32)
    (a10 : FVec Ideal S64 .f32) (a11 : FVec Ideal S64x64 .f32) (a12 : FVec Ideal S64 .f32) (a13 : FVec Ideal S64x64 .f32) (a14 : FVec Ideal S64x64 .f32)
    (a15 : FVec Ideal S64 .f32) (a16 : FVec Ideal S64x64 .f32) (a17 : FVec Ideal S64x64 .f32) (a18 : FVec Ideal S64 .f32) (a19 : FVec Ideal S64x64 .f32)
    (a20 : FVec Ideal S64x64 .f32) (a21 : FVec Ideal S64 .f32) (a22 : FVec Ideal S64x64 .f32)
    (h : Cert.Pre_finite_inputs.fn (F := Ideal) a0 a1 a2 a3 a4 a5 a6 a7 a8 a9 a10 a11 a12 a13 a14 a15 a16 a17 a18 a19 a20 a21 a22 = (fun _ => 1#1)) :
    (∀ j, 0 ≤ (a1 j).toInt ∧ (a1 j).toInt < 100000) ∧ (∀ j, 0 ≤ (a2 j).toInt ∧ (a2 j).toInt < 50000)
    ∧ (∀ j, 0 ≤ (a3 j).toInt ∧ (a3 j).toInt < 100000) ∧ (∀ j, 0 ≤ (a4 j).toInt ∧ (a4 j).toInt < 50000)
    ∧ (∀ j, 0 ≤ (a5 j).toInt ∧ (a5 j).toInt < 100000) ∧ (∀ j, 0 ≤ (a6 j).toInt ∧ (a6 j).toInt < 50000) := by
  have h0 := congrFun h ValueIdx.ix0
  unfold fn at h0
  unfold fn_part1 at h0
  unfold fn_part2 at h0
  unfold fn_part3 at h0
  unfold fn_part4 at h0
  exact (part5 a1 a2 a3 a4 a5 a6 _ _ (fun _ => rfl) _ h0).2

end Cert.IdxRange
-- ==== Proof.Range.lean ====
/-
  An integer index array is in range of a table of n rows when every entry, read as a signed integer, lies in [0, n).
-/
import Idealize.ShloMosaic.PureOps

namespace Cert

open Idealize.ShloMosaic

/-- Every entry of the index array, read as a signed integer, lies in [0, n). -/
def InRange (n : Nat) {s : Shape} (i : IVec s 32) : Prop := ∀ j : s.Idx, 0 ≤ (i j).toInt ∧ (i j).toInt < n

end Cert
-- ==== Proof.KTake.lean ====
/-
  The kernel program's row look-up `take(x, idx)`: wrap a negative index once, gather the rows, and where the wrapped
  index falls outside [0, n-1] put the fill pattern instead of the (clamped) row. Six instances by sizes.
-/
import proofs.«406355_j49280454754830_3_alg».proof.KernelIdeal
import proofs.«406355_j49280454754830_3_alg».proof.Proof.Gen.KernelIdeal
import proofs.«406355_j49280454754830_3_alg».proof.Proof.Range

noncomputable section

namespace Cert.KernelIdeal.KTake

open Cert.KernelIdeal Cert.KernelIdeal.Gen Idealize.ShloMosaic

variable {F : FTy → Type} [FloatOps F]

/-- The wrapped indices as an [R, 1] column: user ids into the 100000-row user table. -/
def colU (i : IVec S100000 32) : IVec S100000x1 32 :=
  broadcastInDim S100000x1 ![0] bcast_S100000_S100000x1_0 (select (cmpi .slt i (broadcastInDim S100000 ![] bcast_S_S100000 (constantI S_ 32 0#32))) (addi i (broadcastInDim S100000 ![] bcast_S_S100000 (constantI S_ 32 100000#32))) i)
/-- Per row: is the wrapped index inside [0, 99999]. -/
def okU (i : IVec S100000 32) : IVec S100000 1 :=
  Host.reduce IntOp.andi (andi (cmpi .sge (colU i) (broadcastInDim S100000x1 ![] bcast_S_S100000x1 (constantI S_ 32 0#32))) (cmpi .sle (colU i) (broadcastInDim S100000x1 ![0, 1] bcast_S1x1_S100000x1_0_1 (broadcastInDim S1x1 ![1] bcast_S1_S1x1_1 (constantI S1 32 99999#32))))) (constantI S_ 1 1#1) reducesTo_S100000x1_S100000_d1 h_S_
/-- The look-up: the gathered row where the index is inside, the fill pattern elsewhere. -/
def rowsU (x : FVec F S100000x64 .f32) (i : IVec S100000 32) : FVec F S100000x64 .f32 :=
  select (broadcastInDim S100000x64 ![0] bcast_S100000_S100000x64_0 (okU i)) (Host.gather gather_S100000x64_S100000x1_S100000x64_1_0_n_n_0_1_164 x (colU i)) (broadcastInDim S100000x64 ![] bcast_S_S100000x64 (constant S_ .f32 0x7FC00000#32))

/-- The wrapped indices as an [R, 1] column: movie ids into the 50000-row movie table. -/
def colM (i : IVec S50000 32) : IVec S50000x1 32 :=
  broadcastInDim S50000x1 ![0] bcast_S50000_S50000x1_0 (select (cmpi .slt i (broadcastInDim S50000 ![] bcast_S_S50000 (constantI S_ 32 0#32))) (addi i (broadcastInDim S50000 ![] bcast_S_S50000 (constantI S_ 32 50000#32))) i)
/-- Per row: is the wrapped index inside [0, 49999]. -/
def okM (i : IVec S50000 32) : IVec S50000 1 :=
  Host.reduce IntOp.andi (andi (cmpi .sge (colM i) (broadcastInDim S50000x1 ![] bcast_S_S50000x1 (constantI S_ 32 0#32))) (cmpi .sle (colM i) (broadcastInDim S50000x1 ![0, 1] bcast_S1x1_S50000x1_0_1 (broadcastInDim S1x1 ![1] bcast_S1_S1x1_1 (constantI S1 32 49999#32))))) (constantI S_ 1 1#1) reducesTo_S50000x1_S50000_d1 h_S_
/-- The look-up: the gathered row where the index is inside, the fill pattern elsewhere. -/
def rowsM (x : FVec F S50000x64 .f32) (i : IVec S50000 32) : FVec F S50000x64 .f32 :=
  select (broadcastInDim S50000x64 ![0] bcast_S50000_S50000x64_0 (okM i)) (Host.gather gather_S50000x64_S50000x1_S50000x64_1_0_n_n_0_1_164 x (colM i)) (broadcastInDim S50000x64 ![] bcast_S_S50000x64 (constant S_ .f32 0x7FC00000#32))

/-- The wrapped indices as an [R, 1] column: edge endpoints into a 100000-row table. -/
def colEU (i : IVec S2000000 32) : IVec S2000000x1 32 :=
  broadcastInDim S2000000x1 ![0] bcast_S2000000_S2000000x1_0 (select (cmpi .slt i (broadcastInDim S2000000 ![] bcast_S_S2000000 (constantI S_ 32 0#32))) (addi i (broadcastInDim S2000000 ![] bcast_S_S2000000 (constantI S_ 32 100000#32))) i)
/-- Per row: is the wrapped index inside [0, 99999]. -/
def okEU (i : IVec S2000000 32) : IVec S2000000 1 :=
  Host.reduce IntOp.andi (andi (cmpi .sge (colEU i) (broadcastInDim S2000000x1 ![] bcast_S_S2000000x1 (constantI S_ 32 0#32))) (cmpi .sle (colEU i) (broadcastInDim S2000000x1 ![0, 1] bcast_S1x1_S2000000x1_0_1 (broadcastInDim S1x1 ![1] bcast_S1_S1x1_1 (constantI S1 32 99999#32))))) (constantI S_ 1 1#1) reducesTo_S2000000x1_S2000000_d1 h_S_
/-- The look-up: the gathered row where the index is inside, the fill pattern elsewhere. -/
def rowsEU (x : FVec F S100000x64 .f32) (i : IVec S2000000 32) : FVec F S2000000x64 .f32 :=
  select (broadcastInDim S2000000x64 ![0] bcast_S2000000_S2000000x64_0 (okEU i)) (Host.gather gather_S100000x64_S2000000x1_S2000000x64_1_0_n_n_0_1_164 x (colEU i)) (broadcastInDim S2000000x64 ![] bcast_S_S2000000x64 (constant S_ .f32 0x7FC00000#32))

/-- The wrapped indices as an [R, 1] column: edge endpoints into a 50000-row table. -/
def colEM (i : IVec S2000000 32) : IVec S2000000x1 32 :=
  broadcastInDim S2000000x1 ![0] bcast_S2000000_S2000000x1_0 (select (cmpi .slt i (broadcastInDim S2000000 ![] bcast_S_S2000000 (constantI S_ 32 0#32))) (addi i (broadcastInDim S2000000 ![] bcast_S_S2000000 (constantI S_ 32 50000#32))) i)
/-- Per row: is the wrapped index inside [0, 49999]. -/
def okEM (i : IVec S2000000 32) : IVec S2000000 1 :=
  Host.reduce IntOp.andi (andi (cmpi .sge (colEM i) (broadcastInDim S2000000x1 ![] bcast_S_S2000000x1 (constantI S_ 32 0#32))) (cmpi .sle (colEM i) (broadcastInDim S2000000x1 ![0, 1] bcast_S1x1_S2000000x1_0_1 (broadcastInDim S1x1 ![1] bcast_S1_S1x1_1 (constantI S1 32 49999#32))))) (constantI S_ 1 1#1) reducesTo_S2000000x1_S2000000_d1 h_S_
/-- The look-up: the gathered row where the index is inside, the fill pattern elsewhere. -/
def rowsEM (x : FVec F S50000x64 .f32) (i : IVec S2000000 32) : FVec F S2000000x64 .f32 :=
  select (broadcastInDim S2000000x64 ![0] bcast_S2000000_S2000000x64_0 (okEM i)) (Host.gather gather_S50000x64_S2000000x1_S2000000x64_1_0_n_n_0_1_164 x (colEM i)) (broadcastInDim S2000000x64 ![] bcast_S_S2000000x64 (constant S_ .f32 0x7FC00000#32))

/-- The wrapped indices as an [R, 1] column: label endpoints into a 100000-row table. -/
def colLU (i : IVec S500000 32) : IVec S500000x1 32 :=
  broadcastInDim S500000x1 ![0] bcast_S500000_S500000x1_0 (select (cmpi .slt i (broadcastInDim S500000 ![] bcast_S_S500000 (constantI S_ 32 0#32))) (addi i (broadcastInDim S500000 ![] bcast_S_S500000 (constantI S_ 32 100000#32))) i)
/-- Per row: is the wrapped index inside [0, 99999]. -/
def okLU (i : IVec S500000 32) : IVec S500000 1 :=
  Host.reduce IntOp.andi (andi (cmpi .sge (colLU i) (broadcastInDim S500000x1 ![] bcast_S_S500000x1 (constantI S_ 32 0#32))) (cmpi .sle (colLU i) (broadcastInDim S500000x1 ![0, 1] bcast_S1x1_S500000x1_0_1 (broadcastInDim S1x1 ![1] bcast_S1_S1x1_1 (constantI S1 32 99999#32))))) (constantI S_ 1 1#1) reducesTo_S500000x1_S500000_d1 h_S_
/-- The look-up: the gathered row where the index is inside, the fill pattern elsewhere. -/
def rowsLU (x : FVec F S100000x64 .f32) (i : IVec S500000 32) : FVec F S500000x64 .f32 :=
  select (broadcastInDim S500000x64 ![0] bcast_S500000_S500000x64_0 (okLU i)) (Host.gather gather_S100000x64_S500000x1_S500000x64_1_0_n_n_0_1_164 x (colLU i)) (broadcastInDim S500000x64 ![] bcast_S_S500000x64 (constant S_ .f32 0x7FC00000#32))

/-- The wrapped indices as an [R, 1] column: label endpoints into a 50000-row table. -/
def colLM (i : IVec S500000 32) : IVec S500000x1 32 :=
  broadcastInDim S500000x1 ![0] bcast_S500000_S500000x1_0 (select (cmpi .slt i (broadcastInDim S500000 ![] bcast_S_S500000 (constantI S_ 32 0#32))) (addi i (broadcastInDim S500000 ![] bcast_S_S500000 (constantI S_ 32 50000#32))) i)
/-- Per row: is the wrapped index inside [0, 49999]. -/
def okLM (i : IVec S500000 32) : IVec S500000 1 :=
  Host.reduce IntOp.andi (andi (cmpi .sge (colLM i) (broadcastInDim S500000x1 ![] bcast_S_S500000x1 (constantI S_ 32 0#32))) (cmpi .sle (colLM i) (broadcastInDim S500000x1 ![0, 1] bcast_S1x1_S500000x1_0_1 (broadcastInDim S1x1 ![1] bcast_S1_S1x1_1 (constantI S1 32 49999#32))))) (constantI S_ 1 1#1) reducesTo_S500000x1_S500000_d1 h_S_
/-- The look-up: the gathered row where the index is inside, the fill pattern elsewhere. -/
def rowsLM (x : FVec F S50000x64 .f32) (i : IVec S500000 32) : FVec F S500000x64 .f32 :=
  select (broadcastInDim S500000x64 ![0] bcast_S500000_S500000x64_0 (okLM i)) (Host.gather gather_S50000x64_S500000x1_S500000x64_1_0_n_n_0_1_164 x (colLM i)) (broadcastInDim S500000x64 ![] bcast_S_S500000x64 (constant S_ .f32 0x7FC00000#32))

end Cert.KernelIdeal.KTake

end
-- ==== Proof.Spec.lean ====
/-
  The reference's computation, stage by stage, as whole-array functions of the argument arrays: the embedding
  look-ups, the feature projection, the two rounds of mean aggregation and linear combination over the
  bipartite user–movie graph, and the dot-product decoder on the label edges. Each stage is the reference's own
  chain of host operations, so the reference's result is `out` of its arguments by unfolding.
  A look-up `rows x idx` first maps a negative index `i` to `i + n` (numpy's convention) and then gathers row `i`.
-/
import proofs.«406355_j49280454754830_3_alg».proof.ReferenceIdeal
import proofs.«406355_j49280454754830_3_alg».proof.Proof.Gen.ReferenceIdeal

noncomputable section

namespace Cert.ReferenceIdeal.Spec

open Cert.ReferenceIdeal Cert.ReferenceIdeal.Gen Idealize.ShloMosaic

variable {F : FTy → Type} [FloatOps F]

/-! ## Index columns: a negative index wraps once, then the indices stand as an [R, 1] column -/

/-- user ids [100000] into a table of 100000 rows. -/
def colU (i : IVec S100000 32) : IVec S100000x1 32 :=
  broadcastInDim S100000x1 ![0] bcast_S100000_S100000x1_0 (select (cmpi .slt i (broadcastInDim S100000 ![] bcast_S_S100000 (constantI S_ 32 0#32))) (addi i (broadcastInDim S100000 ![] bcast_S_S100000 (constantI S_ 32 100000#32))) i)
/-- movie ids [50000] into a table of 50000 rows. -/
def colM (i : IVec S50000 32) : IVec S50000x1 32 :=
  broadcastInDim S50000x1 ![0] bcast_S50000_S50000x1_0 (select (cmpi .slt i (broadcastInDim S50000 ![] bcast_S_S50000 (constantI S_ 32 0#32))) (addi i (broadcastInDim S50000 ![] bcast_S_S50000 (constantI S_ 32 50000#32))) i)
/-- edge endpoints [2000000] into a table of 100000 rows. -/
def colEU (i : IVec S2000000 32) : IVec S2000000x1 32 :=
  broadcastInDim S2000000x1 ![0] bcast_S2000000_S2000000x1_0 (select (cmpi .slt i (broadcastInDim S2000000 ![] bcast_S_S2000000 (constantI S_ 32 0#32))) (addi i (broadcastInDim S2000000 ![] bcast_S_S2000000 (constantI S_ 32 100000#32))) i)
/-- edge endpoints [2000000] into a table of 50000 rows. -/
def colEM (i : IVec S2000000 32) : IVec S2000000x1 32 :=
  broadcastInDim S2000000x1 ![0] bcast_S2000000_S2000000x1_0 (select (cmpi .slt i (broadcastInDim S2000000 ![] bcast_S_S2000000 (constantI S_ 32 0#32))) (addi i (broadcastInDim S2000000 ![] bcast_S_S2000000 (constantI S_ 32 50000#32))) i)
/-- label endpoints [500000] into a table of 100000 rows. -/
def colLU (i : IVec S500000 32) : IVec S500000x1 32 :=
  broadcastInDim S500000x1 ![0] bcast_S500000_S500000x1_0 (select (cmpi .slt i (broadcastInDim S500000 ![] bcast_S_S500000 (constantI S_ 32 0#32))) (addi i (broadcastInDim S500000 ![] bcast_S_S500000 (constantI S_ 32 100000#32))) i)
/-- label endpoints [500000] into a table of 50000 rows. -/
def colLM (i : IVec S500000 32) : IVec S500000x1 32 :=
  broadcastInDim S500000x1 ![0] bcast_S500000_S500000x1_0 (select (cmpi .slt i (broadcastInDim S500000 ![] bcast_S_S500000 (constantI S_ 32 0#32))) (addi i (broadcastInDim S500000 ![] bcast_S_S500000 (constantI S_ 32 50000#32))) i)

/-! ## Row look-ups by sizes -/

/-- Rows of a 100000-row table at user ids. -/
def rowsU (x : FVec F S100000x64 .f32) (i : IVec S100000 32) : FVec F S100000x64 .f32 := Host.gather gather_S100000x64_S100000x1_S100000x64_1_0_n_n_0_1_164 x (colU i)
/-- Rows of a 50000-row table at movie ids. -/
def rowsM (x : FVec F S50000x64 .f32) (i : IVec S50000 32) : FVec F S50000x64 .f32 := Host.gather gather_S50000x64_S50000x1_S50000x64_1_0_n_n_0_1_164 x (colM i)
/-- Rows of a 100000-row table at edge endpoints. -/
def rowsEU (x : FVec F S100000x64 .f32) (i : IVec S2000000 32) : FVec F S2000000x64 .f32 := Host.gather gather_S100000x64_S2000000x1_S2000000x64_1_0_n_n_0_1_164 x (colEU i)
/-- Rows of a 50000-row table at edge endpoints. -/
def rowsEM (x : FVec F S50000x64 .f32) (i : IVec S2000000 32) : FVec F S2000000x64 .f32 := Host.gather gather_S50000x64_S2000000x1_S2000000x64_1_0_n_n_0_1_164 x (colEM i)
/-- Rows of a 100000-row table at label endpoints. -/
def rowsLU (x : FVec F S100000x64 .f32) (i : IVec S500000 32) : FVec F S500000x64 .f32 := Host.gather gather_S100000x64_S500000x1_S500000x64_1_0_n_n_0_1_164 x (colLU i)
/-- Rows of a 50000-row table at label endpoints. -/
def rowsLM (x : FVec F S50000x64 .f32) (i : IVec S500000 32) : FVec F S500000x64 .f32 := Host.gather gather_S50000x64_S500000x1_S500000x64_1_0_n_n_0_1_164 x (colLM i)

/-! ## Feature initialisation -/

/-- x_user = user_emb[user_node_id]. -/
def xUser (emb : FVec F S100000x64 .f32) (ids : IVec S100000 32) : FVec F S100000x64 .f32 :=
  Host.gather gather_S100000x64_S100000x1_S100000x64_1_0_n_n_0_1_164 emb (colU ids)
/-- movie_emb[movie_node_id]. -/
def embMovie (emb : FVec F S50000x64 .f32) (ids : IVec S50000 32) : FVec F S50000x64 .f32 :=
  Host.gather gather_S50000x64_S50000x1_S50000x64_1_0_n_n_0_1_164 emb (colM ids)
/-- x·Wᵀ + b + e with Wᵀ already transposed: the projection of the movie features plus the movie embedding. -/
def feat (x : FVec F S50000x128 .f32) (wT : FVec F S128x64 .f32) (b : FVec F S64 .f32) (e : FVec F S50000x64 .f32) : FVec F S50000x64 .f32 :=
  addf (addf (Host.dotGeneral dot_S50000x128_S128x64_S50000x64_1_0_0_1_n_n none x wT) (broadcastInDim S50000x64 ![0, 1] bcast_S1x64_S50000x64_0_1 (broadcastInDim S1x64 ![1] bcast_S64_S1x64_1 b))) e
/-- The transposed projection weight. -/
def wT128 (w : FVec F S64x128 .f32) : FVec F S128x64 .f32 := transpose S128x64 [1, 0] w transposes_S64x128_S128x64_1_0
/-- A transposed 64×64 weight. -/
def wT64 (w : FVec F S64x64 .f32) : FVec F S64x64 .f32 := transpose S64x64 [1, 0] w transposes_S64x64_S64x64_1_0

/-! ## Aggregation over the edges: gather the source rows, add them into their destination rows; in-degrees -/

/-- Per-edge rows added into their destination movie rows, from zero. -/
def sumToMovie (msg : FVec F S2000000x64 .f32) (dst : IVec S2000000 32) : FVec F S50000x64 .f32 :=
  Host.scatterAdd scatter_S50000x64_S2000000x1_S2000000x64_1_0_0_1 (broadcastInDim S50000x64 ![] bcast_S_S50000x64 (constant S_ .f32 0x00000000#32)) (broadcastInDim S2000000x1 ![0] bcast_S2000000_S2000000x1_0 dst) msg
/-- Per-edge rows added into their destination user rows, from zero. -/
def sumToUser (msg : FVec F S2000000x64 .f32) (dst : IVec S2000000 32) : FVec F S100000x64 .f32 :=
  Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 dst) msg
/-- Sum over edges (u → v) of the user rows into the movie rows. -/
def aggToMovie (xu : FVec F S100000x64 .f32) (src : IVec S2000000 32) (dst : IVec S2000000 32) : FVec F S50000x64 .f32 :=
  sumToMovie (rowsEU xu src) dst
/-- Sum over edges (u → v) of the movie rows into the user rows. -/
def aggToUser (xm : FVec F S50000x64 .f32) (src : IVec S2000000 32) (dst : IVec S2000000 32) : FVec F S100000x64 .f32 :=
  sumToUser (rowsEM xm src) dst
/-- Number of edges into each movie. -/
def degMovie (dst : IVec S2000000 32) : FVec F S50000 .f32 :=
  Host.scatterAdd scatter_S50000_S2000000x1_S2000000_n_0_0_1 (broadcastInDim S50000 ![] bcast_S_S50000 (constant S_ .f32 0x00000000#32)) (broadcastInDim S2000000x1 ![0] bcast_S2000000_S2000000x1_0 dst) (broadcastInDim S2000000 ![] bcast_S_S2000000 (constant S_ .f32 0x3F800000#32))
/-- Number of edges into each user. -/
def degUser (dst : IVec S2000000 32) : FVec F S100000 .f32 :=
  Host.scatterAdd scatter_S100000_S2000000x1_S2000000_n_0_0_1 (broadcastInDim S100000 ![] bcast_S_S100000 (constant S_ .f32 0x00000000#32)) (broadcastInDim S2000000x1 ![0] bcast_S2000000_S2000000x1_0 dst) (broadcastInDim S2000000 ![] bcast_S_S2000000 (constant S_ .f32 0x3F800000#32))

/-! ## The combine: (agg / max(deg, 1))·W_lᵀ + b + x·W_rᵀ, the weights already transposed -/

/-- On the 50000 movie rows. -/
def sageM (agg : FVec F S50000x64 .f32) (deg : FVec F S50000 .f32) (x : FVec F S50000x64 .f32) (wlT : FVec F S64x64 .f32) (b : FVec F S64 .f32) (wrT : FVec F S64x64 .f32) : FVec F S50000x64 .f32 :=
  addf (addf (Host.dotGeneral dot_S50000x64_S64x64_S50000x64_1_0_0_1_n_n none (Host.divf agg (broadcastInDim S50000x64 ![0, 1] bcast_S50000x1_S50000x64_0_1 (broadcastInDim S50000x1 ![0] bcast_S50000_S50000x1_0 (maximumf deg (broadcastInDim S50000 ![] bcast_S_S50000 (constant S_ .f32 0x3F800000#32)))))) wlT) (broadcastInDim S50000x64 ![0, 1] bcast_S1x64_S50000x64_0_1 (broadcastInDim S1x64 ![1] bcast_S64_S1x64_1 b))) (Host.dotGeneral dot_S50000x64_S64x64_S50000x64_1_0_0_1_n_n none x wrT)
/-- On the 100000 user rows. -/
def sageU (agg : FVec F S100000x64 .f32) (deg : FVec F S100000 .f32) (x : FVec F S100000x64 .f32) (wlT : FVec F S64x64 .f32) (b : FVec F S64 .f32) (wrT : FVec F S64x64 .f32) : FVec F S100000x64 .f32 :=
  addf (addf (Host.dotGeneral dot_S100000x64_S64x64_S100000x64_1_0_0_1_n_n none (Host.divf agg (broadcastInDim S100000x64 ![0, 1] bcast_S100000x1_S100000x64_0_1 (broadcastInDim S100000x1 ![0] bcast_S100000_S100000x1_0 (maximumf deg (broadcastInDim S100000 ![] bcast_S_S100000 (constant S_ .f32 0x3F800000#32)))))) wlT) (broadcastInDim S100000x64 ![0, 1] bcast_S1x64_S100000x64_0_1 (broadcastInDim S1x64 ![1] bcast_S64_S1x64_1 b))) (Host.dotGeneral dot_S100000x64_S64x64_S100000x64_1_0_0_1_n_n none x wrT)
/-- The rectifier on movie rows. -/
def reluM (x : FVec F S50000x64 .f32) : FVec F S50000x64 .f32 :=
  maximumf x (broadcastInDim S50000x64 ![] bcast_S_S50000x64 (constant S_ .f32 0x00000000#32))
/-- The rectifier on user rows. -/
def reluU (x : FVec F S100000x64 .f32) : FVec F S100000x64 .f32 :=
  maximumf x (broadcastInDim S100000x64 ![] bcast_S_S100000x64 (constant S_ .f32 0x00000000#32))

/-! ## The decoder: the inner product of a user row and a movie row per label edge -/

/-- Row-wise inner products of two [500000, 64] arrays. -/
def rowDots (a b : FVec F S500000x64 .f32) : FVec F S500000 .f32 :=
  Host.reduceAdd (mulf a b) (constant S_ .f32 0x00000000#32) reducesTo_S500000x64_S500000_d1 h_S_
/-- The score of each label edge. -/
def decode (ou : FVec F S100000x64 .f32) (om : FVec F S50000x64 .f32) (lu : IVec S500000 32) (lm : IVec S500000 32) : FVec F S500000 .f32 :=
  rowDots (rowsLU ou lu) (rowsLM om lm)

/-! ## The whole computation -/

/-- The reference's result as a function of its 23 arguments (movie features, the two id arrays, the edge and label
    endpoint arrays, the embeddings, the projection, and the four combines' weights). -/
def out (a0 : FVec F S50000x128 .f32) (a1 : IVec S100000 32) (a2 : IVec S50000 32) (a3 a4 : IVec S2000000 32) (a5 a6 : IVec S500000 32)
    (a7 : FVec F S100000x64 .f32) (a8 : FVec F S50000x64 .f32) (a9 : FVec F S64x128 .f32) (a10 : FVec F S64 .f32)
    (a11 : FVec F S64x64 .f32) (a12 : FVec F S64 .f32) (a13 a14 : FVec F S64x64 .f32) (a15 : FVec F S64 .f32) (a16 a17 : FVec F S64x64 .f32)
    (a18 : FVec F S64 .f32) (a19 a20 : FVec F S64x64 .f32) (a21 : FVec F S64 .f32) (a22 : FVec F S64x64 .f32) : FVec F S500000 .f32 :=
  let xu := rowsU a7 a1
  let xm := feat a0 (wT128 a9) a10 (rowsM a8 a2)
  let hm := reluM (sageM (aggToMovie xu a3 a4) (degMovie a4) xm (wT64 a11) a12 (wT64 a13))
  let hu := reluU (sageU (aggToUser xm a4 a3) (degUser a3) xu (wT64 a14) a15 (wT64 a16))
  let om := sageM (aggToMovie hu a3 a4) (degMovie a4) hm (wT64 a17) a18 (wT64 a19)
  let ou := sageU (aggToUser hm a4 a3) (degUser a3) hu (wT64 a20) a21 (wT64 a22)
  decode ou om a5 a6

end Cert.ReferenceIdeal.Spec

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.KStretch.lean ====
/-
  What each stretch of host operations of the kernel program computes, from ANY contents `V` of the buffers it
  starts from: the row look-ups (with their out-of-range fill), the in-degree columns, the per-edge sums into
  destination rows, the transposed weights, and the final row-wise inner products. Each is read off the stretch's
  list of operations; the right-hand sides are the named whole-array functions.
-/
import proofs.«406355_j49280454754830_3_alg».proof.Proof.Gen.KernelIdeal.Launch
import proofs.«406355_j49280454754830_3_alg».proof.Proof.KTake
import proofs.«406355_j49280454754830_3_alg».proof.Proof.Spec
import proofs.«406355_j49280454754830_3_alg».proof.Proof.LibTRef
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo
open Cert.KernelIdeal.KTake

variable {F : FTy → Type} [FloatOps F] (V : Valuation τ sig (Elt F))

local macro "dr" : term => `(Proc.devRef .tc)

/-! ## The typed views of a buffer are the buffer: each buffer's type is the value's, by the signature's table -/

variable {Val : EltTy → Type}

theorem to_main_v0 (x : (⟨S100000x64, .f32⟩ : BufTy).Contents Val) : (TRef.of main_v0 : TRef sig ⟨S100000x64, .f32⟩).toBuf x = x := rfl
theorem of_main_arg7 (x : (Proc.devRef .tc main_arg7 : DevRef τ sig).ty.Contents Val) : (TRef.of main_arg7 : TRef sig ⟨S100000x64, .f32⟩).ofBuf x = x := rfl
theorem of_main_arg1 (x : (Proc.devRef .tc main_arg1 : DevRef τ sig).ty.Contents Val) : (TRef.of main_arg1 : TRef sig ⟨S100000, .i32⟩).ofBuf x = x := rfl
theorem to_main_v1 (x : (⟨S50000x64, .f32⟩ : BufTy).Contents Val) : (TRef.of main_v1 : TRef sig ⟨S50000x64, .f32⟩).toBuf x = x := rfl
theorem of_main_arg8 (x : (Proc.devRef .tc main_arg8 : DevRef τ sig).ty.Contents Val) : (TRef.of main_arg8 : TRef sig ⟨S50000x64, .f32⟩).ofBuf x = x := rfl
theorem of_main_arg2 (x : (Proc.devRef .tc main_arg2 : DevRef τ sig).ty.Contents Val) : (TRef.of main_arg2 : TRef sig ⟨S50000, .i32⟩).ofBuf x = x := rfl
theorem to_main_v13 (x : (⟨S2000000x64, .f32⟩ : BufTy).Contents Val) : (TRef.of main_v13 : TRef sig ⟨S2000000x64, .f32⟩).toBuf x = x := rfl
theorem of_main_v0 (x : (Proc.devRef .tc main_v0 : DevRef τ sig).ty.Contents Val) : (TRef.of main_v0 : TRef sig ⟨S100000x64, .f32⟩).ofBuf x = x := rfl
theorem of_main_arg3 (x : (Proc.devRef .tc main_arg3 : DevRef τ sig).ty.Contents Val) : (TRef.of main_arg3 : TRef sig ⟨S2000000, .i32⟩).ofBuf x = x := rfl
theorem to_main_v20 (x : (⟨S2000000x64, .f32⟩ : BufTy).Contents Val) : (TRef.of main_v20 : TRef sig ⟨S2000000x64, .f32⟩).toBuf x = x := rfl
theorem of_main_v3 (x : (Proc.devRef .tc main_v3 : DevRef τ sig).ty.Contents Val) : (TRef.of main_v3 : TRef sig ⟨S50000x64, .f32⟩).ofBuf x = x := rfl
theorem of_main_arg4 (x : (Proc.devRef .tc main_arg4 : DevRef τ sig).ty.Contents Val) : (TRef.of main_arg4 : TRef sig ⟨S2000000, .i32⟩).ofBuf x = x := rfl
theorem to_main_v27 (x : (⟨S2000000x64, .f32⟩ : BufTy).Contents Val) : (TRef.of main_v27 : TRef sig ⟨S2000000x64, .f32⟩).toBuf x = x := rfl
theorem of_main_v26 (x : (Proc.devRef .tc main_v26 : DevRef τ sig).ty.Contents Val) : (TRef.of main_v26 : TRef sig ⟨S100000x64, .f32⟩).ofBuf x = x := rfl
theorem to_main_v34 (x : (⟨S2000000x64, .f32⟩ : BufTy).Contents Val) : (TRef.of main_v34 : TRef sig ⟨S2000000x64, .f32⟩).toBuf x = x := rfl
theorem of_main_v19 (x : (Proc.devRef .tc main_v19 : DevRef τ sig).ty.Contents Val) : (TRef.of main_v19 : TRef sig ⟨S50000x64, .f32⟩).ofBuf x = x := rfl
theorem to_main_v41 (x : (⟨S500000x64, .f32⟩ : BufTy).Contents Val) : (TRef.of main_v41 : TRef sig ⟨S500000x64, .f32⟩).toBuf x = x := rfl
theorem of_main_v40 (x : (Proc.devRef .tc main_v40 : DevRef τ sig).ty.Contents Val) : (TRef.of main_v40 : TRef sig ⟨S100000x64, .f32⟩).ofBuf x = x := rfl
theorem of_main_arg5 (x : (Proc.devRef .tc main_arg5 : DevRef τ sig).ty.Contents Val) : (TRef.of main_arg5 : TRef sig ⟨S500000, .i32⟩).ofBuf x = x := rfl
theorem to_main_v42 (x : (⟨S500000x64, .f32⟩ : BufTy).Contents Val) : (TRef.of main_v42 : TRef sig ⟨S500000x64, .f32⟩).toBuf x = x := rfl
theorem of_main_v33 (x : (Proc.devRef .tc main_v33 : DevRef τ sig).ty.Contents Val) : (TRef.of main_v33 : TRef sig ⟨S50000x64, .f32⟩).ofBuf x = x := rfl
theorem of_main_arg6 (x : (Proc.devRef .tc main_arg6 : DevRef τ sig).ty.Contents Val) : (TRef.of main_arg6 : TRef sig ⟨S500000, .i32⟩).ofBuf x = x := rfl

/-! ## Before the first region -/

theorem v0_typed : after hostOps0 V (dr main_v0) = (TRef.of main_v0 : TRef sig ⟨S100000x64, .f32⟩).toBuf (rowsU ((TRef.of main_arg7 : TRef sig ⟨S100000x64, .f32⟩).ofBuf (V (dr main_arg7))) ((TRef.of main_arg1 : TRef sig ⟨S100000, .i32⟩).ofBuf (V (dr main_arg1)))) := by
  after_results_simp
  simp only [TRef.ofBuf_toBuf]
  rfl
theorem v0 : after hostOps0 V (dr main_v0) = rowsU (V (dr main_arg7)) (V (dr main_arg1)) :=
  (v0_typed V).trans (by rw [to_main_v0, of_main_arg7, of_main_arg1])
theorem v1_typed : after hostOps0_1 V (dr main_v1) = (TRef.of main_v1 : TRef sig ⟨S50000x64, .f32⟩).toBuf (rowsM ((TRef.of main_arg8 : TRef sig ⟨S50000x64, .f32⟩).ofBuf (V (dr main_arg8))) ((TRef.of main_arg2 : TRef sig ⟨S50000, .i32⟩).ofBuf (V (dr main_arg2)))) := by
  after_results_simp
  simp only [TRef.ofBuf_toBuf]
  rfl
theorem v1 : after hostOps0_1 V (dr main_v1) = rowsM (V (dr main_arg8)) (V (dr main_arg2)) :=
  (v1_typed V).trans (by rw [to_main_v1, of_main_arg8, of_main_arg2])
theorem v2 : after hostOps0_2 V (dr main_v2) = Cert.ReferenceIdeal.Spec.wT128 (V (dr main_arg9)) := by
  after_results_simp <;> rfl

/-! ## Between the first and the second region -/

theorem v8 : after hostOps1 V (dr main_v8) = broadcastInDim S50000x1 ![0] bcast_S50000_S50000x1_0 (Cert.ReferenceIdeal.Spec.degMovie (V (dr main_arg4))) := by
  after_results_simp <;> rfl
theorem v12 : after hostOps1 V (dr main_v12) = broadcastInDim S100000x1 ![0] bcast_S100000_S100000x1_0 (Cert.ReferenceIdeal.Spec.degUser (V (dr main_arg3))) := by
  after_results_simp <;> rfl
theorem v13_typed : after hostOps1_1 V (dr main_v13) = (TRef.of main_v13 : TRef sig ⟨S2000000x64, .f32⟩).toBuf (rowsEU ((TRef.of main_v0 : TRef sig ⟨S100000x64, .f32⟩).ofBuf (V (dr main_v0))) ((TRef.of main_arg3 : TRef sig ⟨S2000000, .i32⟩).ofBuf (V (dr main_arg3)))) := by
  after_results_simp
  simp only [TRef.ofBuf_toBuf]
  rfl
theorem v13 : after hostOps1_1 V (dr main_v13) = rowsEU (V (dr main_v0)) (V (dr main_arg3)) :=
  (v13_typed V).trans (by rw [to_main_v13, of_main_v0, of_main_arg3])
theorem v16 : after hostOps1_2 V (dr main_v16) = Cert.ReferenceIdeal.Spec.sumToMovie (V (dr main_v13)) (V (dr main_arg4)) := by
  after_results_simp <;> rfl
theorem v17 : after hostOps1_2 V (dr main_v17) = Cert.ReferenceIdeal.Spec.wT64 (V (dr main_arg11)) := by
  after_results_simp <;> rfl
theorem v18 : after hostOps1_2 V (dr main_v18) = Cert.ReferenceIdeal.Spec.wT64 (V (dr main_arg13)) := by
  after_results_simp <;> rfl

/-! ## Between the second and the third region -/

theorem v20_typed : after hostOps2 V (dr main_v20) = (TRef.of main_v20 : TRef sig ⟨S2000000x64, .f32⟩).toBuf (rowsEM ((TRef.of main_v3 : TRef sig ⟨S50000x64, .f32⟩).ofBuf (V (dr main_v3))) ((TRef.of main_arg4 : TRef sig ⟨S2000000, .i32⟩).ofBuf (V (dr main_arg4)))) := by
  after_results_simp
  simp only [TRef.ofBuf_toBuf]
  rfl
theorem v20 : after hostOps2 V (dr main_v20) = rowsEM (V (dr main_v3)) (V (dr main_arg4)) :=
  (v20_typed V).trans (by rw [to_main_v20, of_main_v3, of_main_arg4])
theorem v23 : after hostOps2_1 V (dr main_v23) = Cert.ReferenceIdeal.Spec.sumToUser (V (dr main_v20)) (V (dr main_arg3)) := by
  after_results_simp <;> rfl
theorem v24 : after hostOps2_1 V (dr main_v24) = Cert.ReferenceIdeal.Spec.wT64 (V (dr main_arg14)) := by
  after_results_simp <;> rfl
theorem v25 : after hostOps2_1 V (dr main_v25) = Cert.ReferenceIdeal.Spec.wT64 (V (dr main_arg16)) := by
  after_results_simp <;> rfl

/-! ## Between the third and the fourth region -/

theorem v27_typed : after hostOps3 V (dr main_v27) = (TRef.of main_v27 : TRef sig ⟨S2000000x64, .f32⟩).toBuf (rowsEU ((TRef.of main_v26 : TRef sig ⟨S100000x64, .f32⟩).ofBuf (V (dr main_v26))) ((TRef.of main_arg3 : TRef sig ⟨S2000000, .i32⟩).ofBuf (V (dr main_arg3)))) := by
  after_results_simp
  simp only [TRef.ofBuf_toBuf]
  rfl
theorem v27 : after hostOps3 V (dr main_v27) = rowsEU (V (dr main_v26)) (V (dr main_arg3)) :=
  (v27_typed V).trans (by rw [to_main_v27, of_main_v26, of_main_arg3])
theorem v30 : after hostOps3_1 V (dr main_v30) = Cert.ReferenceIdeal.Spec.sumToMovie (V (dr main_v27)) (V (dr main_arg4)) := by
  after_results_simp <;> rfl
theorem v31 : after hostOps3_1 V (dr main_v31) = Cert.ReferenceIdeal.Spec.wT64 (V (dr main_arg17)) := by
  after_results_simp <;> rfl
theorem v32 : after hostOps3_1 V (dr main_v32) = Cert.ReferenceIdeal.Spec.wT64 (V (dr main_arg19)) := by
  after_results_simp <;> rfl

/-! ## Between the fourth and the fifth region -/

theorem v34_typed : after hostOps4 V (dr main_v34) = (TRef.of main_v34 : TRef sig ⟨S2000000x64, .f32⟩).toBuf (rowsEM ((TRef.of main_v19 : TRef sig ⟨S50000x64, .f32⟩).ofBuf (V (dr main_v19))) ((TRef.of main_arg4 : TRef sig ⟨S2000000, .i32⟩).ofBuf (V (dr main_arg4)))) := by
  after_results_simp
  simp only [TRef.ofBuf_toBuf]
  rfl
theorem v34 : after hostOps4 V (dr main_v34) = rowsEM (V (dr main_v19)) (V (dr main_arg4)) :=
  (v34_typed V).trans (by rw [to_main_v34, of_main_v19, of_main_arg4])
theorem v37 : after hostOps4_1 V (dr main_v37) = Cert.ReferenceIdeal.Spec.sumToUser (V (dr main_v34)) (V (dr main_arg3)) := by
  after_results_simp <;> rfl
theorem v38 : after hostOps4_1 V (dr main_v38) = Cert.ReferenceIdeal.Spec.wT64 (V (dr main_arg20)) := by
  after_results_simp <;> rfl
theorem v39 : after hostOps4_1 V (dr main_v39) = Cert.ReferenceIdeal.Spec.wT64 (V (dr main_arg22)) := by
  after_results_simp <;> rfl

/-! ## After the last region: the decoder -/

theorem v41_typed : after hostOps5 V (dr main_v41) = (TRef.of main_v41 : TRef sig ⟨S500000x64, .f32⟩).toBuf (rowsLU ((TRef.of main_v40 : TRef sig ⟨S100000x64, .f32⟩).ofBuf (V (dr main_v40))) ((TRef.of main_arg5 : TRef sig ⟨S500000, .i32⟩).ofBuf (V (dr main_arg5)))) := by
  after_results_simp
  simp only [TRef.ofBuf_toBuf]
  rfl
theorem v41 : after hostOps5 V (dr main_v41) = rowsLU (V (dr main_v40)) (V (dr main_arg5)) :=
  (v41_typed V).trans (by rw [to_main_v41, of_main_v40, of_main_arg5])
theorem v42_typed : after hostOps5_1 V (dr main_v42) = (TRef.of main_v42 : TRef sig ⟨S500000x64, .f32⟩).toBuf (rowsLM ((TRef.of main_v33 : TRef sig ⟨S50000x64, .f32⟩).ofBuf (V (dr main_v33))) ((TRef.of main_arg6 : TRef sig ⟨S500000, .i32⟩).ofBuf (V (dr main_arg6)))) := by
  after_results_simp
  simp only [TRef.ofBuf_toBuf]
  rfl
theorem v42 : after hostOps5_1 V (dr main_v42) = rowsLM (V (dr main_v33)) (V (dr main_arg6)) :=
  (v42_typed V).trans (by rw [to_main_v42, of_main_v33, of_main_arg6])
theorem v44 : after hostOps5_2 V (dr main_v44) = Cert.ReferenceIdeal.Spec.rowDots (V (dr main_v41)) (V (dr main_v42)) := by
  after_results_simp <;> rfl

end Cert.KernelIdeal.Stretch

end
-- ==== Proof.TakeCore.lean ====
/-
  A row look-up that guards its gathered rows by an in-range mask: the mask compares every wrapped index with the two ends
  of the table, folds the comparisons of a row by "and", and is laid along the rows to choose between the gathered row and a
  fill pattern. When every index, read as a signed integer, lies in [0, n), a negative-index wrap changes nothing, every
  comparison answers 1, every fold of 1s from 1 is 1, and the choice returns the gathered rows. Stated for any shapes: the
  arrays are read only through "every entry is …".
-/
import Idealize.ShloMosaic.PureOps
import Idealize.ShloMosaic.Lib.ValueIdx
import Idealize.ShloMosaic.Lib.StableHlo.Predicate
import Idealize.ShloMosaic.Lib.ReduceAll

namespace Cert.TakeCore

open Idealize.ShloMosaic Idealize.ShloMosaic.ValueIdx

/-! ## One word -/

/-- A word that reads as a nonnegative integer is not below zero. -/
theorem cmpi_slt_zero (w : BitVec 32) (h : 0 ≤ w.toInt) : IntOp.cmpi .slt w 0#32 = 0#1 := by
  have : w.slt 0#32 = false := by
    simp only [BitVec.slt, BitVec.toInt_zero, decide_eq_false_iff_not]; omega
  simp [IntOp.cmpi, this]

/-- A word that reads as a nonnegative integer is at least zero. -/
theorem cmpi_sge_zero (w : BitVec 32) (h : 0 ≤ w.toInt) : IntOp.cmpi .sge w 0#32 = 1#1 := by
  have : (0#32).sle w = true := by
    simp only [BitVec.sle, BitVec.toInt_zero, decide_eq_true_eq]; exact h
  simp [IntOp.cmpi, this]

/-- The word of a natural number below 2^31 reads, signed, as that number. -/
theorem toInt_ofNat_small (m : Nat) (hm : m < 2 ^ 31) : (BitVec.ofNat 32 m).toInt = m := by
  rw [BitVec.toInt_eq_toNat_of_lt (by rw [BitVec.toNat_ofNat]; omega), BitVec.toNat_ofNat]
  have : m % 2 ^ 32 = m := Nat.mod_eq_of_lt (by omega)
  omega

/-- A word that reads below n is at most the word of n - 1. -/
theorem cmpi_sle_pred (n : Nat) (hn : n ≤ 2 ^ 31) (w : BitVec 32) (h : w.toInt < n) :
    IntOp.cmpi .sle w (BitVec.ofNat 32 (n - 1)) = 1#1 := by
  have : w.sle (BitVec.ofNat 32 (n - 1)) = true := by
    simp only [BitVec.sle, decide_eq_true_eq]
    rw [toInt_ofNat_small (n - 1) (by omega)]; omega
  simp [IntOp.cmpi, this]

/-- The negative-index wrap (i < 0 ? i + n : i) of a word that reads as a nonnegative integer is the word. -/
theorem wrap_word {z nn : BitVec 32} (w : BitVec 32) (hz : z = 0#32) (h : 0 ≤ w.toInt) :
    Scalar.select (IntOp.cmpi .slt w z) (IntOp.addi w nn) w = w := by
  subst hz
  rw [cmpi_slt_zero w h, select_zero]

/-! ## Arrays -/

section Arrays
variable {s sc sr t u : Shape}

/-- The negative-index wrap of an index array whose entries all read as nonnegative integers is the array. -/
theorem wrap_eq (i z nn : IVec s 32) (hz : ∀ k, z k = 0#32) (hi : ∀ k, 0 ≤ (i k).toInt) :
    select (cmpi .slt i z) (addi i nn) i = i := by
  funext k
  rw [select_apply]
  exact wrap_word (i k) (hz k) (hi k)

/-- The wrapped indices, laid out as a column by a broadcast, are entries of the index array itself: each lies in [0, n)
    when every index does. -/
theorem wrap_col_inRange {dims : Fin s.rank → Fin sc.rank} (hb : s.BroadcastsInDim sc dims) (n : Nat)
    (i z nn : IVec s 32) (hz : ∀ k, z k = 0#32) (hi : ∀ k, 0 ≤ (i k).toInt ∧ (i k).toInt < n) (j : sc.Idx) :
    0 ≤ (broadcastInDim sc dims hb (select (cmpi .slt i z) (addi i nn) i) j).toInt ∧
      (broadcastInDim sc dims hb (select (cmpi .slt i z) (addi i nn) i) j).toInt < n := by
  rw [wrap_eq i z nn hz fun k => (hi k).1]
  exact hi _

/-- Every entry in [0, n): the two comparisons with the ends 0 and n - 1 answer 1 at every index, and so does their "and". -/
theorem mask_one (n : Nat) (hn : n ≤ 2 ^ 31) (col lo hi : IVec sc 32) (hlo : ∀ j, lo j = 0#32)
    (hhi : ∀ j, hi j = BitVec.ofNat 32 (n - 1)) (hcol : ∀ j, 0 ≤ (col j).toInt ∧ (col j).toInt < n) (j : sc.Idx) :
    andi (cmpi .sge col lo) (cmpi .sle col hi) j = 1#1 := by
  show IntOp.andi (IntOp.cmpi .sge (col j) (lo j)) (IntOp.cmpi .sle (col j) (hi j)) = 1#1
  rw [hlo, hhi, cmpi_sge_zero _ (hcol j).1, cmpi_sle_pred n hn _ (hcol j).2]
  rfl

/-- A left fold by "and" from 1 over 1s is 1. -/
theorem foldl_andi_one {ι : Type} (f : ι → BitVec 1) (l : List ι) (h : ∀ k ∈ l, f k = 1#1) :
    l.foldl (fun r k => IntOp.andi r (f k)) 1#1 = 1#1 := by
  induction l with
  | nil => rfl
  | cons a l ih =>
    rw [List.foldl_cons, h a (List.mem_cons_self ..)]
    exact ih fun k hk => h k (List.mem_cons_of_mem _ hk)

/-- A reduction by "and", from an initial 1, of an array of 1s is 1 at every result index, whatever axes it folds. -/
theorem reduce_andi_one {axes : List (Fin sc.rank)} (p : IVec sc 1) (init : IVec u 1) (hr : sc.ReducesTo axes sr)
    (hu : 0 < u.numel) (hp : ∀ j, p j = 1#1) (hinit : ∀ k, init k = 1#1) (j : sr.Idx) :
    Host.reduce IntOp.andi p init hr hu j = 1#1 := by
  rw [Host.reduce_eq_foldl, hinit]
  exact foldl_andi_one p _ fun k _ => hp k

/-- A choice by a broadcast of an all-ones mask is its first operand. -/
theorem select_bcast_one {α : Type} {dims : Fin sr.rank → Fin t.rank} (hb : sr.BroadcastsInDim t dims) (m : IVec sr 1)
    (hm : ∀ j, m j = 1#1) (a b : t.Idx → α) : select (broadcastInDim t dims hb m) a b = a := by
  funext j
  rw [select_apply]
  show Scalar.select (m _) (a j) (b j) = a j
  rw [hm, select_one]

/-- The guarded look-up: with every column entry in [0, n) the in-range mask is all ones, and the choice between the
    gathered rows and the fill is the gathered rows. -/
theorem guarded_eq {α : Type} {axes : List (Fin sc.rank)} {dims : Fin sr.rank → Fin t.rank} (n : Nat) (hn : n ≤ 2 ^ 31)
    (col lo hi : IVec sc 32) (init : IVec u 1) (hr : sc.ReducesTo axes sr) (hu : 0 < u.numel)
    (hb : sr.BroadcastsInDim t dims) (hlo : ∀ j, lo j = 0#32) (hhi : ∀ j, hi j = BitVec.ofNat 32 (n - 1))
    (hinit : ∀ k, init k = 1#1) (hcol : ∀ j, 0 ≤ (col j).toInt ∧ (col j).toInt < n) (a b : t.Idx → α) :
    select (broadcastInDim t dims hb (Host.reduce IntOp.andi (andi (cmpi .sge col lo) (cmpi .sle col hi)) init hr hu)) a b
      = a :=
  select_bcast_one hb _ (reduce_andi_one _ init hr hu (mask_one n hn col lo hi hlo hhi hcol) hinit) a b

end Arrays

end Cert.TakeCore
-- ==== Proof.TakeEq.lean ====
/-
  The kernel program's guarded row look-ups are the reference's plain ones when every index is in range. Both wrap a
  negative index once and gather the rows at the wrapped indices; the kernel program then keeps a gathered row only where
  the wrapped index lies between 0 and n - 1 and writes a fill pattern elsewhere. An index in [0, n) is its own wrap and
  passes both comparisons, so the row mask is all ones and nothing is replaced: what remains on each side is the same
  gather of the same table at the same column of indices. Six instances by sizes.
-/
import proofs.«406355_j49280454754830_3_alg».proof.Proof.KTake
import proofs.«406355_j49280454754830_3_alg».proof.Proof.Spec
import proofs.«406355_j49280454754830_3_alg».proof.Proof.TakeCore

namespace Cert.KernelIdeal.KTake

open Cert.KernelIdeal Cert.KernelIdeal.Gen Idealize.ShloMosaic

/- Each instance: the mask's two ends and its initial value are constant arrays (0, n - 1 and 1 at every index), the column
   of wrapped indices has every entry in [0, n), so the choice returns the gathered rows; the two gathers then agree term
   by term, their dimension numbers and shapes having equal values in the two programs. -/

theorem rowsU_eq (x : FVec Ideal S100000x64 .f32) (i : IVec S100000 32) (hi : Cert.InRange 100000 i) :
    rowsU x i = Cert.ReferenceIdeal.Spec.rowsU x i := by
  unfold rowsU okU
  refine (Cert.TakeCore.guarded_eq 100000 (by norm_num) (colU i) _ _ _ _ _ _ ?_ ?_ ?_ ?_ _ _).trans ?_
  · exact fun _ => rfl
  · exact fun _ => rfl
  · exact fun _ => rfl
  · exact Cert.TakeCore.wrap_col_inRange _ 100000 i _ _ (fun _ => rfl) hi
  · rfl

theorem rowsM_eq (x : FVec Ideal S50000x64 .f32) (i : IVec S50000 32) (hi : Cert.InRange 50000 i) :
    rowsM x i = Cert.ReferenceIdeal.Spec.rowsM x i := by
  unfold rowsM okM
  refine (Cert.TakeCore.guarded_eq 50000 (by norm_num) (colM i) _ _ _ _ _ _ ?_ ?_ ?_ ?_ _ _).trans ?_
  · exact fun _ => rfl
  · exact fun _ => rfl
  · exact fun _ => rfl
  · exact Cert.TakeCore.wrap_col_inRange _ 50000 i _ _ (fun _ => rfl) hi
  · rfl

theorem rowsEU_eq (x : FVec Ideal S100000x64 .f32) (i : IVec S2000000 32) (hi : Cert.InRange 100000 i) :
    rowsEU x i = Cert.ReferenceIdeal.Spec.rowsEU x i := by
  unfold rowsEU okEU
  refine (Cert.TakeCore.guarded_eq 100000 (by norm_num) (colEU i) _ _ _ _ _ _ ?_ ?_ ?_ ?_ _ _).trans ?_
  · exact fun _ => rfl
  · exact fun _ => rfl
  · exact fun _ => rfl
  · exact Cert.TakeCore.wrap_col_inRange _ 100000 i _ _ (fun _ => rfl) hi
  · rfl

theorem rowsEM_eq (x : FVec Ideal S50000x64 .f32) (i : IVec S2000000 32) (hi : Cert.InRange 50000 i) :
    rowsEM x i = Cert.ReferenceIdeal.Spec.rowsEM x i := by
  unfold rowsEM okEM
  refine (Cert.TakeCore.guarded_eq 50000 (by norm_num) (colEM i) _ _ _ _ _ _ ?_ ?_ ?_ ?_ _ _).trans ?_
  · exact fun _ => rfl
  · exact fun _ => rfl
  · exact fun _ => rfl
  · exact Cert.TakeCore.wrap_col_inRange _ 50000 i _ _ (fun _ => rfl) hi
  · rfl

theorem rowsLU_eq (x : FVec Ideal S100000x64 .f32) (i : IVec S500000 32) (hi : Cert.InRange 100000 i) :
    rowsLU x i = Cert.ReferenceIdeal.Spec.rowsLU x i := by
  unfold rowsLU okLU
  refine (Cert.TakeCore.guarded_eq 100000 (by norm_num) (colLU i) _ _ _ _ _ _ ?_ ?_ ?_ ?_ _ _).trans ?_
  · exact fun _ => rfl
  · exact fun _ => rfl
  · exact fun _ => rfl
  · exact Cert.TakeCore.wrap_col_inRange _ 100000 i _ _ (fun _ => rfl) hi
  · rfl

theorem rowsLM_eq (x : FVec Ideal S50000x64 .f32) (i : IVec S500000 32) (hi : Cert.InRange 50000 i) :
    rowsLM x i = Cert.ReferenceIdeal.Spec.rowsLM x i := by
  unfold rowsLM okLM
  refine (Cert.TakeCore.guarded_eq 50000 (by norm_num) (colLM i) _ _ _ _ _ _ ?_ ?_ ?_ ?_ _ _).trans ?_
  · exact fun _ => rfl
  · exact fun _ => rfl
  · exact fun _ => rfl
  · exact Cert.TakeCore.wrap_col_inRange _ 50000 i _ _ (fun _ => rfl) hi
  · rfl

end Cert.KernelIdeal.KTake
-- ==== Proof.Pt.lean ====
/-
  The two row-local formulas of this certificate, over the extended reals, stated once for any number of rows.
  A row of the feature projection is  x·Wᵀ + b + e ; a row of a SAGE combine is
  (agg / max(cnt, 1))·W_lᵀ + b + x·W_rᵀ  — the neighbour sum divided by the clamped in-degree, projected, plus
  the projected root features. Both read only row `p` of the row-indexed operands, which is why a block of
  rows of the result is the same formula of the same block of rows of the operands.
-/
import Idealize.ShloMosaic.Lib.ValueIdx

noncomputable section

open scoped BigOperators

namespace Cert.Pt

open Idealize.ShloMosaic Idealize.ShloMosaic.ValueIdx

/-- The f32 word of 1.0 read as an extended real (never evaluated: both programs carry the same word). -/
abbrev one : EReal := Ideal.ofBits .f32 0x3F800000#32
/-- The f32 word of 0.0 read as an extended real. -/
abbrev zero : EReal := Ideal.ofBits .f32 0x00000000#32

/-- Entry (p, q) of  x·Wᵀ + b + e  for x : [n,128], Wᵀ : [128,64], b : [64], e : [n,64]. -/
def featPt {n : Nat} (x : (⟨2, ![n, 128]⟩ : Shape).Idx → EReal) (wT : (⟨2, ![128, 64]⟩ : Shape).Idx → EReal)
    (b : (⟨1, ![64]⟩ : Shape).Idx → EReal) (e : (⟨2, ![n, 64]⟩ : Shape).Idx → EReal) (p : Fin n) (q : Fin 64) : EReal :=
  ((∑ k : Fin 128, x (ix2 p k) * wT (ix2 k q)) + b (ix1 q)) + e (ix2 p q)

/-- Entry (p, q) of  (agg / max(cnt,1))·W_lᵀ + b + x·W_rᵀ  for agg, x : [n,64], cnt : [n,1], the weights [64,64]
    already transposed, b : [64]. -/
def sagePt {n : Nat} (agg : (⟨2, ![n, 64]⟩ : Shape).Idx → EReal) (cnt : (⟨2, ![n, 1]⟩ : Shape).Idx → EReal)
    (x : (⟨2, ![n, 64]⟩ : Shape).Idx → EReal) (wlT : (⟨2, ![64, 64]⟩ : Shape).Idx → EReal)
    (b : (⟨1, ![64]⟩ : Shape).Idx → EReal) (wrT : (⟨2, ![64, 64]⟩ : Shape).Idx → EReal) (p : Fin n) (q : Fin 64) : EReal :=
  ((∑ k : Fin 64, Ideal.div (agg (ix2 p k)) (max (cnt (ix2 p (0 : Fin 1))) one) * wlT (ix2 k q)) + b (ix1 q))
    + ∑ k : Fin 64, x (ix2 p k) * wrT (ix2 k q)

/-- The same entry after the rectifier. -/
def sageReluPt {n : Nat} (agg : (⟨2, ![n, 64]⟩ : Shape).Idx → EReal) (cnt : (⟨2, ![n, 1]⟩ : Shape).Idx → EReal)
    (x : (⟨2, ![n, 64]⟩ : Shape).Idx → EReal) (wlT : (⟨2, ![64, 64]⟩ : Shape).Idx → EReal)
    (b : (⟨1, ![64]⟩ : Shape).Idx → EReal) (wrT : (⟨2, ![64, 64]⟩ : Shape).Idx → EReal) (p : Fin n) (q : Fin 64) : EReal :=
  max (sagePt agg cnt x wlT b wrT p q) zero

end Cert.Pt

end
-- ==== Proof.R0Payload.lean ====
/-
  Entry (p, q) of the feature projection computed on one block of rows: the block's row p of x against column q
  of the transposed weight, summed over the 128 features, plus the bias at q, plus the embedding at (p, q).
-/
import proofs.«406355_j49280454754830_3_alg».proof.Proof.Gen.KernelIdeal.Skeleton
import proofs.«406355_j49280454754830_3_alg».proof.Proof.Pt
import Idealize.ShloMosaic.Lib.Pipeline.Value
import Idealize.ShloMosaic.Lib.ValueIdx
import Idealize.ShloMosaic.PureOps.Ideal.Laws

noncomputable section

open scoped BigOperators

namespace Cert.KernelIdeal.R0

open Cert.KernelIdeal Cert.KernelIdeal.Gen Idealize.ShloMosaic Idealize.ShloMosaic.ValueIdx

/-! ## The contraction's operand indices: output (i₀, i₁) and contraction coordinate k read x at (i₀, k), Wᵀ at (k, i₁) -/

theorem lhs_proj_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_proj_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_proj_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_proj_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero accumulator, at (p, q): the sum over the 128 features. -/
theorem proj_apply {φ₁ φ₂ : FTy} (a : FVec Ideal S10000x128 φ₁) (w : FVec Ideal S128x64 φ₂) (p : Fin 10000) (q : Fin 64) :
    matmul dot_S10000x128_S128x64_S10000x64_1_0_0_1_n_n none a w (constant (F := Ideal) S10000x64 .f32 0x00000000#32) (ix2 p q)
      = ∑ k : Fin 128, a (ix2 p k) * w (ix2 k q) := by
  show FloatOps.matmul dot_S10000x128_S128x64_S10000x64_1_0_0_1_n_n none a w (constant S10000x64 .f32 0x00000000#32) (ix2 p q) = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun b => Fin.ext (by
    match b with
    | ⟨0, _⟩ => exact lhs_proj_0 _ _
    | ⟨1, _⟩ => exact (lhs_proj_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun b => Fin.ext (by
    match b with
    | ⟨0, _⟩ => exact (rhs_proj_0 _ _).trans hk
    | ⟨1, _⟩ => exact rhs_proj_1 _ _)
  rw [el, er]

/-- The bias laid along every row of the block reads, at (p, q), the bias at q. -/
theorem bias_rows_apply (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_apply _ _ (ix2 p q) (ix2 (0 : Fin 1) q) (fun a => by
    match a with
    | ⟨0, _⟩ => rfl
    | ⟨1, _⟩ => rfl)]
  rw [shapeCast_addUnit_apply]
  congr 1
  funext d
  match d with
  | ⟨0, _⟩ => rfl

/-- THE PAYLOAD at (p, q): x·Wᵀ + b + e on the block's rows. -/
theorem payload_apply (x : Vec Ideal S10000x128 .f32) (wT : Vec Ideal S128x64 .f32) (b : Vec Ideal S64 .f32) (e : Vec Ideal S10000x64 .f32)
    (p : Fin 10000) (q : Fin 64) :
    k0_pay1 x wT b e (ix2 p q) = Cert.Pt.featPt x wT b e p q := by
  unfold k0_pay1 Cert.Pt.featPt
  simp only [shapeCast_self]
  rw [addf_apply, addf_apply, proj_apply, bias_rows_apply]
  rfl

end Cert.KernelIdeal.R0

end
-- ==== Proof.R0SpecPt.lean ====
/-
  Entry (r, q) of the reference's feature projection of the whole arrays: row r of x against column q of the
  transposed weight, summed over the 128 features, plus the bias at q, plus the embedding at (r, q).
-/
import proofs.«406355_j49280454754830_3_alg».proof.Proof.Spec
import proofs.«406355_j49280454754830_3_alg».proof.Proof.Pt
import Idealize.ShloMosaic.Lib.Pipeline.Value
import Idealize.ShloMosaic.Lib.ValueIdx
import Idealize.ShloMosaic.PureOps.Ideal.Laws

noncomputable section

open scoped BigOperators

namespace Cert.ReferenceIdeal.R0

open Cert.ReferenceIdeal Cert.ReferenceIdeal.Gen Idealize.ShloMosaic Idealize.ShloMosaic.ValueIdx

/-! ## The contraction's operand indices: output (i₀, i₁) and contraction coordinate k read x at (i₀, k), Wᵀ at (k, i₁) -/

theorem lhs_proj_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_proj_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_proj_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_proj_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's product at (r, q): the sum over the 128 features. -/
theorem proj_apply (x : FVec Ideal S50000x128 .f32) (w : FVec Ideal S128x64 .f32) (r : Fin 50000) (q : Fin 64) :
    Host.dotGeneral dot_S50000x128_S128x64_S50000x64_1_0_0_1_n_n none x w (ix2 r q)
      = ∑ k : Fin 128, x (ix2 r k) * w (ix2 k q) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r q) ((contrEquiv1 dot_S50000x128_S128x64_S50000x64_1_0_0_1_n_n 128 rfl rfl).symm k) = ix2 r k := funext fun b => Fin.ext (by
    match b with
    | ⟨0, _⟩ => exact lhs_proj_0 _ _
    | ⟨1, _⟩ => exact (lhs_proj_1 _ _).trans hk)
  have er : dot_S50000x128_S128x64_S50000x64_1_0_0_1_n_n.rhsIdx (ix2 r q) ((contrEquiv1 dot_S50000x128_S128x64_S50000x64_1_0_0_1_n_n 128 rfl rfl).symm k) = ix2 k q := funext fun b => Fin.ext (by
    match b with
    | ⟨0, _⟩ => exact (rhs_proj_0 _ _).trans hk
    | ⟨1, _⟩ => exact rhs_proj_1 _ _)
  rw [el, er]

/-- The bias laid along every row of the array reads, at (r, q), the bias at q. -/
theorem bias_rows_apply (b : FVec Ideal S64 .f32) (r : Fin 50000) (q : Fin 64) :
    broadcastInDim S50000x64 ![0, 1] bcast_S1x64_S50000x64_0_1 (broadcastInDim S1x64 ![1] bcast_S64_S1x64_1 b) (ix2 r q) = b (ix1 q) := by
  rw [broadcastInDim_apply _ _ _ (ix2 r q) (ix2 (0 : Fin 1) q) (fun a => by
    match a with
    | ⟨0, _⟩ => rfl
    | ⟨1, _⟩ => rfl)]
  rw [broadcastInDim_apply _ _ _ (ix2 (0 : Fin 1) q) (ix1 q) (fun a => by
    match a with
    | ⟨0, _⟩ => rfl)]

/-- THE REFERENCE'S CHAIN at (r, q): x·Wᵀ + b + e on the array's rows. -/
theorem feat_apply (x : FVec Ideal S50000x128 .f32) (wT : FVec Ideal S128x64 .f32) (b : FVec Ideal S64 .f32) (e : FVec Ideal S50000x64 .f32)
    (r : Fin 50000) (q : Fin 64) :
    Cert.ReferenceIdeal.Spec.feat (F := Ideal) x wT b e (ix2 r q) = Cert.Pt.featPt x wT b e r q := by
  unfold Cert.ReferenceIdeal.Spec.feat Cert.Pt.featPt
  rw [addf_apply, addf_apply, proj_apply, bias_rows_apply]

end Cert.ReferenceIdeal.R0

end
-- ==== Proof.R0Value.lean ====
/-
  The feature projection's output array after all five row blocks: the whole-array x·Wᵀ + b + e of the arrays the
  region finds. Point t of the grid computes rows [10000·t, 10000·t + 10000) from the same rows of x and e and the
  whole weight and bias; entry by entry that is the row-local formula of the array at row 10000·t + p, and the five
  blocks cover the 50000 rows (row r lies in block r / 10000).
-/
import proofs.«406355_j49280454754830_3_alg».proof.Proof.Gen.KernelIdeal.Frame
import proofs.«406355_j49280454754830_3_alg».proof.Proof.Spec
import proofs.«406355_j49280454754830_3_alg».proof.Proof.R0Payload
import proofs.«406355_j49280454754830_3_alg».proof.Proof.R0SpecPt
import Idealize.ShloMosaic.Lib.Pipeline.Value
import Idealize.ShloMosaic.Lib.Tactic

set_option maxRecDepth 16384

noncomputable section

open scoped BigOperators

namespace Cert.Pt

open Idealize.ShloMosaic Idealize.ShloMosaic.ValueIdx

/-- Row p of a block and row r of the array give the same entry of x·Wᵀ + b + e when the block's row p of x and e
    is the array's row r and the weight and bias are the same. -/
theorem featPt_of_rows {n m : Nat} (x : (⟨2, ![m, 128]⟩ : Shape).Idx → EReal) (w : (⟨2, ![128, 64]⟩ : Shape).Idx → EReal)
    (b : (⟨1, ![64]⟩ : Shape).Idx → EReal) (e : (⟨2, ![m, 64]⟩ : Shape).Idx → EReal)
    (X : (⟨2, ![n, 128]⟩ : Shape).Idx → EReal) (W : (⟨2, ![128, 64]⟩ : Shape).Idx → EReal)
    (B : (⟨1, ![64]⟩ : Shape).Idx → EReal) (E : (⟨2, ![n, 64]⟩ : Shape).Idx → EReal) (p : Fin m) (r : Fin n) (q : Fin 64)
    (hx : ∀ k : Fin 128, x (ix2 p k) = X (ix2 r k)) (hw : ∀ k : Fin 128, w (ix2 k q) = W (ix2 k q))
    (hb : b (ix1 q) = B (ix1 q)) (he : e (ix2 p q) = E (ix2 r q)) :
    featPt x w b e p q = featPt X W B E r q := by
  unfold featPt
  rw [hb, he, Finset.sum_congr rfl fun k _ => by rw [hx k, hw k]]

end Cert.Pt

namespace Cert.KernelIdeal.R0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_origin2 : (![0, 0] : Fin 2 → Nat) = fun _ => 0 := funext fun a => by fin_cases a <;> rfl
theorem zero_origin1 : (![0] : Fin 1 → Nat) = fun _ => 0 := funext fun a => by fin_cases a <;> rfl

/-- The index maps over the grid: the row-indexed windows (x, e, the output) are at block t of rows at point t, the
    weight's and the bias's block is the whole array at every point. -/
theorem block_indices : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of x·Wᵀ + b + e of the arrays the region finds. -/
theorem rows_written (c : Dev nD) (t : Fin cfg0.N) :
    (dat0 (F := Ideal) V c).flushed 4 t = ((cfg0.win 4).blk t).view.read (Elt Ideal)
      (Cert.ReferenceIdeal.Spec.feat (F := Ideal) (V c main_arg0) (V c main_v2) (V c main_arg10) (V c main_v1)) := by
  show (cfg0.win 4).cut (grid0.coords t) ((dat0 V c).after 4 t) = _
  rw [after0_4]
  unfold out0_4
  rw [View.canon_unit_zero zero_origin2]
  simp only [View.ld_unit_zero (S := S10000x128) zero_origin2, View.ld_unit_zero (S := S128x64) zero_origin2,
    View.ld_unit_zero (S := S64) zero_origin1, View.ld_unit_zero (S := S10000x64) zero_origin2]
  obtain ⟨e00, e01, e10, e11, e20, e30, e31, e40, e41⟩ := block_indices t
  have ht : t.val < 5 := lt_of_lt_of_eq t.isLt N_0
  funext j
  obtain ⟨p, q, rfl⟩ : ∃ (p : Fin 10000) (q : Fin 64), j = ix2 p q := ⟨j 0, j 1, eq_ix2 j⟩
  have hr : t.val * 10000 + p.val < 50000 := by have := p.isLt; omega
  have hemb : ((cfg0.win 4).blk t).view.emb (ix2 p q) = ix2 (⟨t.val * 10000 + p.val, hr⟩ : Fin 50000) q := by
    funext a; apply Fin.ext
    match a with
    | ⟨0, _⟩ => show win0_4.index t (0 : Fin 2) * 10000 + 1 * p.val = t.val * 10000 + p.val; rw [e40]; omega
    | ⟨1, _⟩ => show win0_4.index t (1 : Fin 2) * 64 + 1 * q.val = q.val; rw [e41]; omega
  show k0_pay1 (iblk0 V c 0 t) (iblk0 V c 1 t) (iblk0 V c 2 t) (iblk0 V c 3 t) (ix2 p q)
    = Cert.ReferenceIdeal.Spec.feat (F := Ideal) (V c main_arg0) (V c main_v2) (V c main_arg10) (V c main_v1) (((cfg0.win 4).blk t).view.emb (ix2 p q))
  rw [hemb]
  refine (payload_apply _ _ _ _ p q).trans ?_
  refine Eq.trans ?_ (Cert.ReferenceIdeal.R0.feat_apply _ _ _ _ _ q).symm
  refine Cert.Pt.featPt_of_rows _ _ _ _ _ _ _ _ p _ q (fun k => ?_) (fun k => ?_) ?_ ?_
  · show V c main_arg0 (((cfg0.win 0).blk t).view.emb (ix2 p k)) = V c main_arg0 (ix2 (⟨t.val * 10000 + p.val, hr⟩ : Fin 50000) k)
    refine congrArg _ (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  · show V c main_v2 (((cfg0.win 1).blk t).view.emb (ix2 k q)) = V c main_v2 (ix2 k q)
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 64 + 1 * q.val = q.val; rw [e11]; omega
  · show V c main_arg10 (((cfg0.win 2).blk t).view.emb (ix1 q)) = V c main_arg10 (ix1 q)
    refine congrArg _ (funext fun a => Fin.ext ?_)
    match a with
    | ⟨0, _⟩ => show win0_2.index t (0 : Fin 1) * 64 + 1 * q.val = q.val; rw [e20]; omega
  · show V c main_v1 (((cfg0.win 3).blk t).view.emb (ix2 p q)) = V c main_v1 (ix2 (⟨t.val * 10000 + p.val, hr⟩ : Fin 50000) q)
    refine congrArg _ (funext fun a => Fin.ext ?_)
    match a with
    | ⟨0, _⟩ => show win0_3.index t (0 : Fin 2) * 10000 + 1 * p.val = t.val * 10000 + p.val; rw [e30]; omega
    | ⟨1, _⟩ => show win0_3.index t (1 : Fin 2) * 64 + 1 * q.val = q.val; rw [e31]; omega

/-- An index of the output array is in point t's block iff each coordinate is in the block's range on its axis. -/
theorem mem_rows (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v3).slice (win0_4.rect t)).set ↔ _
  rw [View.set_slice_whole, Rect.mem_set_unit]
  exact Iff.rfl

/-- Row r of the output lies in the block of point r / 10000. -/
theorem rows_covered (i : S50000x64.Idx) :
    ∃ t : Fin cfg0.N, (cfg0.win 4).flush t = true ∧ i ∈ ((cfg0.win 4).blk t).view.set := by
  have h0 : (i 0).val < 50000 := (i 0).isLt
  have h1 : (i 1).val < 64 := (i 1).isLt
  have hN : cfg0.N = 5 := N_0
  let t : Fin cfg0.N := ⟨(i 0).val / 10000, by rw [hN]; omega⟩
  have htv : t.val = (i 0).val / 10000 := rfl
  obtain ⟨-, -, -, -, -, -, -, e40, e41⟩ := block_indices t
  refine ⟨t, flush0_4 t, ?_⟩
  rw [mem_rows]
  intro a
  match a with
  | ⟨0, _⟩ => show win0_4.index t (0 : Fin 2) * 10000 ≤ (i 0).val ∧ (i 0).val < win0_4.index t (0 : Fin 2) * 10000 + 10000; rw [e40, htv]; omega
  | ⟨1, _⟩ => show win0_4.index t (1 : Fin 2) * 64 ≤ (i 1).val ∧ (i 1).val < win0_4.index t (1 : Fin 2) * 64 + 64; rw [e41]; omega

/-- THE OUTPUT ARRAY after the five points is x·Wᵀ + b + e of the arrays the region finds. -/
theorem region0_val (c : Dev nD) :
    (dat0 (F := Ideal) V c).arrAt 4 cfg0.N
      = Cert.ReferenceIdeal.Spec.feat (F := Ideal) (V c main_arg0) (V c main_v2) (V c main_arg10) (V c main_v1) :=
  (dat0 V c).arrAt_eq_of_cover 4 _ (fun t _ => rows_written V c t) rows_covered

example (m : (ℓ : Loc nD τ sig) → Buf (Elt Ideal) ℓ) (ρ : Dev nD → PrngReg) (c : Dev nD) :
    W4 m ρ c (Proc.devRef .tc main_v3) = Cert.ReferenceIdeal.Spec.feat (F := Ideal) (V3 m ρ c main_arg0) (V3 m ρ c main_v2) (V3 m ρ c main_arg10) (V3 m ρ c main_v1) :=
  (W4_arr m ρ c 4).trans (region0_val (V3 m ρ) c)

end Cert.KernelIdeal.R0

end
-- ==== Proof.RMPayload.lean ====
/-
  The rectified and the plain SAGE combine bodies on one block of 5000 rows, read at an entry: the body divides the
  block of neighbour sums by the clamped in-degree column, multiplies by W_lᵀ, adds the bias row, adds the block of
  root features times W_rᵀ (and, in the rectified body, takes the maximum with 0). Entry (p, q) of the result is
  the row-local formula of `Pt` at the loaded blocks. The products into a zero accumulator are plain sums over the
  contracted axis; the changes of float format are the identity on the extended reals.
-/
import proofs.«406355_j49280454754830_3_alg».proof.Proof.Gen.KernelIdeal.Skeleton
import proofs.«406355_j49280454754830_3_alg».proof.Proof.Pt
import Idealize.ShloMosaic.Lib.Pipeline.Value
import Idealize.ShloMosaic.Lib.ValueIdx
import Idealize.ShloMosaic.PureOps.Ideal.Laws

noncomputable section

namespace Cert.KernelIdeal.RM

open Cert.KernelIdeal Cert.KernelIdeal.Gen Idealize.ShloMosaic Idealize.ShloMosaic.ValueIdx
open scoped BigOperators

/-! ## The block product: entry (p, q) of a [5000,64] × [64,64] product into a zero accumulator is the sum over the
    contracted axis -/

theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the block product l·r is ∑ₖ l(p,k)·r(k,q). -/
theorem blk_matmul_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-! ## The two broadcasts of the body -/

/-- A [5000,1] column spread along the 64 lanes reads its row's entry. -/
theorem col_spread_apply (c : FVec Ideal S5000x1 .f32) (p : Fin 5000) (k : Fin 64) :
    broadcastTo S5000x64 c broadcasts_S5000x1_S5000x64 (ix2 p k) = c (ix2 p (0 : Fin 1)) := by
  refine broadcastTo_apply c _ (ix2 p k) (ix2 p (0 : Fin 1)) fun a => ?_
  match a with
  | ⟨0, _⟩ => rfl
  | ⟨1, _⟩ => rfl

/-- The bias [64] viewed as one row [1,64] and spread down the 5000 rows reads its lane's entry. -/
theorem bias_spread_apply (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_apply _ _ (ix2 p q) (ix2 (0 : Fin 1) q) (fun a => by
    match a with
    | ⟨0, _⟩ => rfl
    | ⟨1, _⟩ => rfl)]
  refine shapeCast_apply b _ _ (ix1 q) ?_
  rw [Shape.rowMajor_val_one, Shape.rowMajor_val_two]
  show q.val = 0 * 64 + q.val
  omega

/-! ## The body's payload at an entry -/

/-- Entry (p, q) of the rectified combine's payload is the row-local formula of the loaded blocks. -/
theorem k1_pay1_apply (v0 : Vec Ideal S5000x64 .f32) (v2 : Vec Ideal S5000x1 .f32) (v9 : Vec Ideal S5000x64 .f32)
    (v12 : Vec Ideal S64x64 .f32) (v15 : Vec Ideal S64x64 .f32) (v19 : Vec Ideal S64 .f32) (p : Fin 5000) (q : Fin 64) :
    k1_pay1 (F := Ideal) v0 v2 v9 v12 v15 v19 (ix2 p q) = Cert.Pt.sageReluPt v0 v2 v9 v12 v19 v15 p q := by
  unfold k1_pay1 Cert.Pt.sageReluPt Cert.Pt.sagePt
  simp only [shapeCast_self]
  rw [maximumf_apply, addf_apply, addf_apply, blk_matmul_apply, blk_matmul_apply, bias_spread_apply, broadcast_apply]
  simp only [truncf_apply, divf_apply, col_spread_apply, maximumf_apply, broadcast_apply]
  rfl

/-- Entry (p, q) of the plain combine's payload (the same body without the final maximum). -/
theorem k3_pay1_apply (v0 : Vec Ideal S5000x64 .f32) (v2 : Vec Ideal S5000x1 .f32) (v9 : Vec Ideal S5000x64 .f32)
    (v12 : Vec Ideal S64x64 .f32) (v15 : Vec Ideal S64x64 .f32) (v19 : Vec Ideal S64 .f32) (p : Fin 5000) (q : Fin 64) :
    k3_pay1 (F := Ideal) v0 v2 v9 v12 v15 v19 (ix2 p q) = Cert.Pt.sagePt v0 v2 v9 v12 v19 v15 p q := by
  unfold k3_pay1 Cert.Pt.sagePt
  simp only [shapeCast_self]
  rw [addf_apply, addf_apply, blk_matmul_apply, blk_matmul_apply, bias_spread_apply]
  simp only [truncf_apply, divf_apply, col_spread_apply, maximumf_apply, broadcast_apply]
  rfl

end Cert.KernelIdeal.RM

end
-- ==== Proof.RMSpecPt.lean ====
/-
  The reference's SAGE combine on the 50000 movie rows, read at an entry: the reference clamps the degree vector to
  at least 1, stands it up as a column, spreads it along the lanes, divides the neighbour sums by it, multiplies by
  W_lᵀ, adds the bias row and the root features times W_rᵀ (then the rectifier). Entry (r, q) is the row-local
  formula of `Pt` at the operand arrays, with the in-degree column the degree vector stood up as a column: the
  clamp commutes with standing the vector up because both read the degree of row r.
-/
import proofs.«406355_j49280454754830_3_alg».proof.Proof.Spec
import proofs.«406355_j49280454754830_3_alg».proof.Proof.Pt
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RM

open Cert.ReferenceIdeal Cert.ReferenceIdeal.Gen Idealize.ShloMosaic Idealize.ShloMosaic.ValueIdx
open scoped BigOperators

/-! ## The reference's product on the 50000 rows: entry (r, q) of a [50000,64] × [64,64] product is the sum over
    the contracted axis -/

theorem lhs_arr_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lhs_arr_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs_arr_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs_arr_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- Entry (r, q) of the product l·w is ∑ₖ l(r,k)·w(k,q). -/
theorem arr_dot_apply (l : FVec Ideal S50000x64 .f32) (w : FVec Ideal S64x64 .f32) (r : Fin 50000) (q : Fin 64) :
    Host.dotGeneral dot_S50000x64_S64x64_S50000x64_1_0_0_1_n_n none l w (ix2 r q)
      = ∑ k : Fin 64, l (ix2 r k) * w (ix2 k q) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 r q) ((ValueIdx.contrEquiv1 dot_S50000x64_S64x64_S50000x64_1_0_0_1_n_n 64 rfl rfl).symm k) = ix2 r k := funext fun a => Fin.ext (by
    match a with
    | ⟨0, _⟩ => exact lhs_arr_0 _ _
    | ⟨1, _⟩ => exact (lhs_arr_1 _ _).trans hk)
  have er : dot_S50000x64_S64x64_S50000x64_1_0_0_1_n_n.rhsIdx (ix2 r q) ((ValueIdx.contrEquiv1 dot_S50000x64_S64x64_S50000x64_1_0_0_1_n_n 64 rfl rfl).symm k) = ix2 k q := funext fun a => Fin.ext (by
    match a with
    | ⟨0, _⟩ => exact (rhs_arr_0 _ _).trans hk
    | ⟨1, _⟩ => exact rhs_arr_1 _ _)
  rw [el, er]

/-! ## The reference's broadcasts -/

/-- A degree vector [50000] stood up as a column [50000,1] reads the row's degree. -/
theorem col_of_vec_apply (d : FVec Ideal S50000 .f32) (r : Fin 50000) :
    broadcastInDim S50000x1 ![0] bcast_S50000_S50000x1_0 d (ix2 r (0 : Fin 1)) = d (ix1 r) := by
  refine broadcastInDim_apply _ _ d _ (ix1 r) fun a => ?_
  match a with
  | ⟨0, _⟩ => rfl

/-- A column [50000,1] spread along the 64 lanes reads its row's entry. -/
theorem col_spread_apply (c : FVec Ideal S50000x1 .f32) (r : Fin 50000) (k : Fin 64) :
    broadcastInDim S50000x64 ![0, 1] bcast_S50000x1_S50000x64_0_1 c (ix2 r k) = c (ix2 r (0 : Fin 1)) := by
  refine broadcastInDim_apply _ _ c _ (ix2 r (0 : Fin 1)) fun a => ?_
  match a with
  | ⟨0, _⟩ => rfl
  | ⟨1, _⟩ => rfl

/-- The bias [64] stood as one row [1,64] and spread down the 50000 rows reads its lane's entry. -/
theorem bias_spread_apply (b : FVec Ideal S64 .f32) (r : Fin 50000) (q : Fin 64) :
    broadcastInDim S50000x64 ![0, 1] bcast_S1x64_S50000x64_0_1 (broadcastInDim S1x64 ![1] bcast_S64_S1x64_1 b) (ix2 r q) = b (ix1 q) := by
  rw [broadcastInDim_apply _ _ _ (ix2 r q) (ix2 (0 : Fin 1) q) (fun a => by
    match a with
    | ⟨0, _⟩ => rfl
    | ⟨1, _⟩ => rfl)]
  refine broadcastInDim_apply _ _ b _ (ix1 q) fun a => ?_
  match a with
  | ⟨0, _⟩ => rfl

/-- A scalar spread over any shape reads the scalar. -/
theorem scalar_spread_apply {t : Shape} (h : S_.BroadcastsInDim t ![]) (v : FVec Ideal S_ .f32) (j : t.Idx) :
    broadcastInDim t ![] h v j = v ix0 := by
  refine broadcastInDim_apply _ _ v _ ix0 fun a => a.elim0

/-! ## The reference's combine at an entry -/

/-- Entry (r, q) of the reference's combine on the movie rows is the row-local formula of its operands, the
    in-degree column being the degree vector stood up as a column. -/
theorem sageM_apply (agg : FVec Ideal S50000x64 .f32) (deg : FVec Ideal S50000 .f32) (x : FVec Ideal S50000x64 .f32)
    (wlT : FVec Ideal S64x64 .f32) (b : FVec Ideal S64 .f32) (wrT : FVec Ideal S64x64 .f32) (r : Fin 50000) (q : Fin 64) :
    Spec.sageM (F := Ideal) agg deg x wlT b wrT (ix2 r q)
      = Cert.Pt.sagePt agg (broadcastInDim S50000x1 ![0] bcast_S50000_S50000x1_0 deg) x wlT b wrT r q := by
  unfold Spec.sageM Cert.Pt.sagePt
  rw [addf_apply, addf_apply, arr_dot_apply, arr_dot_apply, bias_spread_apply]
  refine congrArg₂ _ (congrArg₂ _ (Finset.sum_congr rfl fun k _ => ?_) rfl) rfl
  rw [hostDivf_apply, col_spread_apply, col_of_vec_apply, maximumf_apply, scalar_spread_apply, constant_apply, col_of_vec_apply]

/-- The same entry after the rectifier. -/
theorem reluM_sageM_apply (agg : FVec Ideal S50000x64 .f32) (deg : FVec Ideal S50000 .f32) (x : FVec Ideal S50000x64 .f32)
    (wlT : FVec Ideal S64x64 .f32) (b : FVec Ideal S64 .f32) (wrT : FVec Ideal S64x64 .f32) (r : Fin 50000) (q : Fin 64) :
    Spec.reluM (F := Ideal) (Spec.sageM (F := Ideal) agg deg x wlT b wrT) (ix2 r q)
      = Cert.Pt.sageReluPt agg (broadcastInDim S50000x1 ![0] bcast_S50000_S50000x1_0 deg) x wlT b wrT r q := by
  unfold Spec.reluM Cert.Pt.sageReluPt
  rw [maximumf_apply, sageM_apply, scalar_spread_apply, constant_apply]

end Cert.ReferenceIdeal.RM

end
-- ==== Proof.RMValue.lean ====
/-
  The output arrays of the two SAGE combine regions on the 50000 movie rows, as whole-array functions of the
  region's input arrays. The grid has 10 points; point t holds rows [5000·t, 5000·t + 5000) of each row-indexed
  operand and the whole of the two weights and the bias, computes the combine of those rows and writes it back to
  the same rows of the output. The row-local formula of `Pt` reads only row p of the row-indexed operands, so the
  block of rows the point writes is the block of rows of the whole-array formula; the ten blocks cover the
  array (row r is in the block of point r / 5000). The reference's chain of host operations is the same formula
  entry by entry, its in-degree column being the degree vector stood up as a column.
-/
import proofs.«406355_j49280454754830_3_alg».proof.Proof.Gen.KernelIdeal.Frame
import proofs.«406355_j49280454754830_3_alg».proof.Proof.RMPayload
import proofs.«406355_j49280454754830_3_alg».proof.Proof.RMSpecPt
import Idealize.ShloMosaic.Lib.Pipeline.Value
import Idealize.ShloMosaic.Lib.Tactic

set_option maxRecDepth 16384

noncomputable section

namespace Cert.KernelIdeal.RM

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The whole-array formulas -/

/-- The rectified combine of the arrays, entry by entry. -/
abbrev reluG (a0 : S50000x64.Idx → EReal) (a1 : S50000x1.Idx → EReal) (a2 : S50000x64.Idx → EReal)
    (a3 : S64x64.Idx → EReal) (a4 : S64.Idx → EReal) (a5 : S64x64.Idx → EReal) : S50000x64.Idx → EReal :=
  fun i => Cert.Pt.sageReluPt a0 a1 a2 a3 a4 a5 (i 0) (i 1)

/-- The plain combine of the arrays, entry by entry. -/
abbrev plainG (a0 : S50000x64.Idx → EReal) (a1 : S50000x1.Idx → EReal) (a2 : S50000x64.Idx → EReal)
    (a3 : S64x64.Idx → EReal) (a4 : S64.Idx → EReal) (a5 : S64x64.Idx → EReal) : S50000x64.Idx → EReal :=
  fun i => Cert.Pt.sagePt a0 a1 a2 a3 a4 a5 (i 0) (i 1)

/-- The plain formula at row p of blocks that hold row r of the arrays is the formula of the arrays at row r. -/
theorem sagePt_rows (x0 : S5000x64.Idx → EReal) (x1 : S5000x1.Idx → EReal) (x2 : S5000x64.Idx → EReal)
    (x3 : S64x64.Idx → EReal) (x4 : S64.Idx → EReal) (x5 : S64x64.Idx → EReal)
    (a0 : S50000x64.Idx → EReal) (a1 : S50000x1.Idx → EReal) (a2 : S50000x64.Idx → EReal)
    (a3 : S64x64.Idx → EReal) (a4 : S64.Idx → EReal) (a5 : S64x64.Idx → EReal)
    (p : Fin 5000) (q : Fin 64) (i : S50000x64.Idx) (hq : (i 1).val = q.val)
    (h0 : ∀ k : Fin 64, x0 (ix2 p k) = a0 (ix2 (i 0) k)) (h1 : x1 (ix2 p (0 : Fin 1)) = a1 (ix2 (i 0) (0 : Fin 1)))
    (h2 : ∀ k : Fin 64, x2 (ix2 p k) = a2 (ix2 (i 0) k)) (h3 : x3 = a3) (h4 : x4 = a4) (h5 : x5 = a5) :
    Cert.Pt.sagePt x0 x1 x2 x3 x4 x5 p q = plainG a0 a1 a2 a3 a4 a5 i := by
  subst h3 h4 h5
  have e : q = i 1 := Fin.ext hq.symm
  subst e
  show Cert.Pt.sagePt x0 x1 x2 x3 x4 x5 p (i 1) = Cert.Pt.sagePt a0 a1 a2 x3 x4 x5 (i 0) (i 1)
  unfold Cert.Pt.sagePt
  simp only [h0, h1, h2]

/-- The same for the rectified formula. -/
theorem sageReluPt_rows (x0 : S5000x64.Idx → EReal) (x1 : S5000x1.Idx → EReal) (x2 : S5000x64.Idx → EReal)
    (x3 : S64x64.Idx → EReal) (x4 : S64.Idx → EReal) (x5 : S64x64.Idx → EReal)
    (a0 : S50000x64.Idx → EReal) (a1 : S50000x1.Idx → EReal) (a2 : S50000x64.Idx → EReal)
    (a3 : S64x64.Idx → EReal) (a4 : S64.Idx → EReal) (a5 : S64x64.Idx → EReal)
    (p : Fin 5000) (q : Fin 64) (i : S50000x64.Idx) (hq : (i 1).val = q.val)
    (h0 : ∀ k : Fin 64, x0 (ix2 p k) = a0 (ix2 (i 0) k)) (h1 : x1 (ix2 p (0 : Fin 1)) = a1 (ix2 (i 0) (0 : Fin 1)))
    (h2 : ∀ k : Fin 64, x2 (ix2 p k) = a2 (ix2 (i 0) k)) (h3 : x3 = a3) (h4 : x4 = a4) (h5 : x5 = a5) :
    Cert.Pt.sageReluPt x0 x1 x2 x3 x4 x5 p q = reluG a0 a1 a2 a3 a4 a5 i := by
  show max (Cert.Pt.sagePt x0 x1 x2 x3 x4 x5 p q) Cert.Pt.zero = max (plainG a0 a1 a2 a3 a4 a5 i) Cert.Pt.zero
  rw [sagePt_rows x0 x1 x2 x3 x4 x5 a0 a1 a2 a3 a4 a5 p q i hq h0 h1 h2 h3 h4 h5]

/-! # Region 1: the rectified combine -/

/-- The printed index maps, decided over the grid: a row-indexed window's block index is (t, 0), a weight's or the
    bias's is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of neighbour sums at point t is rows [5000·t, 5000·t + 5000) of its array. -/
theorem iblk1_0_apply (c : Dev nD) (t : Fin cfg1.N) (y : S5000x64.Idx) (i : S50000x64.Idx)
    (h0 : (i 0).val = 5000 * t.val + (y 0).val) (h1 : (i 1).val = (y 1).val) :
    (iblk1 V c 0 t : S5000x64.Idx → EReal) y = (V c main_v16 : S50000x64.Idx → EReal) i := by
  obtain ⟨e0, e1, -⟩ := idx_facts1 t
  unfold iblk1
  rw [View.read_apply]
  show V c main_v16 _ = V c main_v16 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The block of the in-degree column at point t is rows [5000·t, 5000·t + 5000) of the column. -/
theorem iblk1_1_apply (c : Dev nD) (t : Fin cfg1.N) (y : S5000x1.Idx) (i : S50000x1.Idx)
    (h0 : (i 0).val = 5000 * t.val + (y 0).val) (h1 : (i 1).val = (y 1).val) :
    (iblk1 V c 1 t : S5000x1.Idx → EReal) y = (V c main_v8 : S50000x1.Idx → EReal) i := by
  obtain ⟨-, -, e0, e1, -⟩ := idx_facts1 t
  unfold iblk1
  rw [View.read_apply]
  show V c main_v8 _ = V c main_v8 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The block of root features at point t is rows [5000·t, 5000·t + 5000) of its array. -/
theorem iblk1_2_apply (c : Dev nD) (t : Fin cfg1.N) (y : S5000x64.Idx) (i : S50000x64.Idx)
    (h0 : (i 0).val = 5000 * t.val + (y 0).val) (h1 : (i 1).val = (y 1).val) :
    (iblk1 V c 2 t : S5000x64.Idx → EReal) y = (V c main_v3 : S50000x64.Idx → EReal) i := by
  obtain ⟨-, -, -, -, e0, e1, -⟩ := idx_facts1 t
  unfold iblk1
  rw [View.read_apply]
  show V c main_v3 _ = V c main_v3 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 64 + 1 * (y 1).val = (i 1).val; rw [e1, h1]; omega

/-- The left weight's block at every point is the whole weight. -/
theorem iblk1_3_eq (c : Dev nD) (t : Fin cfg1.N) :
    (iblk1 V c 3 t : S64x64.Idx → EReal) = (V c main_v17 : S64x64.Idx → EReal) := by
  obtain ⟨-, -, -, -, -, -, e0, e1, -⟩ := idx_facts1 t
  funext y
  unfold iblk1
  rw [View.read_apply]
  show V c main_v17 _ = V c main_v17 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The bias's block at every point is the whole bias. -/
theorem iblk1_4_eq (c : Dev nD) (t : Fin cfg1.N) :
    (iblk1 V c 4 t : S64.Idx → EReal) = (V c main_arg12 : S64.Idx → EReal) := by
  obtain ⟨-, -, -, -, -, -, -, -, e0, -⟩ := idx_facts1 t
  funext y
  unfold iblk1
  rw [View.read_apply]
  show V c main_arg12 _ = V c main_arg12 _
  congr 1
  funext a
  apply Fin.ext
  match a with
  | ⟨0, _⟩ => show win1_4.index t (0 : Fin 1) * 64 + 1 * (y 0).val = (y 0).val; rw [e0]; omega

/-- The right weight's block at every point is the whole weight. -/
theorem iblk1_5_eq (c : Dev nD) (t : Fin cfg1.N) :
    (iblk1 V c 5 t : S64x64.Idx → EReal) = (V c main_v18 : S64x64.Idx → EReal) := by
  obtain ⟨-, -, -, -, -, -, -, -, -, e0, e1, -⟩ := idx_facts1 t
  funext y
  unfold iblk1
  rw [View.read_apply]
  show V c main_v18 _ = V c main_v18 _
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- What point t writes back is block t of the whole-array formula of the arrays as the region finds them. -/
theorem flushed1_eq (c : Dev nD) (t : Fin cfg1.N) :
    (dat1 V c).flushed 6 t = ((cfg1.win 6).blk t).view.read (Elt Ideal)
      (reluG (V c main_v16) (V c main_v8) (V c main_v3) (V c main_v17) (V c main_arg12) (V c main_v18)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2, View.ld_unit_zero (S := S64x64) hz2, View.ld_unit_zero (S := S64) hz1]
  obtain ⟨-, -, -, -, -, -, -, -, -, -, -, e0, e1⟩ := idx_facts1 t
  funext j
  obtain ⟨p, q, rfl⟩ : ∃ (p : Fin 5000) (q : Fin 64), j = ix2 p q := ⟨j 0, j 1, eq_ix2 j⟩
  refine (k1_pay1_apply _ _ _ _ _ _ p q).trans ?_
  refine sageReluPt_rows _ _ _ _ _ _ _ _ _ _ _ _ p q (((cfg1.win 6).blk t).view.emb (ix2 p q)) ?_ ?_ ?_ ?_ ?_ ?_ ?_
  · show win1_6.index t (1 : Fin 2) * 64 + 1 * q.val = q.val
    rw [e1]; omega
  · intro k
    refine iblk1_0_apply V c t (ix2 p k) _ ?_ rfl
    show win1_6.index t (0 : Fin 2) * 5000 + 1 * p.val = 5000 * t.val + p.val
    rw [e0]; omega
  · refine iblk1_1_apply V c t (ix2 p (0 : Fin 1)) _ ?_ rfl
    show win1_6.index t (0 : Fin 2) * 5000 + 1 * p.val = 5000 * t.val + p.val
    rw [e0]; omega
  · intro k
    refine iblk1_2_apply V c t (ix2 p k) _ ?_ rfl
    show win1_6.index t (0 : Fin 2) * 5000 + 1 * p.val = 5000 * t.val + p.val
    rw [e0]; omega
  · exact iblk1_3_eq V c t
  · exact iblk1_4_eq V c t
  · exact iblk1_5_eq V c t

/-- An index of the output array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v19).slice (win1_6.rect t)).set ↔ _
  rw [View.set_slice_whole, Rect.mem_set_unit]
  exact Iff.rfl

/-- Row r is in the block of point r / 5000: the ten blocks cover the array. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 10 := N_1
  have ht : (i 0).val / 5000 < cfg1.N := by show _ < grid1.N; omega
  obtain ⟨-, -, -, -, -, -, -, -, -, -, -, e0, e1⟩ := idx_facts1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]; omega

/-- The output array after the ten points is the whole-array formula of the arrays as the region finds them. -/
theorem final1 (c : Dev nD) : (dat1 V c).arrAt 6 cfg1.N
    = reluG (V c main_v16) (V c main_v8) (V c main_v3) (V c main_v17) (V c main_arg12) (V c main_v18) :=
  (dat1 V c).arrAt_eq_of_cover 6 _ (fun t _ => flushed1_eq V c t) (cover1)

/-- Region 1's output array is the reference's rectified combine of the region's input arrays, the in-degree column being the
    degree vector stood up as a column. -/
theorem region1_val (c : Dev nD) (deg : FVec Ideal Cert.ReferenceIdeal.S50000 .f32)
    (hdeg : V c main_v8 = broadcastInDim Cert.ReferenceIdeal.S50000x1 ![0] Cert.ReferenceIdeal.Gen.bcast_S50000_S50000x1_0 deg) :
    (dat1 (F := Ideal) V c).arrAt 6 cfg1.N
      = Cert.ReferenceIdeal.Spec.reluM (Cert.ReferenceIdeal.Spec.sageM (V c main_v16) deg (V c main_v3) (V c main_v17) (V c main_arg12) (V c main_v18)) := by
  rw [final1]
  funext i
  obtain ⟨r, q, rfl⟩ : ∃ (r : Fin 50000) (q : Fin 64), i = ix2 r q := ⟨i 0, i 1, eq_ix2 i⟩
  refine Eq.trans ?_ (Cert.ReferenceIdeal.RM.reluM_sageM_apply _ deg _ _ _ _ r q).symm
  rw [← hdeg]

/-! # Region 3: the plain combine -/

/-- The printed index maps, decided over the grid: a row-indexed window's block index is (t, 0), a weight's or the
    bias's is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The block of neighbour sums at point t is rows [5000·t, 5000·t + 5000) of its array. -/
theorem iblk3_0_apply (c : Dev nD) (t : Fin cfg3.N) (y : S5000x64.Idx) (i : S50000x64.Idx)
    (h0 : (i 0).val = 5000 * t.val + (y 0).val) (h1 : (i 1).val = (y 1).val) :
    (iblk3 V c 0 t : S5000x64.Idx → EReal) y = (V c main_v30 : S50000x64.Idx → EReal) i := by
  obtain ⟨e0, e1, -⟩ := idx_facts3 t
  unfold iblk3
  rw [View.read_apply]
  show V c main_v30 _ = V c main_v30 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The block of the in-degree column at point t is rows [5000·t, 5000·t + 5000) of the column. -/
theorem iblk3_1_apply (c : Dev nD) (t : Fin cfg3.N) (y : S5000x1.Idx) (i : S50000x1.Idx)
    (h0 : (i 0).val = 5000 * t.val + (y 0).val) (h1 : (i 1).val = (y 1).val) :
    (iblk3 V c 1 t : S5000x1.Idx → EReal) y = (V c main_v8 : S50000x1.Idx → EReal) i := by
  obtain ⟨-, -, e0, e1, -⟩ := idx_facts3 t
  unfold iblk3
  rw [View.read_apply]
  show V c main_v8 _ = V c main_v8 _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 1 + 1 * (y 1).val = (i 1).val; rw [e1, h1]; omega

/-- The block of root features at point t is rows [5000·t, 5000·t + 5000) of its array. -/
theorem iblk3_2_apply (c : Dev nD) (t : Fin cfg3.N) (y : S5000x64.Idx) (i : S50000x64.Idx)
    (h0 : (i 0).val = 5000 * t.val + (y 0).val) (h1 : (i 1).val = (y 1).val) :
    (iblk3 V c 2 t : S5000x64.Idx → EReal) y = (V c main_v19 : S50000x64.Idx → EReal) i := by
  obtain ⟨-, -, -, -, e0, e1, -⟩ := idx_facts3 t
  unfold iblk3
  rw [View.read_apply]
  show V c main_v19 _ = V c main_v19 _
  congr 1
  funext a
  apply Fin.ext
  match a with
  | ⟨0, _⟩ => show win3_2.index t (0 : Fin 2) * 5000 + 1 * (y 0).val = (i 0).val; rw [e0, h0]; omega
  | ⟨1, _⟩ => show win3_2.index t (1 : Fin 2) * 64 + 1 * (y 1).val = (i 1).val; rw [e1, h1]; omega

/-- The left weight's block at every point is the whole weight. -/
theorem iblk3_3_eq (c : Dev nD) (t : Fin cfg3.N) :
    (iblk3 V c 3 t : S64x64.Idx → EReal) = (V c main_v31 : S64x64.Idx → EReal) := by
  obtain ⟨-, -, -, -, -, -, e0, e1, -⟩ := idx_facts3 t
  funext y
  unfold iblk3
  rw [View.read_apply]
  show V c main_v31 _ = V c main_v31 _
  congr 1
  funext a
  apply Fin.ext
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- The bias's block at every point is the whole bias. -/
theorem iblk3_4_eq (c : Dev nD) (t : Fin cfg3.N) :
    (iblk3 V c 4 t : S64.Idx → EReal) = (V c main_arg18 : S64.Idx → EReal) := by
  obtain ⟨-, -, -, -, -, -, -, -, e0, -⟩ := idx_facts3 t
  funext y
  unfold iblk3
  rw [View.read_apply]
  show V c main_arg18 _ = V c main_arg18 _
  congr 1
  funext a
  apply Fin.ext
  match a with
  | ⟨0, _⟩ => show win3_4.index t (0 : Fin 1) * 64 + 1 * (y 0).val = (y 0).val; rw [e0]; omega

/-- The right weight's block at every point is the whole weight. -/
theorem iblk3_5_eq (c : Dev nD) (t : Fin cfg3.N) :
    (iblk3 V c 5 t : S64x64.Idx → EReal) = (V c main_v32 : S64x64.Idx → EReal) := by
  obtain ⟨-, -, -, -, -, -, -, -, -, e0, e1, -⟩ := idx_facts3 t
  funext y
  unfold iblk3
  rw [View.read_apply]
  show V c main_v32 _ = V c main_v32 _
  congr 1
  funext a
  apply Fin.ext
  match a with
  | ⟨0, _⟩ => show win3_5.index t (0 : Fin 2) * 64 + 1 * (y 0).val = (y 0).val; rw [e0]; omega
  | ⟨1, _⟩ => show win3_5.index t (1 : Fin 2) * 64 + 1 * (y 1).val = (y 1).val; rw [e1]; omega

/-- What point t writes back is block t of the whole-array formula of the arrays as the region finds them. -/
theorem flushed3_eq (c : Dev nD) (t : Fin cfg3.N) :
    (dat3 V c).flushed 6 t = ((cfg3.win 6).blk t).view.read (Elt Ideal)
      (plainG (V c main_v30) (V c main_v8) (V c main_v19) (V c main_v31) (V c main_arg18) (V c main_v32)) := by
  show (cfg3.win 6).cut (grid3.coords t) ((dat3 V c).after 6 t) = _
  rw [after3_6]
  unfold out3_6
  rw [View.canon_unit_zero hz2]
  simp only [View.ld_unit_zero (S := S5000x64) hz2, View.ld_unit_zero (S := S5000x1) hz2, View.ld_unit_zero (S := S64x64) hz2, View.ld_unit_zero (S := S64) hz1]
  obtain ⟨-, -, -, -, -, -, -, -, -, -, -, e0, e1⟩ := idx_facts3 t
  funext j
  obtain ⟨p, q, rfl⟩ : ∃ (p : Fin 5000) (q : Fin 64), j = ix2 p q := ⟨j 0, j 1, eq_ix2 j⟩
  refine (k3_pay1_apply _ _ _ _ _ _ p q).trans ?_
  refine sagePt_rows _ _ _ _ _ _ _ _ _ _ _ _ p q (((cfg3.win 6).blk t).view.emb (ix2 p q)) ?_ ?_ ?_ ?_ ?_ ?_ ?_
  · show win3_6.index t (1 : Fin 2) * 64 + 1 * q.val = q.val
    rw [e1]; omega
  · intro k
    refine iblk3_0_apply V c t (ix2 p k) _ ?_ rfl
    show win3_6.index t (0 : Fin 2) * 5000 + 1 * p.val = 5000 * t.val + p.val
    rw [e0]; omega
  · refine iblk3_1_apply V c t (ix2 p (0 : Fin 1)) _ ?_ rfl
    show win3_6.index t (0 : Fin 2) * 5000 + 1 * p.val = 5000 * t.val + p.val
    rw [e0]; omega
  · intro k
    refine iblk3_2_apply V c t (ix2 p k) _ ?_ rfl
    show win3_6.index t (0 : Fin 2) * 5000 + 1 * p.val = 5000 * t.val + p.val
    rw [e0]; omega
  · exact iblk3_3_eq V c t
  · exact iblk3_4_eq V c t
  · exact iblk3_5_eq V c t

/-- An index of the output array is in point t's block iff each coordinate is in the block's range on its axis. -/
theorem mem_blk3 (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v33).slice (win3_6.rect t)).set ↔ _
  rw [View.set_slice_whole, Rect.mem_set_unit]
  exact Iff.rfl

/-- Row r is in the block of point r / 5000: the ten blocks cover the array. -/
theorem cover3 (i : S50000x64.Idx) : ∃ t : Fin cfg3.N, (cfg3.win 6).flush t = true ∧ i ∈ ((cfg3.win 6).blk t).view.set := by
  have hi0 : (i 0).val < 50000 := (i 0).isLt
  have hi1 : (i 1).val < 64 := (i 1).isLt
  have hN : grid3.N = 10 := N_3
  have ht : (i 0).val / 5000 < cfg3.N := by show _ < grid3.N; omega
  obtain ⟨-, -, -, -, -, -, -, -, -, -, -, e0, e1⟩ := idx_facts3 ⟨(i 0).val / 5000, ht⟩
  refine ⟨⟨(i 0).val / 5000, ht⟩, flush3_6 _, ?_⟩
  rw [mem_blk3]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 64 ≤ (i 1).val ∧ (i 1).val < win3_6.index ⟨(i 0).val / 5000, ht⟩ (1 : Fin 2) * 64 + 64
    rw [e1]; omega

/-- The output array after the ten points is the whole-array formula of the arrays as the region finds them. -/
theorem final3 (c : Dev nD) : (dat3 V c).arrAt 6 cfg3.N
    = plainG (V c main_v30) (V c main_v8) (V c main_v19) (V c main_v31) (V c main_arg18) (V c main_v32) :=
  (dat3 V c).arrAt_eq_of_cover 6 _ (fun t _ => flushed3_eq V c t) (cover3)

/-- Region 3's output array is the reference's combine of the region's input arrays, the in-degree column being the
    degree vector stood up as a column. -/
theorem region3_val (c : Dev nD) (deg : FVec Ideal Cert.ReferenceIdeal.S50000 .f32)
    (hdeg : V c main_v8 = broadcastInDim Cert.ReferenceIdeal.S50000x1 ![0] Cert.ReferenceIdeal.Gen.bcast_S50000_S50000x1_0 deg) :
    (dat3 (F := Ideal) V c).arrAt 6 cfg3.N
      = (Cert.ReferenceIdeal.Spec.sageM (V c main_v30) deg (V c main_v19) (V c main_v31) (V c main_arg18) (V c main_v32)) := by
  rw [final3]
  funext i
  obtain ⟨r, q, rfl⟩ : ∃ (r : Fin 50000) (q : Fin 64), i = ix2 r q := ⟨i 0, i 1, eq_ix2 i⟩
  refine Eq.trans ?_ (Cert.ReferenceIdeal.RM.sageM_apply _ deg _ _ _ _ r q).symm
  rw [← hdeg]

/-- The form the run uses: region 1's exit contents of its output array. -/
example (m : (ℓ : Loc nD τ sig) → Buf (Elt Ideal) ℓ) (ρ : Dev nD → PrngReg) (c : Dev nD) (deg : FVec Ideal Cert.ReferenceIdeal.S50000 .f32)
    (h : V7 m ρ c main_v8 = broadcastInDim Cert.ReferenceIdeal.S50000x1 ![0] Cert.ReferenceIdeal.Gen.bcast_S50000_S50000x1_0 deg) :=
  (W8_arr m ρ c 6).trans (region1_val (V7 m ρ) c deg h)

/-- The form the run uses: region 3's exit contents of its output array. -/
example (m : (ℓ : Loc nD τ sig) → Buf (Elt Ideal) ℓ) (ρ : Dev nD → PrngReg) (c : Dev nD) (deg : FVec Ideal Cert.ReferenceIdeal.S50000 .f32)
    (h : V13 m ρ c main_v8 = broadcastInDim Cert.ReferenceIdeal.S50000x1 ![0] Cert.ReferenceIdeal.Gen.bcast_S50000_S50000x1_0 deg) :=
  (W14_arr m ρ c 6).trans (region3_val (V13 m ρ) c deg h)

end Cert.KernelIdeal.RM

end
-- ==== Proof.RUPayload.lean ====
/-
  The combine kernel's body, read at one entry of its block of 5000 rows. The body divides the block of neighbour
  sums by the in-degree column clamped below at one (the clamp taken on the column, then laid along the 64 lanes),
  multiplies by W_lᵀ, adds the bias row, adds the block of root features times W_rᵀ, and — in the layers that
  rectify — takes the maximum with zero. Over the extended reals a change of float format is the identity and a
  matrix product into a zero accumulator is the plain sum over the contracted axis, so entry (p, q) of the body's
  result is the row-local formula of the blocks: it reads row p of the three row-indexed blocks only.
-/
import proofs.«406355_j49280454754830_3_alg».proof.Proof.Gen.KernelIdeal.Skeleton
import proofs.«406355_j49280454754830_3_alg».proof.Proof.Pt
import Idealize.ShloMosaic.Lib.Pipeline.Value
import Idealize.ShloMosaic.Lib.ValueIdx
import Idealize.ShloMosaic.PureOps.Ideal.Laws

noncomputable section

open scoped BigOperators

namespace Cert.KernelIdeal.Combine

open Idealize.ShloMosaic Idealize.ShloMosaic.ValueIdx Cert.KernelIdeal Cert.KernelIdeal.Gen

/-! ## The [5000,64] × [64,64] product at an entry -/

theorem lhs_blockDot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blockDot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blockDot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blockDot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a block product into the zero accumulator is ∑ₖ l(p, k) · r(k, q). -/
theorem blockDot_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_blockDot_0 _ _
    | ⟨1, _⟩ => exact (lhs_blockDot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_blockDot_0 _ _).trans hk
    | ⟨1, _⟩ => exact rhs_blockDot_1 _ _)
  rw [el, er]

/-! ## The two broadcasts of the body at an entry -/

/-- The clamped in-degree column laid along the lanes reads, at (p, q), the column at (p, 0). -/
theorem lanes_of_col_apply {α : Type} (v : S5000x1.Idx → α) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) fun a => by
    match a with
    | ⟨0, _⟩ => rfl
    | ⟨1, _⟩ => rfl

/-- The bias as a one-row block laid down the rows reads, at (p, q), the bias at q. -/
theorem rows_of_bias_apply {α : Type} (b : S64.Idx → α) (p : Fin 5000) (q : Fin 64) :
    broadcastTo S5000x64 (shapeCast S1x64 b shapeCasts_S64_S1x64) broadcasts_S1x64_S5000x64 (ix2 p q) = b (ix1 q) := by
  refine (broadcastTo_apply _ broadcasts_S1x64_S5000x64 (ix2 p q) (ix2 (0 : Fin 1) q) fun a => by
    match a with
    | ⟨0, _⟩ => rfl
    | ⟨1, _⟩ => rfl).trans ?_
  refine (shapeCast_addUnit_apply ![64] b shapeCasts_S64_S1x64 (ix2 (0 : Fin 1) q)).trans ?_
  exact congrArg b (funext fun a => by match a with | ⟨0, _⟩ => rfl)

/-! ## The body at an entry -/

/-- Without the rectifier (the last layer's kernels). -/
theorem pay_plain_apply (v0 : Vec Ideal S5000x64 .f32) (v2 : Vec Ideal S5000x1 .f32) (v9 : Vec Ideal S5000x64 .f32)
    (v12 v15 : Vec Ideal S64x64 .f32) (v19 : Vec Ideal S64 .f32) (p : Fin 5000) (q : Fin 64) :
    k4_pay1 (F := Ideal) v0 v2 v9 v12 v15 v19 (ix2 p q) = Pt.sagePt v0 v2 v9 v12 v19 v15 p q := by
  unfold k4_pay1 Pt.sagePt
  simp only [shapeCast_self]
  rw [addf_apply, addf_apply, blockDot_apply, blockDot_apply, rows_of_bias_apply]
  simp only [truncf_apply, divf_apply, lanes_of_col_apply, maximumf_apply, broadcast_apply]
  rfl

/-- With the rectifier (the first layer's kernels). -/
theorem pay_relu_apply (v0 : Vec Ideal S5000x64 .f32) (v2 : Vec Ideal S5000x1 .f32) (v9 : Vec Ideal S5000x64 .f32)
    (v12 v15 : Vec Ideal S64x64 .f32) (v19 : Vec Ideal S64 .f32) (p : Fin 5000) (q : Fin 64) :
    k2_pay1 (F := Ideal) v0 v2 v9 v12 v15 v19 (ix2 p q) = Pt.sageReluPt v0 v2 v9 v12 v19 v15 p q := by
  unfold Pt.sageReluPt
  rw [← pay_plain_apply]
  rfl

end Cert.KernelIdeal.Combine

end
-- ==== Proof.RUSpecPt.lean ====
/-
  The reference's combine on the 100000 user rows, read at one entry. The reference clamps the in-degree vector
  below at one, stands it as a column, lays the column along the 64 lanes, divides the neighbour sums by it,
  multiplies by W_lᵀ, adds the bias laid down the rows, and adds the root features times W_rᵀ; the rectifier is a
  maximum with the zero array. Over the extended reals the host's product is the plain sum over the contracted
  axis, so entry (r, q) is the row-local formula of the arrays, with the in-degree column [100000,1] of the vector
  in the place of the count: both read max(deg r, 1).
-/
import proofs.«406355_j49280454754830_3_alg».proof.Proof.Spec
import proofs.«406355_j49280454754830_3_alg».proof.Proof.Pt
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.Combine

open Idealize.ShloMosaic Idealize.ShloMosaic.ValueIdx Cert.ReferenceIdeal Cert.ReferenceIdeal.Gen

/-! ## The [100000,64] × [64,64] product at an entry -/

theorem lhs_rowsDot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_rowsDot_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_rowsDot_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_rowsDot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (r, q) of the host's product is ∑ₖ l(r, k) · w(k, q). -/
theorem rowsDot_apply {φ₁ φ₂ : FTy} (l : FVec Ideal S100000x64 φ₁) (w : FVec Ideal S64x64 φ₂) (r : Fin 100000) (q : Fin 64) :
    Host.dotGeneral dot_S100000x64_S64x64_S100000x64_1_0_0_1_n_n none l w (ix2 r q) = ∑ k : Fin 64, l (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs_rowsDot_0 _ _
    | ⟨1, _⟩ => exact (lhs_rowsDot_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs_rowsDot_0 _ _).trans hk
    | ⟨1, _⟩ => exact rhs_rowsDot_1 _ _)
  rw [el, er]

/-! ## The reference's broadcasts at an entry -/

/-- A vector stood as a column reads, at (r, 0), the vector at r. -/
theorem col_of_vec_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) fun a => by
    match a with
    | ⟨0, _⟩ => rfl

/-- A column laid along the lanes reads, at (r, q), the column at (r, 0). -/
theorem lanes_of_col_apply {α : Type} (v : S100000x1.Idx → α) (r : Fin 100000) (q : Fin 64) :
    broadcastInDim S100000x64 ![0, 1] bcast_S100000x1_S100000x64_0_1 v (ix2 r q) = v (ix2 r (0 : Fin 1)) :=
  broadcastInDim_apply _ bcast_S100000x1_S100000x64_0_1 v (ix2 r q) (ix2 r (0 : Fin 1)) fun a => by
    match a with
    | ⟨0, _⟩ => rfl
    | ⟨1, _⟩ => rfl

/-- The bias stood as a row and laid down the rows reads, at (r, q), the bias at q. -/
theorem rows_of_bias_apply {α : Type} (b : S64.Idx → α) (r : Fin 100000) (q : Fin 64) :
    broadcastInDim S100000x64 ![0, 1] bcast_S1x64_S100000x64_0_1 (broadcastInDim S1x64 ![1] bcast_S64_S1x64_1 b) (ix2 r q) = b (ix1 q) := by
  refine (broadcastInDim_apply _ bcast_S1x64_S100000x64_0_1 _ (ix2 r q) (ix2 (0 : Fin 1) q) fun a => by
    match a with
    | ⟨0, _⟩ => rfl
    | ⟨1, _⟩ => rfl).trans ?_
  exact broadcastInDim_apply _ bcast_S64_S1x64_1 b (ix2 (0 : Fin 1) q) (ix1 q) fun a => by
    match a with
    | ⟨0, _⟩ => rfl

/-- A scalar laid over a vector reads the scalar everywhere. -/
theorem vec_of_scalar_apply {α : Type} (x : S_.Idx → α) (j : S100000.Idx) :
    broadcastInDim S100000 ![] bcast_S_S100000 x j = x ix0 :=
  broadcastInDim_apply _ bcast_S_S100000 x j ix0 fun a => a.elim0

/-- A scalar laid over the [100000,64] array reads the scalar everywhere. -/
theorem arr_of_scalar_apply {α : Type} (x : S_.Idx → α) (j : S100000x64.Idx) :
    broadcastInDim S100000x64 ![] bcast_S_S100000x64 x j = x ix0 :=
  broadcastInDim_apply _ bcast_S_S100000x64 x j ix0 fun a => a.elim0

/-! ## The combine and the rectifier at an entry -/

/-- Entry (r, q) of the combine on the user rows. -/
theorem sageU_apply (agg : FVec Ideal S100000x64 .f32) (deg : FVec Ideal S100000 .f32) (x : FVec Ideal S100000x64 .f32)
    (wlT : FVec Ideal S64x64 .f32) (b : FVec Ideal S64 .f32) (wrT : FVec Ideal S64x64 .f32) (r : Fin 100000) (q : Fin 64) :
    Spec.sageU (F := Ideal) agg deg x wlT b wrT (ix2 r q)
      = Pt.sagePt agg (broadcastInDim S100000x1 ![0] bcast_S100000_S100000x1_0 deg) x wlT b wrT r q := by
  unfold Spec.sageU Pt.sagePt
  rw [addf_apply, addf_apply, rowsDot_apply, rowsDot_apply, rows_of_bias_apply]
  refine congrArg (· + _) (congrArg (· + _) (Finset.sum_congr rfl fun k _ => ?_))
  rw [hostDivf_apply, lanes_of_col_apply, col_of_vec_apply, col_of_vec_apply, maximumf_apply, vec_of_scalar_apply, constant_apply]

/-- Entry (r, q) of the rectified combine. -/
theorem reluU_sageU_apply (agg : FVec Ideal S100000x64 .f32) (deg : FVec Ideal S100000 .f32) (x : FVec Ideal S100000x64 .f32)
    (wlT : FVec Ideal S64x64 .f32) (b : FVec Ideal S64 .f32) (wrT : FVec Ideal S64x64 .f32) (r : Fin 100000) (q : Fin 64) :
    Spec.reluU (F := Ideal) (Spec.sageU agg deg x wlT b wrT) (ix2 r q)
      = Pt.sageReluPt agg (broadcastInDim S100000x1 ![0] bcast_S100000_S100000x1_0 deg) x wlT b wrT r q := by
  unfold Spec.reluU Pt.sageReluPt
  rw [maximumf_apply, sageU_apply, arr_of_scalar_apply, constant_apply]

end Cert.ReferenceIdeal.Combine

end
-- ==== Proof.RUValue.lean ====
/-
  The two combine kernels on the 100000 user rows, from blocks to the array. The grid has 20 points; at point t the
  three row-indexed windows (neighbour sums, in-degree column, root features) hold rows [5000·t, 5000·t + 5000) of
  their arrays, the two weights and the bias are whole at every point, and the body stores one block of 5000 rows of
  the result. Entry (p, q) of the body's block is the row-local formula of the loaded blocks, which read row
  5000·t + p of the arrays, so the block written back at point t is rows [5000·t, 5000·t + 5000) of ONE whole-array
  function: the row-local formula of the arrays. Row r is covered by point r / 5000, so the array ends holding that
  function, and the reference's chain of host operations is the same function entry by entry, once the in-degree
  column is known to be the column of a degree vector.
-/
import proofs.«406355_j49280454754830_3_alg».proof.Proof.Gen.KernelIdeal.Frame
import proofs.«406355_j49280454754830_3_alg».proof.Proof.RUPayload
import proofs.«406355_j49280454754830_3_alg».proof.Proof.RUSpecPt
import Idealize.ShloMosaic.Lib.Pipeline.Value
import Idealize.ShloMosaic.Lib.ValueIdx

set_option maxRecDepth 16384

noncomputable section

open scoped BigOperators

namespace Cert.KernelIdeal.Combine

open Idealize.ShloMosaic Idealize.ShloMosaic.TcCoe Idealize.ShloMosaic.ValueIdx Idealize.SL.Sem
open Idealize.ShloMosaic.Pipeline (Dat)
open Cert.KernelIdeal Cert.KernelIdeal.Gen

/-! ## The whole-array functions -/

/-- The combine, entry by entry, of the six arrays (the count as a [100000,1] column). -/
abbrev sageArr (agg : Vec Ideal S100000x64 .f32) (cnt : Vec Ideal S100000x1 .f32) (x : Vec Ideal S100000x64 .f32)
    (wl : Vec Ideal S64x64 .f32) (b : Vec Ideal S64 .f32) (wr : Vec Ideal S64x64 .f32) : S100000x64.Idx → EReal :=
  fun i => Pt.sagePt (n := 100000) agg cnt x wl b wr (i 0) (i 1)

/-- The same after the rectifier. -/
abbrev sageReluArr (agg : Vec Ideal S100000x64 .f32) (cnt : Vec Ideal S100000x1 .f32) (x : Vec Ideal S100000x64 .f32)
    (wl : Vec Ideal S64x64 .f32) (b : Vec Ideal S64 .f32) (wr : Vec Ideal S64x64 .f32) : S100000x64.Idx → EReal :=
  fun i => Pt.sageReluPt (n := 100000) agg cnt x wl b wr (i 0) (i 1)

/-! ## A block of 5000 rows of the formula is the formula of the blocks -/

/-- If the three row-indexed blocks are rows 5000·t + · of their arrays and the other three are the arrays, the
    row-local formula of the blocks at (p, q) is that of the arrays at (5000·t + p, q). -/
theorem sagePt_block (A : Vec Ideal S100000x64 .f32) (C : Vec Ideal S100000x1 .f32) (X : Vec Ideal S100000x64 .f32)
    (Wl : Vec Ideal S64x64 .f32) (B : Vec Ideal S64 .f32) (Wr : Vec Ideal S64x64 .f32)
    (x0 : Vec Ideal S5000x64 .f32) (x1 : Vec Ideal S5000x1 .f32) (x2 : Vec Ideal S5000x64 .f32)
    (x3 : Vec Ideal S64x64 .f32) (x4 : Vec Ideal S64 .f32) (x5 : Vec Ideal S64x64 .f32)
    (p : Fin 5000) (q : Fin 64) (r : Fin 100000)
    (h0 : ∀ k : Fin 64, x0 (ix2 p k) = A (ix2 r k)) (h1 : x1 (ix2 p (0 : Fin 1)) = C (ix2 r (0 : Fin 1)))
    (h2 : ∀ k : Fin 64, x2 (ix2 p k) = X (ix2 r k)) (h3 : x3 = Wl) (h4 : x4 = B) (h5 : x5 = Wr) :
    Pt.sagePt x0 x1 x2 x3 x4 x5 p q = Pt.sagePt A C X Wl B Wr r q := by
  subst h3 h4 h5
  unfold Pt.sagePt
  simp only [h0, h1, h2]

/-! ## The zero origins of the unit rectangles -/

theorem zero2 : (![0, 0] : Fin 2 → Nat) = fun _ => 0 := funext fun a => by fin_cases a <;> rfl
theorem zero1 : (![0] : Fin 1 → Nat) = fun _ => 0 := funext fun a => by fin_cases a; rfl

/-! ## Region 2: the windows' blocks as rows of their arrays -/

section Region2
variable (V : (c : Dev nD) → (b : Ref sig .tc) → Buf (Elt Ideal) ((c : Thread nD τ).loc b))

/-- The windows' index maps at every point t of the grid: a row-indexed window's block index is (t, 0), a whole window's is zero. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem lt_grid2 (t : Fin cfg2.N) : t.val < 20 := lt_of_lt_of_eq t.isLt (show cfg2.N = 20 from N_2)

theorem blk2_0_apply (c : Dev nD) (t : Fin cfg2.N) (p : Fin 5000) (k : Fin 64) (r : Fin 100000) (hr : r.val = 5000 * t.val + p.val) :
    (iblk2 V c 0 t : Vec Ideal S5000x64 .f32) (ix2 p k) = (V c main_v23 : Vec Ideal S100000x64 .f32) (ix2 r k) := by
  obtain ⟨e0, e1, -⟩ := index_facts2 t
  unfold iblk2
  rw [View.read_apply]
  show V c main_v23 _ = V c main_v23 _
  congr 1
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

theorem blk2_1_apply (c : Dev nD) (t : Fin cfg2.N) (p : Fin 5000) (r : Fin 100000) (hr : r.val = 5000 * t.val + p.val) :
    (iblk2 V c 1 t : Vec Ideal S5000x1 .f32) (ix2 p (0 : Fin 1)) = (V c main_v12 : Vec Ideal S100000x1 .f32) (ix2 r (0 : Fin 1)) := by
  obtain ⟨-, -, e0, e1, -⟩ := index_facts2 t
  unfold iblk2
  rw [View.read_apply]
  show V c main_v12 _ = V c main_v12 _
  congr 1
  funext a
  apply Fin.ext
  match a with
  | ⟨0, _⟩ => show win2_1.index t (0 : Fin 2) * 5000 + 1 * p.val = r.val; omega
  | ⟨1, _⟩ => show win2_1.index t (1 : Fin 2) * 1 + 1 * 0 = 0; omega

theorem blk2_2_apply (c : Dev nD) (t : Fin cfg2.N) (p : Fin 5000) (k : Fin 64) (r : Fin 100000) (hr : r.val = 5000 * t.val + p.val) :
    (iblk2 V c 2 t : Vec Ideal S5000x64 .f32) (ix2 p k) = (V c main_v0 : Vec Ideal S100000x64 .f32) (ix2 r k) := by
  obtain ⟨-, -, -, -, e0, e1, -⟩ := index_facts2 t
  unfold iblk2
  rw [View.read_apply]
  show V c main_v0 _ = V c main_v0 _
  congr 1
  funext a
  apply Fin.ext
  match a with
  | ⟨0, _⟩ => show win2_2.index t (0 : Fin 2) * 5000 + 1 * p.val = r.val; omega
  | ⟨1, _⟩ => show win2_2.index t (1 : Fin 2) * 64 + 1 * k.val = k.val; omega

theorem blk2_3_eq (c : Dev nD) (t : Fin cfg2.N) : (iblk2 V c 3 t : Vec Ideal S64x64 .f32) = (V c main_v24 : Vec Ideal S64x64 .f32) := by
  obtain ⟨-, -, -, -, -, -, e0, e1, -⟩ := index_facts2 t
  funext j
  unfold iblk2
  rw [View.read_apply]
  show V c main_v24 _ = V c main_v24 _
  congr 1
  funext a
  apply Fin.ext
  match a with
  | ⟨0, _⟩ => show win2_3.index t (0 : Fin 2) * 64 + 1 * (j 0).val = (j 0).val; omega
  | ⟨1, _⟩ => show win2_3.index t (1 : Fin 2) * 64 + 1 * (j 1).val = (j 1).val; omega

theorem blk2_4_eq (c : Dev nD) (t : Fin cfg2.N) : (iblk2 V c 4 t : Vec Ideal S64 .f32) = (V c main_arg15 : Vec Ideal S64 .f32) := by
  obtain ⟨-, -, -, -, -, -, -, -, e0, -⟩ := index_facts2 t
  funext j
  unfold iblk2
  rw [View.read_apply]
  show V c main_arg15 _ = V c main_arg15 _
  congr 1
  funext a
  apply Fin.ext
  match a with
  | ⟨0, _⟩ => show win2_4.index t (0 : Fin 1) * 64 + 1 * (j 0).val = (j 0).val; omega

theorem blk2_5_eq (c : Dev nD) (t : Fin cfg2.N) : (iblk2 V c 5 t : Vec Ideal S64x64 .f32) = (V c main_v25 : Vec Ideal S64x64 .f32) := by
  obtain ⟨-, -, -, -, -, -, -, -, -, e0, e1, -⟩ := index_facts2 t
  funext j
  unfold iblk2
  rw [View.read_apply]
  show V c main_v25 _ = V c main_v25 _
  congr 1
  funext a
  apply Fin.ext
  match a with
  | ⟨0, _⟩ => show win2_5.index t (0 : Fin 2) * 64 + 1 * (j 0).val = (j 0).val; omega
  | ⟨1, _⟩ => show win2_5.index t (1 : Fin 2) * 64 + 1 * (j 1).val = (j 1).val; omega

/-- WHAT POINT t WRITES BACK is rows [5000·t, 5000·t + 5000) of the rectified combine of the arrays. -/
theorem flushed2_eq (c : Dev nD) (t : Fin cfg2.N) :
    (dat2 (F := Ideal) V c).flushed 6 t = ((cfg2.win 6).blk t).view.read (Elt Ideal)
      (sageReluArr (V c main_v23) (V c main_v12) (V c main_v0) (V c main_v24) (V c main_arg15) (V c main_v25)) := by
  show (cfg2.win 6).cut (grid2.coords t) ((dat2 V c).after 6 t) = _
  rw [after2_6]
  unfold out2_6
  rw [View.canon_unit_zero zero2]
  simp only [View.ld_unit_zero (S := S5000x64) zero2, View.ld_unit_zero (S := S5000x1) zero2, View.ld_unit_zero (S := S64x64) zero2, View.ld_unit_zero (S := S64) zero1]
  have ht := lt_grid2 t
  obtain ⟨-, -, -, -, -, -, -, -, -, -, -, e0, e1⟩ := index_facts2 t
  funext j
  obtain ⟨p, q, rfl⟩ : ∃ (p : Fin 5000) (q : Fin 64), j = ix2 p q := ⟨j 0, j 1, eq_ix2 j⟩
  have hp := p.isLt
  refine (pay_relu_apply _ _ _ _ _ _ p q).trans ?_
  refine (congrArg (fun z => max z Pt.zero) (sagePt_block (V c main_v23) (V c main_v12) (V c main_v0) (V c main_v24) (V c main_arg15) (V c main_v25)
    _ _ _ _ _ _ p q ⟨5000 * t.val + p.val, by omega⟩
    (fun k => blk2_0_apply V c t p k _ rfl) (blk2_1_apply V c t p _ rfl) (fun k => blk2_2_apply V c t p k _ rfl)
    (blk2_3_eq V c t) (blk2_4_eq V c t) (blk2_5_eq V c t))).trans ?_
  rw [View.read_apply]
  show Pt.sageReluPt (n := 100000) _ _ _ _ _ _ _ _ = Pt.sageReluPt (n := 100000) _ _ _ _ _ _ _ _
  unfold Pt.sageReluPt
  congr 2
  · apply Fin.ext
    show 5000 * t.val + p.val = win2_6.index t (0 : Fin 2) * 5000 + 1 * p.val
    omega
  · apply Fin.ext
    show q.val = win2_6.index t (1 : Fin 2) * 64 + 1 * q.val
    omega

/-- An index of the array is in point t's block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v26).slice (win2_6.rect t)).set ↔ _
  rw [View.set_slice_whole, Rect.mem_set_unit]
  exact Iff.rfl

/-- Row r is in the block of point r / 5000. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  rw [mem_blk2]
  obtain ⟨-, -, -, -, -, -, -, -, -, -, -, e0, e1⟩ := index_facts2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 64 ≤ (i 1).val ∧ (i 1).val < win2_6.index _ (1 : Fin 2) * 64 + 64
    rw [e1]; omega

/-- THE ARRAY after the region: the rectified combine of the arrays as the region finds them. -/
theorem region2_arr (c : Dev nD) :
    (dat2 (F := Ideal) V c).arrAt 6 cfg2.N
      = sageReluArr (V c main_v23) (V c main_v12) (V c main_v0) (V c main_v24) (V c main_arg15) (V c main_v25) :=
  (dat2 (F := Ideal) V c).arrAt_eq_of_cover 6 _ (fun t _ => flushed2_eq V c t) cover2

/-- THE ARRAY after the region is the reference's rectified combine of the region's input arrays, the in-degree
    column being the column of a degree vector. -/
theorem region2_val (c : Dev nD) (deg : FVec Ideal Cert.ReferenceIdeal.S100000 .f32)
    (hdeg : V c main_v12 = broadcastInDim Cert.ReferenceIdeal.S100000x1 ![0] Cert.ReferenceIdeal.Gen.bcast_S100000_S100000x1_0 deg) :
    (dat2 (F := Ideal) V c).arrAt 6 cfg2.N
      = Cert.ReferenceIdeal.Spec.reluU (Cert.ReferenceIdeal.Spec.sageU (V c main_v23) deg (V c main_v0) (V c main_v24) (V c main_arg15) (V c main_v25)) := by
  rw [region2_arr, hdeg]
  funext i
  obtain ⟨r, q, rfl⟩ : ∃ (r : Fin 100000) (q : Fin 64), i = ix2 r q := ⟨i 0, i 1, eq_ix2 i⟩
  exact (Cert.ReferenceIdeal.Combine.reluU_sageU_apply _ deg _ _ _ _ r q).symm

end Region2

/-! ## Region 4: the windows' blocks as rows of their arrays -/

section Region4
variable (V : (c : Dev nD) → (b : Ref sig .tc) → Buf (Elt Ideal) ((c : Thread nD τ).loc b))

/-- The windows' index maps at every point t of the grid: a row-indexed window's block index is (t, 0), a whole window's is zero. -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

theorem lt_grid4 (t : Fin cfg4.N) : t.val < 20 := lt_of_lt_of_eq t.isLt (show cfg4.N = 20 from N_4)

theorem blk4_0_apply (c : Dev nD) (t : Fin cfg4.N) (p : Fin 5000) (k : Fin 64) (r : Fin 100000) (hr : r.val = 5000 * t.val + p.val) :
    (iblk4 V c 0 t : Vec Ideal S5000x64 .f32) (ix2 p k) = (V c main_v37 : Vec Ideal S100000x64 .f32) (ix2 r k) := by
  obtain ⟨e0, e1, -⟩ := index_facts4 t
  unfold iblk4
  rw [View.read_apply]
  show V c main_v37 _ = V c main_v37 _
  congr 1
  funext a
  apply Fin.ext
  match a with
  | ⟨0, _⟩ => show win4_0.index t (0 : Fin 2) * 5000 + 1 * p.val = r.val; omega
  | ⟨1, _⟩ => show win4_0.index t (1 : Fin 2) * 64 + 1 * k.val = k.val; omega

theorem blk4_1_apply (c : Dev nD) (t : Fin cfg4.N) (p : Fin 5000) (r : Fin 100000) (hr : r.val = 5000 * t.val + p.val) :
    (iblk4 V c 1 t : Vec Ideal S5000x1 .f32) (ix2 p (0 : Fin 1)) = (V c main_v12 : Vec Ideal S100000x1 .f32) (ix2 r (0 : Fin 1)) := by
  obtain ⟨-, -, e0, e1, -⟩ := index_facts4 t
  unfold iblk4
  rw [View.read_apply]
  show V c main_v12 _ = V c main_v12 _
  congr 1
  funext a
  apply Fin.ext
  match a with
  | ⟨0, _⟩ => show win4_1.index t (0 : Fin 2) * 5000 + 1 * p.val = r.val; omega
  | ⟨1, _⟩ => show win4_1.index t (1 : Fin 2) * 1 + 1 * 0 = 0; omega

theorem blk4_2_apply (c : Dev nD) (t : Fin cfg4.N) (p : Fin 5000) (k : Fin 64) (r : Fin 100000) (hr : r.val = 5000 * t.val + p.val) :
    (iblk4 V c 2 t : Vec Ideal S5000x64 .f32) (ix2 p k) = (V c main_v26 : Vec Ideal S100000x64 .f32) (ix2 r k) := by
  obtain ⟨-, -, -, -, e0, e1, -⟩ := index_facts4 t
  unfold iblk4
  rw [View.read_apply]
  show V c main_v26 _ = V c main_v26 _
  congr 1
  funext a
  apply Fin.ext
  match a with
  | ⟨0, _⟩ => show win4_2.index t (0 : Fin 2) * 5000 + 1 * p.val = r.val; omega
  | ⟨1, _⟩ => show win4_2.index t (1 : Fin 2) * 64 + 1 * k.val = k.val; omega

theorem blk4_3_eq (c : Dev nD) (t : Fin cfg4.N) : (iblk4 V c 3 t : Vec Ideal S64x64 .f32) = (V c main_v38 : Vec Ideal S64x64 .f32) := by
  obtain ⟨-, -, -, -, -, -, e0, e1, -⟩ := index_facts4 t
  funext j
  unfold iblk4
  rw [View.read_apply]
  show V c main_v38 _ = V c main_v38 _
  congr 1
  funext a
  apply Fin.ext
  match a with
  | ⟨0, _⟩ => show win4_3.index t (0 : Fin 2) * 64 + 1 * (j 0).val = (j 0).val; omega
  | ⟨1, _⟩ => show win4_3.index t (1 : Fin 2) * 64 + 1 * (j 1).val = (j 1).val; omega

theorem blk4_4_eq (c : Dev nD) (t : Fin cfg4.N) : (iblk4 V c 4 t : Vec Ideal S64 .f32) = (V c main_arg21 : Vec Ideal S64 .f32) := by
  obtain ⟨-, -, -, -, -, -, -, -, e0, -⟩ := index_facts4 t
  funext j
  unfold iblk4
  rw [View.read_apply]
  show V c main_arg21 _ = V c main_arg21 _
  congr 1
  funext a
  apply Fin.ext
  match a with
  | ⟨0, _⟩ => show win4_4.index t (0 : Fin 1) * 64 + 1 * (j 0).val = (j 0).val; omega

theorem blk4_5_eq (c : Dev nD) (t : Fin cfg4.N) : (iblk4 V c 5 t : Vec Ideal S64x64 .f32) = (V c main_v39 : Vec Ideal S64x64 .f32) := by
  obtain ⟨-, -, -, -, -, -, -, -, -, e0, e1, -⟩ := index_facts4 t
  funext j
  unfold iblk4
  rw [View.read_apply]
  show V c main_v39 _ = V c main_v39 _
  congr 1
  funext a
  apply Fin.ext
  match a with
  | ⟨0, _⟩ => show win4_5.index t (0 : Fin 2) * 64 + 1 * (j 0).val = (j 0).val; omega
  | ⟨1, _⟩ => show win4_5.index t (1 : Fin 2) * 64 + 1 * (j 1).val = (j 1).val; omega

/-- WHAT POINT t WRITES BACK is rows [5000·t, 5000·t + 5000) of the combine of the arrays. -/
theorem flushed4_eq (c : Dev nD) (t : Fin cfg4.N) :
    (dat4 (F := Ideal) V c).flushed 6 t = ((cfg4.win 6).blk t).view.read (Elt Ideal)
      (sageArr (V c main_v37) (V c main_v12) (V c main_v26) (V c main_v38) (V c main_arg21) (V c main_v39)) := by
  show (cfg4.win 6).cut (grid4.coords t) ((dat4 V c).after 6 t) = _
  rw [after4_6]
  unfold out4_6
  rw [View.canon_unit_zero zero2]
  simp only [View.ld_unit_zero (S := S5000x64) zero2, View.ld_unit_zero (S := S5000x1) zero2, View.ld_unit_zero (S := S64x64) zero2, View.ld_unit_zero (S := S64) zero1]
  have ht := lt_grid4 t
  obtain ⟨-, -, -, -, -, -, -, -, -, -, -, e0, e1⟩ := index_facts4 t
  funext j
  obtain ⟨p, q, rfl⟩ : ∃ (p : Fin 5000) (q : Fin 64), j = ix2 p q := ⟨j 0, j 1, eq_ix2 j⟩
  have hp := p.isLt
  refine (pay_plain_apply _ _ _ _ _ _ p q).trans ?_
  refine (sagePt_block (V c main_v37) (V c main_v12) (V c main_v26) (V c main_v38) (V c main_arg21) (V c main_v39)
    _ _ _ _ _ _ p q ⟨5000 * t.val + p.val, by omega⟩
    (fun k => blk4_0_apply V c t p k _ rfl) (blk4_1_apply V c t p _ rfl) (fun k => blk4_2_apply V c t p k _ rfl)
    (blk4_3_eq V c t) (blk4_4_eq V c t) (blk4_5_eq V c t)).trans ?_
  rw [View.read_apply]
  show Pt.sagePt (n := 100000) _ _ _ _ _ _ _ _ = Pt.sagePt (n := 100000) _ _ _ _ _ _ _ _
  congr 1
  · apply Fin.ext
    show 5000 * t.val + p.val = win4_6.index t (0 : Fin 2) * 5000 + 1 * p.val
    omega
  · apply Fin.ext
    show q.val = win4_6.index t (1 : Fin 2) * 64 + 1 * q.val
    omega

/-- An index of the array is in point t's block iff each coordinate is in the block's range on its axis. -/
theorem mem_blk4 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v40).slice (win4_6.rect t)).set ↔ _
  rw [View.set_slice_whole, Rect.mem_set_unit]
  exact Iff.rfl

/-- Row r is in the block of point r / 5000. -/
theorem cover4 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_6 _, ?_⟩
  rw [mem_blk4]
  obtain ⟨-, -, -, -, -, -, -, -, -, -, -, e0, e1⟩ := index_facts4 ⟨(i 0).val / 5000, by rw [hN]; omega⟩
  intro a
  match a with
  | ⟨0, _⟩ =>
    show win4_6.index _ (0 : Fin 2) * 5000 ≤ (i 0).val ∧ (i 0).val < win4_6.index _ (0 : Fin 2) * 5000 + 5000
    rw [e0]; show (i 0).val / 5000 * 5000 ≤ (i 0).val ∧ (i 0).val < (i 0).val / 5000 * 5000 + 5000; omega
  | ⟨1, _⟩ =>
    show win4_6.index _ (1 : Fin 2) * 64 ≤ (i 1).val ∧ (i 1).val < win4_6.index _ (1 : Fin 2) * 64 + 64
    rw [e1]; omega

/-- THE ARRAY after the region: the combine of the arrays as the region finds them. -/
theorem region4_arr (c : Dev nD) :
    (dat4 (F := Ideal) V c).arrAt 6 cfg4.N
      = sageArr (V c main_v37) (V c main_v12) (V c main_v26) (V c main_v38) (V c main_arg21) (V c main_v39) :=
  (dat4 (F := Ideal) V c).arrAt_eq_of_cover 6 _ (fun t _ => flushed4_eq V c t) cover4

/-- THE ARRAY after the region is the reference's combine of the region's input arrays, the in-degree
    column being the column of a degree vector. -/
theorem region4_val (c : Dev nD) (deg : FVec Ideal Cert.ReferenceIdeal.S100000 .f32)
    (hdeg : V c main_v12 = broadcastInDim Cert.ReferenceIdeal.S100000x1 ![0] Cert.ReferenceIdeal.Gen.bcast_S100000_S100000x1_0 deg) :
    (dat4 (F := Ideal) V c).arrAt 6 cfg4.N
      = Cert.ReferenceIdeal.Spec.sageU (V c main_v37) deg (V c main_v26) (V c main_v38) (V c main_arg21) (V c main_v39) := by
  rw [region4_arr, hdeg]
  funext i
  obtain ⟨r, q, rfl⟩ : ∃ (r : Fin 100000) (q : Fin 64), i = ix2 r q := ⟨i 0, i 1, eq_ix2 i⟩
  exact (Cert.ReferenceIdeal.Combine.sageU_apply _ deg _ _ _ _ r q).symm

end Region4

/-! ## Use: at the run's own boundary contents -/

section Use
variable (m : (ℓ : Loc nD τ sig) → Buf (Elt Ideal) ℓ) (ρ : Dev nD → PrngReg)

example (c : Dev nD) (deg : FVec Ideal Cert.ReferenceIdeal.S100000 .f32)
    (h : V10 m ρ c main_v12 = broadcastInDim Cert.ReferenceIdeal.S100000x1 ![0] Cert.ReferenceIdeal.Gen.bcast_S100000_S100000x1_0 deg) :
    W11 m ρ c (Proc.devRef .tc (Pipeline.arrRef spec2 6))
      = Cert.ReferenceIdeal.Spec.reluU (Cert.ReferenceIdeal.Spec.sageU (V10 m ρ c main_v23) deg (V10 m ρ c main_v0) (V10 m ρ c main_v24) (V10 m ρ c main_arg15) (V10 m ρ c main_v25)) :=
  (W11_arr m ρ c 6).trans (region2_val (V10 m ρ) c deg h)

example (c : Dev nD) (deg : FVec Ideal Cert.ReferenceIdeal.S100000 .f32)
    (h : V16 m ρ c main_v12 = broadcastInDim Cert.ReferenceIdeal.S100000x1 ![0] Cert.ReferenceIdeal.Gen.bcast_S100000_S100000x1_0 deg) :
    W17 m ρ c (Proc.devRef .tc (Pipeline.arrRef spec4 6))
      = Cert.ReferenceIdeal.Spec.sageU (V16 m ρ c main_v37) deg (V16 m ρ c main_v26) (V16 m ρ c main_v38) (V16 m ρ c main_arg21) (V16 m ρ c main_v39) :=
  (W17_arr m ρ c 6).trans (region4_val (V16 m ρ) c deg h)

end Use

end Cert.KernelIdeal.Combine

end
-- ==== Proof.KChain.lean ====
/-
  The kernel program's result as the reference's function of the arguments, when every index array is in range.
  The buffers' contents at the boundaries between @main's segments are a fold (host stretches and regions in turn);
  a buffer that a stretch or a region does not write keeps its contents across it, which is how each stretch's and each
  region's operands are read back to where they were made. Boundary by boundary: the look-ups lose their fill
  (indices in range), each region's output array is the reference's combine of its operand arrays, and the last
  stretch is the decoder.
-/
import Idealize.ShloMosaic.PureOps.Ideal
import proofs.«406355_j49280454754830_3_alg».proof.Proof.KRun
import proofs.«406355_j49280454754830_3_alg».proof.Proof.KStretch
import proofs.«406355_j49280454754830_3_alg».proof.Proof.TakeEq
import proofs.«406355_j49280454754830_3_alg».proof.Proof.R0Value
import proofs.«406355_j49280454754830_3_alg».proof.Proof.RMValue
import proofs.«406355_j49280454754830_3_alg».proof.Proof.RUValue

set_option maxRecDepth 16384

noncomputable section

namespace Cert.KernelIdeal.Chain

open Cert.KernelIdeal Cert.KernelIdeal.Gen Idealize.ShloMosaic Idealize.ShloMosaic.TcCoe Idealize.ShloMosaic.StableHlo Idealize.SL.Sem
open Cert.KernelIdeal.KTake Cert.KernelIdeal.RM Cert.KernelIdeal.Combine Cert.KernelIdeal.R0

variable (m : (ℓ : Loc nD τ sig) → Buf (Elt Ideal) ℓ) (ρ : Dev nD → PrngReg) (c : Dev nD)

local macro "dr" : term => `(Proc.devRef .tc)

/-- Reads a buffer back through the segments that do not write it: across a region by `W·_of_ne`, across a host
    stretch by its operations' results at other buffers. -/
macro "wback" : tactic =>
  `(tactic| ((repeat (first
      | (rw [W17_of_ne]; rotate_left; decide)
      | (rw [W14_of_ne]; rotate_left; decide)
      | (rw [W11_of_ne]; rotate_left; decide)
      | (rw [W8_of_ne]; rotate_left; decide)
      | (rw [W4_of_ne]; rotate_left; decide)
      | after_results_simp)) <;> try rfl))

/-! ## The arguments, as the segments find them -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)
abbrev A16 := m ((c : Thread nD τ).loc main_arg16)
abbrev A17 := m ((c : Thread nD τ).loc main_arg17)
abbrev A18 := m ((c : Thread nD τ).loc main_arg18)
abbrev A19 := m ((c : Thread nD τ).loc main_arg19)
abbrev A20 := m ((c : Thread nD τ).loc main_arg20)
abbrev A21 := m ((c : Thread nD τ).loc main_arg21)
abbrev A22 := m ((c : Thread nD τ).loc main_arg22)

theorem arg8_at1 : W1 m ρ c (dr main_arg8) = A8 m c := by wback
theorem arg2_at1 : W1 m ρ c (dr main_arg2) = A2 m c := by wback
theorem arg9_at2 : W2 m ρ c (dr main_arg9) = A9 m c := by wback
theorem arg0_at3 : W3 m ρ c (dr main_arg0) = A0 m c := by wback
theorem arg10_at3 : W3 m ρ c (dr main_arg10) = A10 m c := by wback
theorem arg4_at4 : W4 m ρ c (dr main_arg4) = A4 m c := by wback
theorem arg3_at4 : W4 m ρ c (dr main_arg3) = A3 m c := by wback
theorem arg3_at5 : W5 m ρ c (dr main_arg3) = A3 m c := by wback
theorem arg4_at6 : W6 m ρ c (dr main_arg4) = A4 m c := by wback
theorem arg11_at6 : W6 m ρ c (dr main_arg11) = A11 m c := by wback
theorem arg13_at6 : W6 m ρ c (dr main_arg13) = A13 m c := by wback
theorem arg12_at7 : W7 m ρ c (dr main_arg12) = A12 m c := by wback
theorem arg4_at8 : W8 m ρ c (dr main_arg4) = A4 m c := by wback
theorem arg3_at9 : W9 m ρ c (dr main_arg3) = A3 m c := by wback
theorem arg14_at9 : W9 m ρ c (dr main_arg14) = A14 m c := by wback
theorem arg16_at9 : W9 m ρ c (dr main_arg16) = A16 m c := by wback
theorem arg15_at10 : W10 m ρ c (dr main_arg15) = A15 m c := by wback
theorem arg3_at11 : W11 m ρ c (dr main_arg3) = A3 m c := by wback
theorem arg4_at12 : W12 m ρ c (dr main_arg4) = A4 m c := by wback
theorem arg17_at12 : W12 m ρ c (dr main_arg17) = A17 m c := by wback
theorem arg19_at12 : W12 m ρ c (dr main_arg19) = A19 m c := by wback
theorem arg18_at13 : W13 m ρ c (dr main_arg18) = A18 m c := by wback
theorem arg4_at14 : W14 m ρ c (dr main_arg4) = A4 m c := by wback
theorem arg3_at15 : W15 m ρ c (dr main_arg3) = A3 m c := by wback
theorem arg20_at15 : W15 m ρ c (dr main_arg20) = A20 m c := by wback
theorem arg22_at15 : W15 m ρ c (dr main_arg22) = A22 m c := by wback
theorem arg21_at16 : W16 m ρ c (dr main_arg21) = A21 m c := by wback
theorem arg5_at17 : W17 m ρ c (dr main_arg5) = A5 m c := by wback
theorem arg6_at18 : W18 m ρ c (dr main_arg6) = A6 m c := by wback

/-! ## Values made earlier, as later segments find them -/

/-- An input window's array leaves its region as it entered it. -/
theorem v3_over1 : W8 m ρ c (dr main_v3) = W7 m ρ c (dr main_v3) :=
  (W8_arr m ρ c 2).trans (((dat1 (V7 m ρ) c).arrAt_in 2 rfl _).trans (A_eq1 (V7 m ρ) c 2))
theorem v8_over1 : W8 m ρ c (dr main_v8) = W7 m ρ c (dr main_v8) :=
  (W8_arr m ρ c 1).trans (((dat1 (V7 m ρ) c).arrAt_in 1 rfl _).trans (A_eq1 (V7 m ρ) c 1))
theorem v12_over2 : W11 m ρ c (dr main_v12) = W10 m ρ c (dr main_v12) :=
  (W11_arr m ρ c 1).trans (((dat2 (V10 m ρ) c).arrAt_in 1 rfl _).trans (A_eq2 (V10 m ρ) c 1))
theorem v19_over3 : W14 m ρ c (dr main_v19) = W13 m ρ c (dr main_v19) :=
  (W14_arr m ρ c 2).trans (((dat3 (V13 m ρ) c).arrAt_in 2 rfl _).trans (A_eq3 (V13 m ρ) c 2))

theorem v1_at3 : W3 m ρ c (dr main_v1) = W2 m ρ c (dr main_v1) := by wback
theorem v0_at5 : W5 m ρ c (dr main_v0) = W1 m ρ c (dr main_v0) := by wback
theorem v8_at7 : W7 m ρ c (dr main_v8) = W5 m ρ c (dr main_v8) := by wback
theorem v3_at7 : W7 m ρ c (dr main_v3) = W4 m ρ c (dr main_v3) := by wback
theorem v3_at8 : W8 m ρ c (dr main_v3) = W4 m ρ c (dr main_v3) := (v3_over1 m ρ c).trans (v3_at7 m ρ c)
theorem v12_at10 : W10 m ρ c (dr main_v12) = W5 m ρ c (dr main_v12) := by wback
theorem v0_at10 : W10 m ρ c (dr main_v0) = W1 m ρ c (dr main_v0) := by wback
theorem v8_at13 : W13 m ρ c (dr main_v8) = W5 m ρ c (dr main_v8) :=
  (show W13 m ρ c (dr main_v8) = W8 m ρ c (dr main_v8) by wback).trans ((v8_over1 m ρ c).trans (v8_at7 m ρ c))
theorem v19_at13 : W13 m ρ c (dr main_v19) = W8 m ρ c (dr main_v19) := by wback
theorem v19_at14 : W14 m ρ c (dr main_v19) = W8 m ρ c (dr main_v19) := (v19_over3 m ρ c).trans (v19_at13 m ρ c)
theorem v12_at16 : W16 m ρ c (dr main_v12) = W5 m ρ c (dr main_v12) :=
  (show W16 m ρ c (dr main_v12) = W11 m ρ c (dr main_v12) by wback).trans ((v12_over2 m ρ c).trans (v12_at10 m ρ c))
theorem v26_at16 : W16 m ρ c (dr main_v26) = W11 m ρ c (dr main_v26) := by wback
theorem v33_at18 : W18 m ρ c (dr main_v33) = W14 m ρ c (dr main_v33) := by wback
theorem v41_at19 : W19 m ρ c (dr main_v41) = W18 m ρ c (dr main_v41) := by wback

/-! ## The reference's intermediate arrays, of the arguments -/

def XU := Cert.ReferenceIdeal.Spec.rowsU (F := Ideal) (A7 m c) (A1 m c)
def XM := Cert.ReferenceIdeal.Spec.feat (F := Ideal) (A0 m c) (Cert.ReferenceIdeal.Spec.wT128 (F := Ideal) (A9 m c)) (A10 m c) (Cert.ReferenceIdeal.Spec.rowsM (F := Ideal) (A8 m c) (A2 m c))
def HM := Cert.ReferenceIdeal.Spec.reluM (F := Ideal) (Cert.ReferenceIdeal.Spec.sageM (F := Ideal) (Cert.ReferenceIdeal.Spec.aggToMovie (F := Ideal) (XU m c) (A3 m c) (A4 m c)) (Cert.ReferenceIdeal.Spec.degMovie (F := Ideal) (A4 m c)) (XM m c) (Cert.ReferenceIdeal.Spec.wT64 (F := Ideal) (A11 m c)) (A12 m c) (Cert.ReferenceIdeal.Spec.wT64 (F := Ideal) (A13 m c)))
def HU := Cert.ReferenceIdeal.Spec.reluU (F := Ideal) (Cert.ReferenceIdeal.Spec.sageU (F := Ideal) (Cert.ReferenceIdeal.Spec.aggToUser (F := Ideal) (XM m c) (A4 m c) (A3 m c)) (Cert.ReferenceIdeal.Spec.degUser (F := Ideal) (A3 m c)) (XU m c) (Cert.ReferenceIdeal.Spec.wT64 (F := Ideal) (A14 m c)) (A15 m c) (Cert.ReferenceIdeal.Spec.wT64 (F := Ideal) (A16 m c)))
def OM := Cert.ReferenceIdeal.Spec.sageM (F := Ideal) (Cert.ReferenceIdeal.Spec.aggToMovie (F := Ideal) (HU m c) (A3 m c) (A4 m c)) (Cert.ReferenceIdeal.Spec.degMovie (F := Ideal) (A4 m c)) (HM m c) (Cert.ReferenceIdeal.Spec.wT64 (F := Ideal) (A17 m c)) (A18 m c) (Cert.ReferenceIdeal.Spec.wT64 (F := Ideal) (A19 m c))
def OU := Cert.ReferenceIdeal.Spec.sageU (F := Ideal) (Cert.ReferenceIdeal.Spec.aggToUser (F := Ideal) (HM m c) (A4 m c) (A3 m c)) (Cert.ReferenceIdeal.Spec.degUser (F := Ideal) (A3 m c)) (HU m c) (Cert.ReferenceIdeal.Spec.wT64 (F := Ideal) (A20 m c)) (A21 m c) (Cert.ReferenceIdeal.Spec.wT64 (F := Ideal) (A22 m c))

/-- The reference's function of the arguments is the decoder of the second round's arrays. -/
theorem out_eq : Cert.ReferenceIdeal.Spec.out (F := Ideal) (A0 m c) (A1 m c) (A2 m c) (A3 m c) (A4 m c) (A5 m c) (A6 m c) (A7 m c) (A8 m c) (A9 m c) (A10 m c) (A11 m c) (A12 m c)
    (A13 m c) (A14 m c) (A15 m c) (A16 m c) (A17 m c) (A18 m c) (A19 m c) (A20 m c) (A21 m c) (A22 m c) = Cert.ReferenceIdeal.Spec.decode (F := Ideal) (OU m c) (OM m c) (A5 m c) (A6 m c) := rfl

/-! ## Boundary by boundary, under the precondition's index ranges -/

variable (h1 : Cert.InRange 100000 (A1 m c)) (h2 : Cert.InRange 50000 (A2 m c)) (h3 : Cert.InRange 100000 (A3 m c))
  (h4 : Cert.InRange 50000 (A4 m c)) (h5 : Cert.InRange 100000 (A5 m c)) (h6 : Cert.InRange 50000 (A6 m c))

include h1 in
/-- The user features: the look-up of the user embedding. -/
theorem v0_val : W1 m ρ c (dr main_v0) = XU m c :=
  (Stretch.v0 (W0 m ρ c)).trans (rowsU_eq _ _ h1)

include h2 in
/-- The looked-up movie embedding. -/
theorem v1_val : W2 m ρ c (dr main_v1) = Cert.ReferenceIdeal.Spec.rowsM (F := Ideal) (A8 m c) (A2 m c) :=
  (Stretch.v1 (W1 m ρ c)).trans (by rw [arg8_at1, arg2_at1]; exact rowsM_eq _ _ h2)

/-- The transposed projection weight. -/
theorem v2_val : W3 m ρ c (dr main_v2) = Cert.ReferenceIdeal.Spec.wT128 (F := Ideal) (A9 m c) :=
  (Stretch.v2 (W2 m ρ c)).trans (by rw [arg9_at2])

include h2 in
/-- Region 0: the movie features. -/
theorem v3_val : W4 m ρ c (dr main_v3) = XM m c :=
  (W4_arr m ρ c 4).trans ((region0_val (V3 m ρ) c).trans (by
    show Cert.ReferenceIdeal.Spec.feat (F := Ideal) (W3 m ρ c (dr main_arg0)) (W3 m ρ c (dr main_v2)) (W3 m ρ c (dr main_arg10)) (W3 m ρ c (dr main_v1)) = _
    rw [arg0_at3, v2_val, arg10_at3, v1_at3, v1_val m ρ c h2]; rfl))

/-- The in-degree column of the movies. -/
theorem v8_val : W5 m ρ c (dr main_v8) = broadcastInDim S50000x1 ![0] bcast_S50000_S50000x1_0 (Cert.ReferenceIdeal.Spec.degMovie (F := Ideal) (A4 m c)) :=
  (Stretch.v8 (W4 m ρ c)).trans (by rw [arg4_at4])
/-- The in-degree column of the users. -/
theorem v12_val : W5 m ρ c (dr main_v12) = broadcastInDim S100000x1 ![0] bcast_S100000_S100000x1_0 (Cert.ReferenceIdeal.Spec.degUser (F := Ideal) (A3 m c)) :=
  (Stretch.v12 (W4 m ρ c)).trans (by rw [arg3_at4])

include h1 h3 in
/-- The user rows at the edges' sources. -/
theorem v13_val : W6 m ρ c (dr main_v13) = Cert.ReferenceIdeal.Spec.rowsEU (F := Ideal) (XU m c) (A3 m c) :=
  (Stretch.v13 (W5 m ρ c)).trans (by rw [v0_at5, v0_val m ρ c h1, arg3_at5]; exact rowsEU_eq _ _ h3)

include h1 h3 in
/-- Their sums into the movie rows. -/
theorem v16_val : W7 m ρ c (dr main_v16) = Cert.ReferenceIdeal.Spec.aggToMovie (F := Ideal) (XU m c) (A3 m c) (A4 m c) :=
  (Stretch.v16 (W6 m ρ c)).trans (by rw [v13_val m ρ c h1 h3, arg4_at6]; rfl)
theorem v17_val : W7 m ρ c (dr main_v17) = Cert.ReferenceIdeal.Spec.wT64 (F := Ideal) (A11 m c) := (Stretch.v17 (W6 m ρ c)).trans (by rw [arg11_at6])
theorem v18_val : W7 m ρ c (dr main_v18) = Cert.ReferenceIdeal.Spec.wT64 (F := Ideal) (A13 m c) := (Stretch.v18 (W6 m ρ c)).trans (by rw [arg13_at6])

include h1 h2 h3 in
/-- Region 1: the movies' first-round features. -/
theorem v19_val : W8 m ρ c (dr main_v19) = HM m c :=
  (W8_arr m ρ c 6).trans ((region1_val (V7 m ρ) c (Cert.ReferenceIdeal.Spec.degMovie (F := Ideal) (A4 m c)) ((v8_at7 m ρ c).trans (v8_val m ρ c))).trans (by
    show Cert.ReferenceIdeal.Spec.reluM (F := Ideal) (Cert.ReferenceIdeal.Spec.sageM (F := Ideal) (W7 m ρ c (dr main_v16)) _ (W7 m ρ c (dr main_v3)) (W7 m ρ c (dr main_v17)) (W7 m ρ c (dr main_arg12)) (W7 m ρ c (dr main_v18))) = _
    rw [v16_val m ρ c h1 h3, v3_at7, v3_val m ρ c h2, v17_val, arg12_at7, v18_val]; rfl))

include h2 h4 in
/-- The movie rows at the edges' destinations. -/
theorem v20_val : W9 m ρ c (dr main_v20) = Cert.ReferenceIdeal.Spec.rowsEM (F := Ideal) (XM m c) (A4 m c) :=
  (Stretch.v20 (W8 m ρ c)).trans (by rw [v3_at8, v3_val m ρ c h2, arg4_at8]; exact rowsEM_eq _ _ h4)

include h2 h4 in
theorem v23_val : W10 m ρ c (dr main_v23) = Cert.ReferenceIdeal.Spec.aggToUser (F := Ideal) (XM m c) (A4 m c) (A3 m c) :=
  (Stretch.v23 (W9 m ρ c)).trans (by rw [v20_val m ρ c h2 h4, arg3_at9]; rfl)
theorem v24_val : W10 m ρ c (dr main_v24) = Cert.ReferenceIdeal.Spec.wT64 (F := Ideal) (A14 m c) := (Stretch.v24 (W9 m ρ c)).trans (by rw [arg14_at9])
theorem v25_val : W10 m ρ c (dr main_v25) = Cert.ReferenceIdeal.Spec.wT64 (F := Ideal) (A16 m c) := (Stretch.v25 (W9 m ρ c)).trans (by rw [arg16_at9])

include h1 h2 h4 in
/-- Region 2: the users' first-round features. -/
theorem v26_val : W11 m ρ c (dr main_v26) = HU m c :=
  (W11_arr m ρ c 6).trans ((region2_val (V10 m ρ) c (Cert.ReferenceIdeal.Spec.degUser (F := Ideal) (A3 m c)) ((v12_at10 m ρ c).trans (v12_val m ρ c))).trans (by
    show Cert.ReferenceIdeal.Spec.reluU (F := Ideal) (Cert.ReferenceIdeal.Spec.sageU (F := Ideal) (W10 m ρ c (dr main_v23)) _ (W10 m ρ c (dr main_v0)) (W10 m ρ c (dr main_v24)) (W10 m ρ c (dr main_arg15)) (W10 m ρ c (dr main_v25))) = _
    rw [v23_val m ρ c h2 h4, v0_at10, v0_val m ρ c h1, v24_val, arg15_at10, v25_val]; rfl))

include h1 h2 h3 h4 in
theorem v27_val : W12 m ρ c (dr main_v27) = Cert.ReferenceIdeal.Spec.rowsEU (F := Ideal) (HU m c) (A3 m c) :=
  (Stretch.v27 (W11 m ρ c)).trans (by rw [v26_val m ρ c h1 h2 h4, arg3_at11]; exact rowsEU_eq _ _ h3)

include h1 h2 h3 h4 in
theorem v30_val : W13 m ρ c (dr main_v30) = Cert.ReferenceIdeal.Spec.aggToMovie (F := Ideal) (HU m c) (A3 m c) (A4 m c) :=
  (Stretch.v30 (W12 m ρ c)).trans (by rw [v27_val m ρ c h1 h2 h3 h4, arg4_at12]; rfl)
theorem v31_val : W13 m ρ c (dr main_v31) = Cert.ReferenceIdeal.Spec.wT64 (F := Ideal) (A17 m c) := (Stretch.v31 (W12 m ρ c)).trans (by rw [arg17_at12])
theorem v32_val : W13 m ρ c (dr main_v32) = Cert.ReferenceIdeal.Spec.wT64 (F := Ideal) (A19 m c) := (Stretch.v32 (W12 m ρ c)).trans (by rw [arg19_at12])

include h1 h2 h3 h4 in
/-- Region 3: the movies' second-round features. -/
theorem v33_val : W14 m ρ c (dr main_v33) = OM m c :=
  (W14_arr m ρ c 6).trans ((region3_val (V13 m ρ) c (Cert.ReferenceIdeal.Spec.degMovie (F := Ideal) (A4 m c)) ((v8_at13 m ρ c).trans (v8_val m ρ c))).trans (by
    show Cert.ReferenceIdeal.Spec.sageM (F := Ideal) (W13 m ρ c (dr main_v30)) _ (W13 m ρ c (dr main_v19)) (W13 m ρ c (dr main_v31)) (W13 m ρ c (dr main_arg18)) (W13 m ρ c (dr main_v32)) = _
    rw [v30_val m ρ c h1 h2 h3 h4, v19_at13, v19_val m ρ c h1 h2 h3, v31_val, arg18_at13, v32_val]; rfl))

include h1 h2 h3 h4 in
theorem v34_val : W15 m ρ c (dr main_v34) = Cert.ReferenceIdeal.Spec.rowsEM (F := Ideal) (HM m c) (A4 m c) :=
  (Stretch.v34 (W14 m ρ c)).trans (by rw [v19_at14, v19_val m ρ c h1 h2 h3, arg4_at14]; exact rowsEM_eq _ _ h4)

include h1 h2 h3 h4 in
theorem v37_val : W16 m ρ c (dr main_v37) = Cert.ReferenceIdeal.Spec.aggToUser (F := Ideal) (HM m c) (A4 m c) (A3 m c) :=
  (Stretch.v37 (W15 m ρ c)).trans (by rw [v34_val m ρ c h1 h2 h3 h4, arg3_at15]; rfl)
theorem v38_val : W16 m ρ c (dr main_v38) = Cert.ReferenceIdeal.Spec.wT64 (F := Ideal) (A20 m c) := (Stretch.v38 (W15 m ρ c)).trans (by rw [arg20_at15])
theorem v39_val : W16 m ρ c (dr main_v39) = Cert.ReferenceIdeal.Spec.wT64 (F := Ideal) (A22 m c) := (Stretch.v39 (W15 m ρ c)).trans (by rw [arg22_at15])

include h1 h2 h3 h4 in
/-- Region 4: the users' second-round features. -/
theorem v40_val : W17 m ρ c (dr main_v40) = OU m c :=
  (W17_arr m ρ c 6).trans ((region4_val (V16 m ρ) c (Cert.ReferenceIdeal.Spec.degUser (F := Ideal) (A3 m c)) ((v12_at16 m ρ c).trans (v12_val m ρ c))).trans (by
    show Cert.ReferenceIdeal.Spec.sageU (F := Ideal) (W16 m ρ c (dr main_v37)) _ (W16 m ρ c (dr main_v26)) (W16 m ρ c (dr main_v38)) (W16 m ρ c (dr main_arg21)) (W16 m ρ c (dr main_v39)) = _
    rw [v37_val m ρ c h1 h2 h3 h4, v26_at16, v26_val m ρ c h1 h2 h4, v38_val, arg21_at16, v39_val]; rfl))

include h1 h2 h3 h4 h5 in
theorem v41_val : W18 m ρ c (dr main_v41) = Cert.ReferenceIdeal.Spec.rowsLU (F := Ideal) (OU m c) (A5 m c) :=
  (Stretch.v41 (W17 m ρ c)).trans (by rw [v40_val m ρ c h1 h2 h3 h4, arg5_at17]; exact rowsLU_eq _ _ h5)

include h1 h2 h3 h4 h6 in
theorem v42_val : W19 m ρ c (dr main_v42) = Cert.ReferenceIdeal.Spec.rowsLM (F := Ideal) (OM m c) (A6 m c) :=
  (Stretch.v42 (W18 m ρ c)).trans (by rw [v33_at18, v33_val m ρ c h1 h2 h3 h4, arg6_at18]; exact rowsLM_eq _ _ h6)

include h1 h2 h3 h4 h5 h6 in
/-- The result buffer after the last segment: the reference's function of the arguments. -/
theorem result_val : W20 m ρ c (dr main_v44) = Cert.ReferenceIdeal.Spec.out (F := Ideal) (A0 m c) (A1 m c) (A2 m c) (A3 m c) (A4 m c) (A5 m c) (A6 m c) (A7 m c) (A8 m c) (A9 m c) (A10 m c)
    (A11 m c) (A12 m c) (A13 m c) (A14 m c) (A15 m c) (A16 m c) (A17 m c) (A18 m c) (A19 m c) (A20 m c) (A21 m c) (A22 m c) :=
  (Stretch.v44 (W19 m ρ c)).trans (by
    rw [v41_at19, v41_val m ρ c h1 h2 h3 h4 h5, v42_val m ρ c h1 h2 h3 h4 h6, out_eq]; rfl)

end Cert.KernelIdeal.Chain

end
-- ==== Proof.RefRunOps.lean ====
/-
  The reference program's @main as eight stretches of host operations, one per stage of the computation (the user
  look-up; the movie features; the two first-round combines; the rectifiers; the two second-round combines; the
  decoder), and for each stretch: which buffers it writes, that every other buffer keeps its contents across it,
  and that its operations stay on the TensorCore's buffers. Running the stretches in turn is running @main.
-/
import proofs.«406355_j49280454754830_3_alg».proof.Proof.Gen.ReferenceIdeal
import proofs.«406355_j49280454754830_3_alg».proof.Proof.Spec
import proofs.«406355_j49280454754830_3_alg».proof.Proof.LibTRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- A single written reference that is in a list of references lies in the list's image. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)
/-- Stage 1 of @main's operations (9 of the 183), in order. -/
abbrev ops1 : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg7 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)) ]

/-- The references stage 1 writes. -/
abbrev W1 : List (Ref sig .tc) := [main_c, main_v0, main_v1, main_c_0, main_v2, main_v3, main_v4, main_v5, main_v6]

theorem hW1 : (ops1 : List (HloOp τ sig (Elt F))).Forall fun op => op.writes ⊆ (W1.map (Proc.devRef (τ := τ) .tc)).toFinset :=
  ⟨writes_sub (y := main_c) (by decide), writes_sub (y := main_v0) (by decide), writes_sub (y := main_v1) (by decide), writes_sub (y := main_c_0) (by decide), writes_sub (y := main_v2) (by decide), writes_sub (y := main_v3) (by decide), writes_sub (y := main_v4) (by decide), writes_sub (y := main_v5) (by decide), writes_sub (y := main_v6) (by decide)⟩

/-- A reference stage 1 does not write keeps its contents. -/
theorem skip1 {r : Ref sig .tc} (hr : r ∉ W1) (V : Valuation τ sig (Elt F)) :
    after ops1 V (Proc.devRef .tc r) = V (Proc.devRef .tc r) := after_of_writes_sub ops1 V hW1 hr

/-- Stage 2 of @main's operations (15 of the 183), in order. -/
abbrev ops2 : List (HloOp τ sig (Elt F)) :=
  [ unary main_arg9 main_v7 ((transpose S128x64 [1, 0] · transposes_S64x128_S128x64_1_0) : (⟨S64x128, .f32⟩ : BufTy).Contents (Elt F) → (⟨S128x64, .f32⟩ : BufTy).Contents (Elt F)),
    binary main_arg0 main_v7 main_v8 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v9 (broadcastInDim S1x64 ![1] bcast_S64_S1x64_1 : (⟨S64, .f32⟩ : BufTy).Contents (Elt F) → (⟨S1x64, .f32⟩ : BufTy).Contents (Elt F)),
    unary main_v9 main_v10 (broadcastInDim S50000x64 ![0, 1] bcast_S1x64_S50000x64_0_1 : (⟨S1x64, .f32⟩ : BufTy).Contents (Elt F) → (⟨S50000x64, .f32⟩ : BufTy).Contents (Elt F)),
    binary main_v8 main_v10 main_v11 (addf : (⟨S50000x64, .f32⟩ : BufTy).Contents (Elt F) → (⟨S50000x64, .f32⟩ : BufTy).Contents (Elt F) → (⟨S50000x64, .f32⟩ : BufTy).Contents (Elt F)),
    nullary main_c_1 (constantI S_ 32 0#32),
    unary main_c_1 main_v12 (broadcastInDim S50000 ![] bcast_S_S50000 : (⟨S_, .i32⟩ : BufTy).Contents (Elt F) → (⟨S50000, .i32⟩ : BufTy).Contents (Elt F)),
    binary main_arg2 main_v12 main_v13 (cmpi .slt : (⟨S50000, .i32⟩ : BufTy).Contents (Elt F) → (⟨S50000, .i32⟩ : BufTy).Contents (Elt F) → (⟨S50000, .i1⟩ : BufTy).Contents (Elt F)),
    nullary main_c_2 (constantI S_ 32 50000#32),
    unary main_c_2 main_v14 (broadcastInDim S50000 ![] bcast_S_S50000 : (⟨S_, .i32⟩ : BufTy).Contents (Elt F) → (⟨S50000, .i32⟩ : BufTy).Contents (Elt F)),
    binary main_arg2 main_v14 main_v15 (addi : (⟨S50000, .i32⟩ : BufTy).Contents (Elt F) → (⟨S50000, .i32⟩ : BufTy).Contents (Elt F) → (⟨S50000, .i32⟩ : BufTy).Contents (Elt F)),
    ternary main_v13 main_v15 main_arg2 main_v16 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v16 main_v17 (broadcastInDim S50000x1 ![0] bcast_S50000_S50000x1_0 : (⟨S50000, .i32⟩ : BufTy).Contents (Elt F) → (⟨S50000x1, .i32⟩ : BufTy).Contents (Elt F)),
    binary main_arg8 main_v17 main_v18 ((fun x i => Host.gather gather_S50000x64_S50000x1_S50000x64_1_0_n_n_0_1_164 x i) : (⟨S50000x64, .f32⟩ : BufTy).Contents (Elt F) → (⟨S50000x1, .i32⟩ : BufTy).Contents (Elt F) → (⟨S50000x64, .f32⟩ : BufTy).Contents (Elt F)),
    binary main_v11 main_v18 main_v19 (addf : (⟨S50000x64, .f32⟩ : BufTy).Contents (Elt F) → (⟨S50000x64, .f32⟩ : BufTy).Contents (Elt F) → (⟨S50000x64, .f32⟩ : BufTy).Contents (Elt F)) ]

/-- The references stage 2 writes. -/
abbrev W2 : List (Ref sig .tc) := [main_v7, main_v8, main_v9, main_v10, main_v11, main_c_1, main_v12, main_v13, main_c_2, main_v14, main_v15, main_v16, main_v17, main_v18, main_v19]

theorem hW2 : (ops2 : List (HloOp τ sig (Elt F))).Forall fun op => op.writes ⊆ (W2.map (Proc.devRef (τ := τ) .tc)).toFinset :=
  ⟨writes_sub (y := main_v7) (by decide), writes_sub (y := main_v8) (by decide), writes_sub (y := main_v9) (by decide), writes_sub (y := main_v10) (by decide), writes_sub (y := main_v11) (by decide), writes_sub (y := main_c_1) (by decide), writes_sub (y := main_v12) (by decide), writes_sub (y := main_v13) (by decide), writes_sub (y := main_c_2) (by decide), writes_sub (y := main_v14) (by decide), writes_sub (y := main_v15) (by decide), writes_sub (y := main_v16) (by decide), writes_sub (y := main_v17) (by decide), writes_sub (y := main_v18) (by decide), writes_sub (y := main_v19) (by decide)⟩

/-- A reference stage 2 does not write keeps its contents. -/
theorem skip2 {r : Ref sig .tc} (hr : r ∉ W2) (V : Valuation τ sig (Elt F)) :
    after ops2 V (Proc.devRef .tc r) = V (Proc.devRef .tc r) := after_of_writes_sub ops2 V hW2 hr

/-- Stage 3 of @main's operations (33 of the 183), in order. -/
abbrev ops3 : List (HloOp τ sig (Elt F)) :=
  [ nullary main_c_3 (constantI S_ 32 0#32),
    unary main_c_3 main_v20 (broadcastInDim S2000000 ![] bcast_S_S2000000 : (⟨S_, .i32⟩ : BufTy).Contents (Elt F) → (⟨S2000000, .i32⟩ : BufTy).Contents (Elt F)),
    binary main_arg3 main_v20 main_v21 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 100000#32),
    unary main_c_4 main_v22 (broadcastInDim S2000000 ![] bcast_S_S2000000 : (⟨S_, .i32⟩ : BufTy).Contents (Elt F) → (⟨S2000000, .i32⟩ : BufTy).Contents (Elt F)),
    binary main_arg3 main_v22 main_v23 (addi : (⟨S2000000, .i32⟩ : BufTy).Contents (Elt F) → (⟨S2000000, .i32⟩ : BufTy).Contents (Elt F) → (⟨S2000000, .i32⟩ : BufTy).Contents (Elt F)),
    ternary main_v21 main_v23 main_arg3 main_v24 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v24 main_v25 (broadcastInDim S2000000x1 ![0] bcast_S2000000_S2000000x1_0 : (⟨S2000000, .i32⟩ : BufTy).Contents (Elt F) → (⟨S2000000x1, .i32⟩ : BufTy).Contents (Elt F)),
    binary main_v6 main_v25 main_v26 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst (constant S_ .f32 0x00000000#32),
    unary main_cst main_v27 (broadcastInDim S50000x64 ![] bcast_S_S50000x64 : (⟨S_, .f32⟩ : BufTy).Contents (Elt F) → (⟨S50000x64, .f32⟩ : BufTy).Contents (Elt F)),
    unary main_arg4 main_v28 (broadcastInDim S2000000x1 ![0] bcast_S2000000_S2000000x1_0 : (⟨S2000000, .i32⟩ : BufTy).Contents (Elt F) → (⟨S2000000x1, .i32⟩ : BufTy).Contents (Elt F)),
    ternary main_v27 main_v28 main_v26 main_v29 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    nullary main_cst_5 (constant S_ .f32 0x3F800000#32),
    unary main_cst_5 main_v30 (broadcastInDim S2000000 ![] bcast_S_S2000000 : (⟨S_, .f32⟩ : BufTy).Contents (Elt F) → (⟨S2000000, .f32⟩ : BufTy).Contents (Elt F)),
    nullary main_cst_6 (constant S_ .f32 0x00000000#32),
    unary main_cst_6 main_v31 (broadcastInDim S50000 ![] bcast_S_S50000 : (⟨S_, .f32⟩ : BufTy).Contents (Elt F) → (⟨S50000, .f32⟩ : BufTy).Contents (Elt F)),
    unary main_arg4 main_v32 (broadcastInDim S2000000x1 ![0] bcast_S2000000_S2000000x1_0 : (⟨S2000000, .i32⟩ : BufTy).Contents (Elt F) → (⟨S2000000x1, .i32⟩ : BufTy).Contents (Elt F)),
    ternary main_v31 main_v32 main_v30 main_v33 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_7 (constant S_ .f32 0x3F800000#32),
    unary main_cst_7 main_v34 (broadcastInDim S50000 ![] bcast_S_S50000 : (⟨S_, .f32⟩ : BufTy).Contents (Elt F) → (⟨S50000, .f32⟩ : BufTy).Contents (Elt F)),
    binary main_v33 main_v34 main_v35 (maximumf : (⟨S50000, .f32⟩ : BufTy).Contents (Elt F) → (⟨S50000, .f32⟩ : BufTy).Contents (Elt F) → (⟨S50000, .f32⟩ : BufTy).Contents (Elt F)),
    unary main_v35 main_v36 (broadcastInDim S50000x1 ![0] bcast_S50000_S50000x1_0 : (⟨S50000, .f32⟩ : BufTy).Contents (Elt F) → (⟨S50000x1, .f32⟩ : BufTy).Contents (Elt F)),
    unary main_v36 main_v37 (broadcastInDim S50000x64 ![0, 1] bcast_S50000x1_S50000x64_0_1 : (⟨S50000x1, .f32⟩ : BufTy).Contents (Elt F) → (⟨S50000x64, .f32⟩ : BufTy).Contents (Elt F)),
    binary main_v29 main_v37 main_v38 (Host.divf : (⟨S50000x64, .f32⟩ : BufTy).Contents (Elt F) → (⟨S50000x64, .f32⟩ : BufTy).Contents (Elt F) → (⟨S50000x64, .f32⟩ : BufTy).Contents (Elt F)),
    unary main_arg11 main_v39 ((transpose S64x64 [1, 0] · transposes_S64x64_S64x64_1_0) : (⟨S64x64, .f32⟩ : BufTy).Contents (Elt F) → (⟨S64x64, .f32⟩ : BufTy).Contents (Elt F)),
    binary main_v38 main_v39 main_v40 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (addf : (⟨S50000x64, .f32⟩ : BufTy).Contents (Elt F) → (⟨S50000x64, .f32⟩ : BufTy).Contents (Elt F) → (⟨S50000x64, .f32⟩ : BufTy).Contents (Elt F)),
    unary main_arg13 main_v44 ((transpose S64x64 [1, 0] · transposes_S64x64_S64x64_1_0) : (⟨S64x64, .f32⟩ : BufTy).Contents (Elt F) → (⟨S64x64, .f32⟩ : BufTy).Contents (Elt F)),
    binary main_v19 main_v44 main_v45 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

/-- The references stage 3 writes. -/
abbrev W3 : List (Ref sig .tc) := [main_c_3, main_v20, main_v21, main_c_4, main_v22, main_v23, main_v24, main_v25, main_v26, main_cst, main_v27, main_v28, main_v29, main_cst_5, main_v30, main_cst_6, main_v31, main_v32, main_v33, main_cst_7, main_v34, main_v35, main_v36, main_v37, main_v38, main_v39, main_v40, main_v41, main_v42, main_v43, main_v44, main_v45, main_v46]

theorem hW3 : (ops3 : List (HloOp τ sig (Elt F))).Forall fun op => op.writes ⊆ (W3.map (Proc.devRef (τ := τ) .tc)).toFinset :=
  ⟨writes_sub (y := main_c_3) (by decide), writes_sub (y := main_v20) (by decide), writes_sub (y := main_v21) (by decide), writes_sub (y := main_c_4) (by decide), writes_sub (y := main_v22) (by decide), writes_sub (y := main_v23) (by decide), writes_sub (y := main_v24) (by decide), writes_sub (y := main_v25) (by decide), writes_sub (y := main_v26) (by decide), writes_sub (y := main_cst) (by decide), writes_sub (y := main_v27) (by decide), writes_sub (y := main_v28) (by decide), writes_sub (y := main_v29) (by decide), writes_sub (y := main_cst_5) (by decide), writes_sub (y := main_v30) (by decide), writes_sub (y := main_cst_6) (by decide), writes_sub (y := main_v31) (by decide), writes_sub (y := main_v32) (by decide), writes_sub (y := main_v33) (by decide), writes_sub (y := main_cst_7) (by decide), writes_sub (y := main_v34) (by decide), writes_sub (y := main_v35) (by decide), writes_sub (y := main_v36) (by decide), writes_sub (y := main_v37) (by decide), writes_sub (y := main_v38) (by decide), writes_sub (y := main_v39) (by decide), writes_sub (y := main_v40) (by decide), writes_sub (y := main_v41) (by decide), writes_sub (y := main_v42) (by decide), writes_sub (y := main_v43) (by decide), writes_sub (y := main_v44) (by decide), writes_sub (y := main_v45) (by decide), writes_sub (y := main_v46) (by decide)⟩

/-- A reference stage 3 does not write keeps its contents. -/
theorem skip3 {r : Ref sig .tc} (hr : r ∉ W3) (V : Valuation τ sig (Elt F)) :
    after ops3 V (Proc.devRef .tc r) = V (Proc.devRef .tc r) := after_of_writes_sub ops3 V hW3 hr

/-- Stage 4 of @main's operations (33 of the 183), in order. -/
abbrev ops4 : List (HloOp τ sig (Elt F)) :=
  [ nullary main_c_8 (constantI S_ 32 0#32),
    unary main_c_8 main_v47 (broadcastInDim S2000000 ![] bcast_S_S2000000 : (⟨S_, .i32⟩ : BufTy).Contents (Elt F) → (⟨S2000000, .i32⟩ : BufTy).Contents (Elt F)),
    binary main_arg4 main_v47 main_v48 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 50000#32),
    unary main_c_9 main_v49 (broadcastInDim S2000000 ![] bcast_S_S2000000 : (⟨S_, .i32⟩ : BufTy).Contents (Elt F) → (⟨S2000000, .i32⟩ : BufTy).Contents (Elt F)),
    binary main_arg4 main_v49 main_v50 (addi : (⟨S2000000, .i32⟩ : BufTy).Contents (Elt F) → (⟨S2000000, .i32⟩ : BufTy).Contents (Elt F) → (⟨S2000000, .i32⟩ : BufTy).Contents (Elt F)),
    ternary main_v48 main_v50 main_arg4 main_v51 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v51 main_v52 (broadcastInDim S2000000x1 ![0] bcast_S2000000_S2000000x1_0 : (⟨S2000000, .i32⟩ : BufTy).Contents (Elt F) → (⟨S2000000x1, .i32⟩ : BufTy).Contents (Elt F)),
    binary main_v19 main_v52 main_v53 ((fun x i => Host.gather gather_S50000x64_S2000000x1_S2000000x64_1_0_n_n_0_1_164 x i) : (⟨S50000x64, .f32⟩ : BufTy).Contents (Elt F) → (⟨S2000000x1, .i32⟩ : BufTy).Contents (Elt F) → (⟨S2000000x64, .f32⟩ : BufTy).Contents (Elt F)),
    nullary main_cst_10 (constant S_ .f32 0x00000000#32),
    unary main_cst_10 main_v54 (broadcastInDim S100000x64 ![] bcast_S_S100000x64 : (⟨S_, .f32⟩ : BufTy).Contents (Elt F) → (⟨S100000x64, .f32⟩ : BufTy).Contents (Elt F)),
    unary main_arg3 main_v55 (broadcastInDim S2000000x1 ![0] bcast_S2000000_S2000000x1_0 : (⟨S2000000, .i32⟩ : BufTy).Contents (Elt F) → (⟨S2000000x1, .i32⟩ : BufTy).Contents (Elt F)),
    ternary main_v54 main_v55 main_v53 main_v56 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_11 (constant S_ .f32 0x3F800000#32),
    unary main_cst_11 main_v57 (broadcastInDim S2000000 ![] bcast_S_S2000000 : (⟨S_, .f32⟩ : BufTy).Contents (Elt F) → (⟨S2000000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    unary main_arg3 main_v59 (broadcastInDim S2000000x1 ![0] bcast_S2000000_S2000000x1_0 : (⟨S2000000, .i32⟩ : BufTy).Contents (Elt F) → (⟨S2000000x1, .i32⟩ : BufTy).Contents (Elt F)),
    ternary main_v58 main_v59 main_v57 main_v60 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_13 (constant S_ .f32 0x3F800000#32),
    unary main_cst_13 main_v61 (broadcastInDim S100000 ![] bcast_S_S100000 : (⟨S_, .f32⟩ : BufTy).Contents (Elt F) → (⟨S100000, .f32⟩ : BufTy).Contents (Elt F)),
    binary main_v60 main_v61 main_v62 (maximumf : (⟨S100000, .f32⟩ : BufTy).Contents (Elt F) → (⟨S100000, .f32⟩ : BufTy).Contents (Elt F) → (⟨S100000, .f32⟩ : BufTy).Contents (Elt F)),
    unary main_v62 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x64 ![0, 1] bcast_S100000x1_S100000x64_0_1 : (⟨S100000x1, .f32⟩ : BufTy).Contents (Elt F) → (⟨S100000x64, .f32⟩ : BufTy).Contents (Elt F)),
    binary main_v56 main_v64 main_v65 (Host.divf : (⟨S100000x64, .f32⟩ : BufTy).Contents (Elt F) → (⟨S100000x64, .f32⟩ : BufTy).Contents (Elt F) → (⟨S100000x64, .f32⟩ : BufTy).Contents (Elt F)),
    unary main_arg14 main_v66 ((transpose S64x64 [1, 0] · transposes_S64x64_S64x64_1_0) : (⟨S64x64, .f32⟩ : BufTy).Contents (Elt F) → (⟨S64x64, .f32⟩ : BufTy).Contents (Elt F)),
    binary main_v65 main_v66 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg15 main_v68 (broadcastInDim S1x64 ![1] bcast_S64_S1x64_1 : (⟨S64, .f32⟩ : BufTy).Contents (Elt F) → (⟨S1x64, .f32⟩ : BufTy).Contents (Elt F)),
    unary main_v68 main_v69 (broadcastInDim S100000x64 ![0, 1] bcast_S1x64_S100000x64_0_1 : (⟨S1x64, .f32⟩ : BufTy).Contents (Elt F) → (⟨S100000x64, .f32⟩ : BufTy).Contents (Elt F)),
    binary main_v67 main_v69 main_v70 (addf : (⟨S100000x64, .f32⟩ : BufTy).Contents (Elt F) → (⟨S100000x64, .f32⟩ : BufTy).Contents (Elt F) → (⟨S100000x64, .f32⟩ : BufTy).Contents (Elt F)),
    unary main_arg16 main_v71 ((transpose S64x64 [1, 0] · transposes_S64x64_S64x64_1_0) : (⟨S64x64, .f32⟩ : BufTy).Contents (Elt F) → (⟨S64x64, .f32⟩ : BufTy).Contents (Elt F)),
    binary main_v6 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)) ]

/-- The references stage 4 writes. -/
abbrev W4 : List (Ref sig .tc) := [main_c_8, main_v47, main_v48, main_c_9, main_v49, main_v50, main_v51, main_v52, main_v53, main_cst_10, main_v54, main_v55, main_v56, main_cst_11, main_v57, main_cst_12, main_v58, main_v59, main_v60, main_cst_13, main_v61, main_v62, main_v63, main_v64, main_v65, main_v66, main_v67, main_v68, main_v69, main_v70, main_v71, main_v72, main_v73]

theorem hW4 : (ops4 : List (HloOp τ sig (Elt F))).Forall fun op => op.writes ⊆ (W4.map (Proc.devRef (τ := τ) .tc)).toFinset :=
  ⟨writes_sub (y := main_c_8) (by decide), writes_sub (y := main_v47) (by decide), writes_sub (y := main_v48) (by decide), writes_sub (y := main_c_9) (by decide), writes_sub (y := main_v49) (by decide), writes_sub (y := main_v50) (by decide), writes_sub (y := main_v51) (by decide), writes_sub (y := main_v52) (by decide), writes_sub (y := main_v53) (by decide), writes_sub (y := main_cst_10) (by decide), writes_sub (y := main_v54) (by decide), writes_sub (y := main_v55) (by decide), writes_sub (y := main_v56) (by decide), writes_sub (y := main_cst_11) (by decide), writes_sub (y := main_v57) (by decide), writes_sub (y := main_cst_12) (by decide), writes_sub (y := main_v58) (by decide), writes_sub (y := main_v59) (by decide), writes_sub (y := main_v60) (by decide), writes_sub (y := main_cst_13) (by decide), writes_sub (y := main_v61) (by decide), writes_sub (y := main_v62) (by decide), writes_sub (y := main_v63) (by decide), writes_sub (y := main_v64) (by decide), writes_sub (y := main_v65) (by decide), writes_sub (y := main_v66) (by decide), writes_sub (y := main_v67) (by decide), writes_sub (y := main_v68) (by decide), writes_sub (y := main_v69) (by decide), writes_sub (y := main_v70) (by decide), writes_sub (y := main_v71) (by decide), writes_sub (y := main_v72) (by decide), writes_sub (y := main_v73) (by decide)⟩

/-- A reference stage 4 does not write keeps its contents. -/
theorem skip4 {r : Ref sig .tc} (hr : r ∉ W4) (V : Valuation τ sig (Elt F)) :
    after ops4 V (Proc.devRef .tc r) = V (Proc.devRef .tc r) := after_of_writes_sub ops4 V hW4 hr

/-- Stage 5 of @main's operations (6 of the 183), in order. -/
abbrev ops5 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v46) (TRef.of (T := ⟨S50000x64, .f32⟩) main_call0_v0) (TRef.of (T := ⟨S50000x64, .f32⟩) main_v74) maximumf,
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v73) (TRef.of (T := ⟨S100000x64, .f32⟩) main_call1_v0) (TRef.of (T := ⟨S100000x64, .f32⟩) main_v75) maximumf ]

/-- The references stage 5 writes. -/
abbrev W5 : List (Ref sig .tc) := [main_call0_cst, main_call0_v0, main_v74, main_call1_cst, main_call1_v0, main_v75]

theorem hW5 : (ops5 : List (HloOp τ sig (Elt F))).Forall fun op => op.writes ⊆ (W5.map (Proc.devRef (τ := τ) .tc)).toFinset :=
  ⟨writes_sub (y := main_call0_cst) (by decide), writes_sub (y := main_call0_v0) (by decide), writes_sub (y := main_v74) (by decide), writes_sub (y := main_call1_cst) (by decide), writes_sub (y := main_call1_v0) (by decide), writes_sub (y := main_v75) (by decide)⟩

/-- A reference stage 5 does not write keeps its contents. -/
theorem skip5 {r : Ref sig .tc} (hr : r ∉ W5) (V : Valuation τ sig (Elt F)) :
    after ops5 V (Proc.devRef .tc r) = V (Proc.devRef .tc r) := after_of_writes_sub ops5 V hW5 hr

/-- Stage 6 of @main's operations (33 of the 183), in order. -/
abbrev ops6 : List (HloOp τ sig (Elt F)) :=
  [ nullary main_c_14 (constantI S_ 32 0#32),
    unary main_c_14 main_v76 (broadcastInDim S2000000 ![] bcast_S_S2000000 : (⟨S_, .i32⟩ : BufTy).Contents (Elt F) → (⟨S2000000, .i32⟩ : BufTy).Contents (Elt F)),
    binary main_arg3 main_v76 main_v77 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 100000#32),
    unary main_c_15 main_v78 (broadcastInDim S2000000 ![] bcast_S_S2000000 : (⟨S_, .i32⟩ : BufTy).Contents (Elt F) → (⟨S2000000, .i32⟩ : BufTy).Contents (Elt F)),
    binary main_arg3 main_v78 main_v79 (addi : (⟨S2000000, .i32⟩ : BufTy).Contents (Elt F) → (⟨S2000000, .i32⟩ : BufTy).Contents (Elt F) → (⟨S2000000, .i32⟩ : BufTy).Contents (Elt F)),
    ternary main_v77 main_v79 main_arg3 main_v80 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v80 main_v81 (broadcastInDim S2000000x1 ![0] bcast_S2000000_S2000000x1_0 : (⟨S2000000, .i32⟩ : BufTy).Contents (Elt F) → (⟨S2000000x1, .i32⟩ : BufTy).Contents (Elt F)),
    binary main_v75 main_v81 main_v82 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_16 (constant S_ .f32 0x00000000#32),
    unary main_cst_16 main_v83 (broadcastInDim S50000x64 ![] bcast_S_S50000x64 : (⟨S_, .f32⟩ : BufTy).Contents (Elt F) → (⟨S50000x64, .f32⟩ : BufTy).Contents (Elt F)),
    unary main_arg4 main_v84 (broadcastInDim S2000000x1 ![0] bcast_S2000000_S2000000x1_0 : (⟨S2000000, .i32⟩ : BufTy).Contents (Elt F) → (⟨S2000000x1, .i32⟩ : BufTy).Contents (Elt F)),
    ternary main_v83 main_v84 main_v82 main_v85 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    nullary main_cst_17 (constant S_ .f32 0x3F800000#32),
    unary main_cst_17 main_v86 (broadcastInDim S2000000 ![] bcast_S_S2000000 : (⟨S_, .f32⟩ : BufTy).Contents (Elt F) → (⟨S2000000, .f32⟩ : BufTy).Contents (Elt F)),
    nullary main_cst_18 (constant S_ .f32 0x00000000#32),
    unary main_cst_18 main_v87 (broadcastInDim S50000 ![] bcast_S_S50000 : (⟨S_, .f32⟩ : BufTy).Contents (Elt F) → (⟨S50000, .f32⟩ : BufTy).Contents (Elt F)),
    unary main_arg4 main_v88 (broadcastInDim S2000000x1 ![0] bcast_S2000000_S2000000x1_0 : (⟨S2000000, .i32⟩ : BufTy).Contents (Elt F) → (⟨S2000000x1, .i32⟩ : BufTy).Contents (Elt F)),
    ternary main_v87 main_v88 main_v86 main_v89 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_19 (constant S_ .f32 0x3F800000#32),
    unary main_cst_19 main_v90 (broadcastInDim S50000 ![] bcast_S_S50000 : (⟨S_, .f32⟩ : BufTy).Contents (Elt F) → (⟨S50000, .f32⟩ : BufTy).Contents (Elt F)),
    binary main_v89 main_v90 main_v91 (maximumf : (⟨S50000, .f32⟩ : BufTy).Contents (Elt F) → (⟨S50000, .f32⟩ : BufTy).Contents (Elt F) → (⟨S50000, .f32⟩ : BufTy).Contents (Elt F)),
    unary main_v91 main_v92 (broadcastInDim S50000x1 ![0] bcast_S50000_S50000x1_0 : (⟨S50000, .f32⟩ : BufTy).Contents (Elt F) → (⟨S50000x1, .f32⟩ : BufTy).Contents (Elt F)),
    unary main_v92 main_v93 (broadcastInDim S50000x64 ![0, 1] bcast_S50000x1_S50000x64_0_1 : (⟨S50000x1, .f32⟩ : BufTy).Contents (Elt F) → (⟨S50000x64, .f32⟩ : BufTy).Contents (Elt F)),
    binary main_v85 main_v93 main_v94 (Host.divf : (⟨S50000x64, .f32⟩ : BufTy).Contents (Elt F) → (⟨S50000x64, .f32⟩ : BufTy).Contents (Elt F) → (⟨S50000x64, .f32⟩ : BufTy).Contents (Elt F)),
    unary main_arg17 main_v95 ((transpose S64x64 [1, 0] · transposes_S64x64_S64x64_1_0) : (⟨S64x64, .f32⟩ : BufTy).Contents (Elt F) → (⟨S64x64, .f32⟩ : BufTy).Contents (Elt F)),
    binary main_v94 main_v95 main_v96 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg18 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v96 main_v98 main_v99 (addf : (⟨S50000x64, .f32⟩ : BufTy).Contents (Elt F) → (⟨S50000x64, .f32⟩ : BufTy).Contents (Elt F) → (⟨S50000x64, .f32⟩ : BufTy).Contents (Elt F)),
    unary main_arg19 main_v100 ((transpose S64x64 [1, 0] · transposes_S64x64_S64x64_1_0) : (⟨S64x64, .f32⟩ : BufTy).Contents (Elt F) → (⟨S64x64, .f32⟩ : BufTy).Contents (Elt F)),
    binary main_v74 main_v100 main_v101 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)) ]

/-- The references stage 6 writes. -/
abbrev W6 : List (Ref sig .tc) := [main_c_14, main_v76, main_v77, main_c_15, main_v78, main_v79, main_v80, main_v81, main_v82, main_cst_16, main_v83, main_v84, main_v85, main_cst_17, main_v86, main_cst_18, main_v87, main_v88, main_v89, main_cst_19, main_v90, main_v91, main_v92, main_v93, main_v94, main_v95, main_v96, main_v97, main_v98, main_v99, main_v100, main_v101, main_v102]

theorem hW6 : (ops6 : List (HloOp τ sig (Elt F))).Forall fun op => op.writes ⊆ (W6.map (Proc.devRef (τ := τ) .tc)).toFinset :=
  ⟨writes_sub (y := main_c_14) (by decide), writes_sub (y := main_v76) (by decide), writes_sub (y := main_v77) (by decide), writes_sub (y := main_c_15) (by decide), writes_sub (y := main_v78) (by decide), writes_sub (y := main_v79) (by decide), writes_sub (y := main_v80) (by decide), writes_sub (y := main_v81) (by decide), writes_sub (y := main_v82) (by decide), writes_sub (y := main_cst_16) (by decide), writes_sub (y := main_v83) (by decide), writes_sub (y := main_v84) (by decide), writes_sub (y := main_v85) (by decide), writes_sub (y := main_cst_17) (by decide), writes_sub (y := main_v86) (by decide), writes_sub (y := main_cst_18) (by decide), writes_sub (y := main_v87) (by decide), writes_sub (y := main_v88) (by decide), writes_sub (y := main_v89) (by decide), writes_sub (y := main_cst_19) (by decide), writes_sub (y := main_v90) (by decide), writes_sub (y := main_v91) (by decide), writes_sub (y := main_v92) (by decide), writes_sub (y := main_v93) (by decide), writes_sub (y := main_v94) (by decide), writes_sub (y := main_v95) (by decide), writes_sub (y := main_v96) (by decide), writes_sub (y := main_v97) (by decide), writes_sub (y := main_v98) (by decide), writes_sub (y := main_v99) (by decide), writes_sub (y := main_v100) (by decide), writes_sub (y := main_v101) (by decide), writes_sub (y := main_v102) (by decide)⟩

/-- A reference stage 6 does not write keeps its contents. -/
theorem skip6 {r : Ref sig .tc} (hr : r ∉ W6) (V : Valuation τ sig (Elt F)) :
    after ops6 V (Proc.devRef .tc r) = V (Proc.devRef .tc r) := after_of_writes_sub ops6 V hW6 hr

/-- Stage 7 of @main's operations (33 of the 183), in order. -/
abbrev ops7 : List (HloOp τ sig (Elt F)) :=
  [ nullary main_c_20 (constantI S_ 32 0#32),
    unary main_c_20 main_v103 (broadcastInDim S2000000 ![] bcast_S_S2000000 : (⟨S_, .i32⟩ : BufTy).Contents (Elt F) → (⟨S2000000, .i32⟩ : BufTy).Contents (Elt F)),
    binary main_arg4 main_v103 main_v104 (cmpi .slt : (⟨S2000000, .i32⟩ : BufTy).Contents (Elt F) → (⟨S2000000, .i32⟩ : BufTy).Contents (Elt F) → (⟨S2000000, .i1⟩ : BufTy).Contents (Elt F)),
    nullary main_c_21 (constantI S_ 32 50000#32),
    unary main_c_21 main_v105 (broadcastInDim S2000000 ![] bcast_S_S2000000 : (⟨S_, .i32⟩ : BufTy).Contents (Elt F) → (⟨S2000000, .i32⟩ : BufTy).Contents (Elt F)),
    binary main_arg4 main_v105 main_v106 (addi : (⟨S2000000, .i32⟩ : BufTy).Contents (Elt F) → (⟨S2000000, .i32⟩ : BufTy).Contents (Elt F) → (⟨S2000000, .i32⟩ : BufTy).Contents (Elt F)),
    ternary main_v104 main_v106 main_arg4 main_v107 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v107 main_v108 (broadcastInDim S2000000x1 ![0] bcast_S2000000_S2000000x1_0 : (⟨S2000000, .i32⟩ : BufTy).Contents (Elt F) → (⟨S2000000x1, .i32⟩ : BufTy).Contents (Elt F)),
    binary main_v74 main_v108 main_v109 ((fun x i => Host.gather gather_S50000x64_S2000000x1_S2000000x64_1_0_n_n_0_1_164 x i) : (⟨S50000x64, .f32⟩ : BufTy).Contents (Elt F) → (⟨S2000000x1, .i32⟩ : BufTy).Contents (Elt F) → (⟨S2000000x64, .f32⟩ : BufTy).Contents (Elt F)),
    nullary main_cst_22 (constant S_ .f32 0x00000000#32),
    unary main_cst_22 main_v110 (broadcastInDim S100000x64 ![] bcast_S_S100000x64 : (⟨S_, .f32⟩ : BufTy).Contents (Elt F) → (⟨S100000x64, .f32⟩ : BufTy).Contents (Elt F)),
    unary main_arg3 main_v111 (broadcastInDim S2000000x1 ![0] bcast_S2000000_S2000000x1_0 : (⟨S2000000, .i32⟩ : BufTy).Contents (Elt F) → (⟨S2000000x1, .i32⟩ : BufTy).Contents (Elt F)),
    ternary main_v110 main_v111 main_v109 main_v112 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_23 (constant S_ .f32 0x3F800000#32),
    unary main_cst_23 main_v113 (broadcastInDim S2000000 ![] bcast_S_S2000000 : (⟨S_, .f32⟩ : BufTy).Contents (Elt F) → (⟨S2000000, .f32⟩ : BufTy).Contents (Elt F)),
    nullary main_cst_24 (constant S_ .f32 0x00000000#32),
    unary main_cst_24 main_v114 (broadcastInDim S100000 ![] bcast_S_S100000 : (⟨S_, .f32⟩ : BufTy).Contents (Elt F) → (⟨S100000, .f32⟩ : BufTy).Contents (Elt F)),
    unary main_arg3 main_v115 (broadcastInDim S2000000x1 ![0] bcast_S2000000_S2000000x1_0 : (⟨S2000000, .i32⟩ : BufTy).Contents (Elt F) → (⟨S2000000x1, .i32⟩ : BufTy).Contents (Elt F)),
    ternary main_v114 main_v115 main_v113 main_v116 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_25 (constant S_ .f32 0x3F800000#32),
    unary main_cst_25 main_v117 (broadcastInDim S100000 ![] bcast_S_S100000 : (⟨S_, .f32⟩ : BufTy).Contents (Elt F) → (⟨S100000, .f32⟩ : BufTy).Contents (Elt F)),
    binary main_v116 main_v117 main_v118 (maximumf : (⟨S100000, .f32⟩ : BufTy).Contents (Elt F) → (⟨S100000, .f32⟩ : BufTy).Contents (Elt F) → (⟨S100000, .f32⟩ : BufTy).Contents (Elt F)),
    unary main_v118 main_v119 (broadcastInDim S100000x1 ![0] bcast_S100000_S100000x1_0 : (⟨S100000, .f32⟩ : BufTy).Contents (Elt F) → (⟨S100000x1, .f32⟩ : BufTy).Contents (Elt F)),
    unary main_v119 main_v120 (broadcastInDim S100000x64 ![0, 1] bcast_S100000x1_S100000x64_0_1 : (⟨S100000x1, .f32⟩ : BufTy).Contents (Elt F) → (⟨S100000x64, .f32⟩ : BufTy).Contents (Elt F)),
    binary main_v112 main_v120 main_v121 (Host.divf : (⟨S100000x64, .f32⟩ : BufTy).Contents (Elt F) → (⟨S100000x64, .f32⟩ : BufTy).Contents (Elt F) → (⟨S100000x64, .f32⟩ : BufTy).Contents (Elt F)),
    unary main_arg20 main_v122 ((transpose S64x64 [1, 0] · transposes_S64x64_S64x64_1_0) : (⟨S64x64, .f32⟩ : BufTy).Contents (Elt F) → (⟨S64x64, .f32⟩ : BufTy).Contents (Elt F)),
    binary main_v121 main_v122 main_v123 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg21 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v123 main_v125 main_v126 (addf : (⟨S100000x64, .f32⟩ : BufTy).Contents (Elt F) → (⟨S100000x64, .f32⟩ : BufTy).Contents (Elt F) → (⟨S100000x64, .f32⟩ : BufTy).Contents (Elt F)),
    unary main_arg22 main_v127 ((transpose S64x64 [1, 0] · transposes_S64x64_S64x64_1_0) : (⟨S64x64, .f32⟩ : BufTy).Contents (Elt F) → (⟨S64x64, .f32⟩ : BufTy).Contents (Elt F)),
    binary main_v75 main_v127 main_v128 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

/-- The references stage 7 writes. -/
abbrev W7 : List (Ref sig .tc) := [main_c_20, main_v103, main_v104, main_c_21, main_v105, main_v106, main_v107, main_v108, main_v109, main_cst_22, main_v110, main_v111, main_v112, main_cst_23, main_v113, main_cst_24, main_v114, main_v115, main_v116, main_cst_25, main_v117, main_v118, main_v119, main_v120, main_v121, main_v122, main_v123, main_v124, main_v125, main_v126, main_v127, main_v128, main_v129]

theorem hW7 : (ops7 : List (HloOp τ sig (Elt F))).Forall fun op => op.writes ⊆ (W7.map (Proc.devRef (τ := τ) .tc)).toFinset :=
  ⟨writes_sub (y := main_c_20) (by decide), writes_sub (y := main_v103) (by decide), writes_sub (y := main_v104) (by decide), writes_sub (y := main_c_21) (by decide), writes_sub (y := main_v105) (by decide), writes_sub (y := main_v106) (by decide), writes_sub (y := main_v107) (by decide), writes_sub (y := main_v108) (by decide), writes_sub (y := main_v109) (by decide), writes_sub (y := main_cst_22) (by decide), writes_sub (y := main_v110) (by decide), writes_sub (y := main_v111) (by decide), writes_sub (y := main_v112) (by decide), writes_sub (y := main_cst_23) (by decide), writes_sub (y := main_v113) (by decide), writes_sub (y := main_cst_24) (by decide), writes_sub (y := main_v114) (by decide), writes_sub (y := main_v115) (by decide), writes_sub (y := main_v116) (by decide), writes_sub (y := main_cst_25) (by decide), writes_sub (y := main_v117) (by decide), writes_sub (y := main_v118) (by decide), writes_sub (y := main_v119) (by decide), writes_sub (y := main_v120) (by decide), writes_sub (y := main_v121) (by decide), writes_sub (y := main_v122) (by decide), writes_sub (y := main_v123) (by decide), writes_sub (y := main_v124) (by decide), writes_sub (y := main_v125) (by decide), writes_sub (y := main_v126) (by decide), writes_sub (y := main_v127) (by decide), writes_sub (y := main_v128) (by decide), writes_sub (y := main_v129) (by decide)⟩

/-- A reference stage 7 does not write keeps its contents. -/
theorem skip7 {r : Ref sig .tc} (hr : r ∉ W7) (V : Valuation τ sig (Elt F)) :
    after ops7 V (Proc.devRef .tc r) = V (Proc.devRef .tc r) := after_of_writes_sub ops7 V hW7 hr

/-- Stage 8 of @main's operations (21 of the 183), in order. -/
abbrev ops8 : List (HloOp τ sig (Elt F)) :=
  [ nullary main_c_26 (constantI S_ 32 0#32),
    unary main_c_26 main_v130 (broadcastInDim S500000 ![] bcast_S_S500000 : (⟨S_, .i32⟩ : BufTy).Contents (Elt F) → (⟨S500000, .i32⟩ : BufTy).Contents (Elt F)),
    binary main_arg5 main_v130 main_v131 (cmpi .slt : (⟨S500000, .i32⟩ : BufTy).Contents (Elt F) → (⟨S500000, .i32⟩ : BufTy).Contents (Elt F) → (⟨S500000, .i1⟩ : BufTy).Contents (Elt F)),
    nullary main_c_27 (constantI S_ 32 100000#32),
    unary main_c_27 main_v132 (broadcastInDim S500000 ![] bcast_S_S500000 : (⟨S_, .i32⟩ : BufTy).Contents (Elt F) → (⟨S500000, .i32⟩ : BufTy).Contents (Elt F)),
    binary main_arg5 main_v132 main_v133 (addi : (⟨S500000, .i32⟩ : BufTy).Contents (Elt F) → (⟨S500000, .i32⟩ : BufTy).Contents (Elt F) → (⟨S500000, .i32⟩ : BufTy).Contents (Elt F)),
    ternary main_v131 main_v133 main_arg5 main_v134 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v134 main_v135 (broadcastInDim S500000x1 ![0] bcast_S500000_S500000x1_0 : (⟨S500000, .i32⟩ : BufTy).Contents (Elt F) → (⟨S500000x1, .i32⟩ : BufTy).Contents (Elt F)),
    binary main_v129 main_v135 main_v136 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_28 (constantI S_ 32 0#32),
    unary main_c_28 main_v137 (broadcastInDim S500000 ![] bcast_S_S500000 : (⟨S_, .i32⟩ : BufTy).Contents (Elt F) → (⟨S500000, .i32⟩ : BufTy).Contents (Elt F)),
    binary main_arg6 main_v137 main_v138 (cmpi .slt : (⟨S500000, .i32⟩ : BufTy).Contents (Elt F) → (⟨S500000, .i32⟩ : BufTy).Contents (Elt F) → (⟨S500000, .i1⟩ : BufTy).Contents (Elt F)),
    nullary main_c_29 (constantI S_ 32 50000#32),
    unary main_c_29 main_v139 (broadcastInDim S500000 ![] bcast_S_S500000 : (⟨S_, .i32⟩ : BufTy).Contents (Elt F) → (⟨S500000, .i32⟩ : BufTy).Contents (Elt F)),
    binary main_arg6 main_v139 main_v140 (addi : (⟨S500000, .i32⟩ : BufTy).Contents (Elt F) → (⟨S500000, .i32⟩ : BufTy).Contents (Elt F) → (⟨S500000, .i32⟩ : BufTy).Contents (Elt F)),
    ternary main_v138 main_v140 main_arg6 main_v141 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v141 main_v142 (broadcastInDim S500000x1 ![0] bcast_S500000_S500000x1_0 : (⟨S500000, .i32⟩ : BufTy).Contents (Elt F) → (⟨S500000x1, .i32⟩ : BufTy).Contents (Elt F)),
    binary main_v102 main_v142 main_v143 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    binary main_v136 main_v143 main_v144 (mulf : (⟨S500000x64, .f32⟩ : BufTy).Contents (Elt F) → (⟨S500000x64, .f32⟩ : BufTy).Contents (Elt F) → (⟨S500000x64, .f32⟩ : BufTy).Contents (Elt F)),
    nullary main_cst_30 (constant S_ .f32 0x00000000#32),
    binary main_v144 main_cst_30 main_v145 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)) ]

/-- The references stage 8 writes. -/
abbrev W8 : List (Ref sig .tc) := [main_c_26, main_v130, main_v131, main_c_27, main_v132, main_v133, main_v134, main_v135, main_v136, main_c_28, main_v137, main_v138, main_c_29, main_v139, main_v140, main_v141, main_v142, main_v143, main_v144, main_cst_30, main_v145]

theorem hW8 : (ops8 : List (HloOp τ sig (Elt F))).Forall fun op => op.writes ⊆ (W8.map (Proc.devRef (τ := τ) .tc)).toFinset :=
  ⟨writes_sub (y := main_c_26) (by decide), writes_sub (y := main_v130) (by decide), writes_sub (y := main_v131) (by decide), writes_sub (y := main_c_27) (by decide), writes_sub (y := main_v132) (by decide), writes_sub (y := main_v133) (by decide), writes_sub (y := main_v134) (by decide), writes_sub (y := main_v135) (by decide), writes_sub (y := main_v136) (by decide), writes_sub (y := main_c_28) (by decide), writes_sub (y := main_v137) (by decide), writes_sub (y := main_v138) (by decide), writes_sub (y := main_c_29) (by decide), writes_sub (y := main_v139) (by decide), writes_sub (y := main_v140) (by decide), writes_sub (y := main_v141) (by decide), writes_sub (y := main_v142) (by decide), writes_sub (y := main_v143) (by decide), writes_sub (y := main_v144) (by decide), writes_sub (y := main_cst_30) (by decide), writes_sub (y := main_v145) (by decide)⟩

/-- A reference stage 8 does not write keeps its contents. -/
theorem skip8 {r : Ref sig .tc} (hr : r ∉ W8) (V : Valuation τ sig (Elt F)) :
    after ops8 V (Proc.devRef .tc r) = V (Proc.devRef .tc r) := after_of_writes_sub ops8 V hW8 hr

/-- @main's 183 operations, in order (a called function's operations stand in its call's place, spelt `TRef.…`): the eight stages one after the other. -/
abbrev ops : List (HloOp τ sig (Elt F)) := ops1 ++ (ops2 ++ (ops3 ++ (ops4 ++ (ops5 ++ (ops6 ++ (ops7 ++ (ops8)))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub1 : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem fresh1 : (ops1 : List (HloOp τ sig (Elt F))).Forall fun op => op.fresh = ∅ :=
  ⟨rfl, rfl, rfl, rfl, rfl, rfl, rfl, rfl, rfl⟩

theorem ops_sub2 : (ops2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem fresh2 : (ops2 : List (HloOp τ sig (Elt F))).Forall fun op => op.fresh = ∅ :=
  ⟨rfl, rfl, rfl, rfl, rfl, rfl, rfl, rfl, rfl, rfl, rfl, rfl, rfl, rfl, rfl⟩

theorem ops_sub3 : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub4 : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem fresh4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub5 : (ops5 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem fresh5 : (ops5 : List (HloOp τ sig (Elt F))).Forall fun op => op.fresh = ∅ :=
  ⟨rfl, rfl, rfl, rfl, rfl, rfl⟩

theorem ops_sub6 : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem fresh6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub7 : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem fresh7 : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub8 : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩
theorem fresh8 : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append ops_sub1 (forall_append ops_sub2 (forall_append ops_sub3 (forall_append ops_sub4 (forall_append ops_sub5 (forall_append ops_sub6 (forall_append ops_sub7 (ops_sub8)))))))
theorem ops_fresh : ∀ op ∈ (ops : List (HloOp τ sig (Elt F))), op.fresh = ∅ :=
  List.forall_iff_forall_mem.mp (forall_append fresh1 (forall_append fresh2 (forall_append fresh3 (forall_append fresh4 (forall_append fresh5 (forall_append fresh6 (forall_append fresh7 (fresh8))))))))

/-! ## Each stage's result, from any contents, as the named stage of what it reads -/

theorem c1_v6 (V : Valuation τ sig (Elt F)) :
    after ops1 V (Proc.devRef .tc main_v6) = Spec.rowsU (F := F) (V (Proc.devRef .tc main_arg7)) (V (Proc.devRef .tc main_arg1)) := by
  after_results_simp
  rfl
theorem c2_v19 (V : Valuation τ sig (Elt F)) :
    after ops2 V (Proc.devRef .tc main_v19) = Spec.feat (F := F) (V (Proc.devRef .tc main_arg0)) (Spec.wT128 (V (Proc.devRef .tc main_arg9))) (V (Proc.devRef .tc main_arg10)) (Spec.rowsM (V (Proc.devRef .tc main_arg8)) (V (Proc.devRef .tc main_arg2))) := by
  after_results_simp
  rfl
theorem c3_v46 (V : Valuation τ sig (Elt F)) :
    after ops3 V (Proc.devRef .tc main_v46) = Spec.sageM (F := F) (Spec.aggToMovie (V (Proc.devRef .tc main_v6)) (V (Proc.devRef .tc main_arg3)) (V (Proc.devRef .tc main_arg4))) (Spec.degMovie (V (Proc.devRef .tc main_arg4))) (V (Proc.devRef .tc main_v19)) (Spec.wT64 (V (Proc.devRef .tc main_arg11))) (V (Proc.devRef .tc main_arg12)) (Spec.wT64 (V (Proc.devRef .tc main_arg13))) := by
  after_results_simp
  rfl
theorem c4_v73 (V : Valuation τ sig (Elt F)) :
    after ops4 V (Proc.devRef .tc main_v73) = Spec.sageU (F := F) (Spec.aggToUser (V (Proc.devRef .tc main_v19)) (V (Proc.devRef .tc main_arg4)) (V (Proc.devRef .tc main_arg3))) (Spec.degUser (V (Proc.devRef .tc main_arg3))) (V (Proc.devRef .tc main_v6)) (Spec.wT64 (V (Proc.devRef .tc main_arg14))) (V (Proc.devRef .tc main_arg15)) (Spec.wT64 (V (Proc.devRef .tc main_arg16))) := by
  after_results_simp
  rfl
theorem c6_v102 (V : Valuation τ sig (Elt F)) :
    after ops6 V (Proc.devRef .tc main_v102) = Spec.sageM (F := F) (Spec.aggToMovie (V (Proc.devRef .tc main_v75)) (V (Proc.devRef .tc main_arg3)) (V (Proc.devRef .tc main_arg4))) (Spec.degMovie (V (Proc.devRef .tc main_arg4))) (V (Proc.devRef .tc main_v74)) (Spec.wT64 (V (Proc.devRef .tc main_arg17))) (V (Proc.devRef .tc main_arg18)) (Spec.wT64 (V (Proc.devRef .tc main_arg19))) := by
  after_results_simp
  rfl
theorem c7_v129 (V : Valuation τ sig (Elt F)) :
    after ops7 V (Proc.devRef .tc main_v129) = Spec.sageU (F := F) (Spec.aggToUser (V (Proc.devRef .tc main_v74)) (V (Proc.devRef .tc main_arg4)) (V (Proc.devRef .tc main_arg3))) (Spec.degUser (V (Proc.devRef .tc main_arg3))) (V (Proc.devRef .tc main_v75)) (Spec.wT64 (V (Proc.devRef .tc main_arg20))) (V (Proc.devRef .tc main_arg21)) (Spec.wT64 (V (Proc.devRef .tc main_arg22))) := by
  after_results_simp
  rfl
theorem c8_v145 (V : Valuation τ sig (Elt F)) :
    after ops8 V (Proc.devRef .tc main_v145) = Spec.decode (F := F) (V (Proc.devRef .tc main_v129)) (V (Proc.devRef .tc main_v102)) (V (Proc.devRef .tc main_arg5)) (V (Proc.devRef .tc main_arg6)) := by
  after_results_simp
  rfl

end Cert.ReferenceIdeal.RefRun

end
-- ==== Proof.RefRun.lean ====
/-
  The reference program's run, stretch by stretch: after each stage's stretch the stage's buffer holds the named
  whole-array function of the arguments (each stage is the reference's own chain of operations), the arguments keep
  their contents across every stretch, and so the result buffer ends at `Spec.out` of the arguments.
-/
import proofs.«406355_j49280454754830_3_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two rectifiers: a called function's operations at typed references, whose transports cancel -/

theorem c5_v74 (V : Valuation τ sig (Elt F)) :
    after ops5 V (Proc.devRef .tc main_v74) = Spec.reluM (F := F) (V (Proc.devRef .tc main_v46)) := by
  after_results_simp
  simp only [TRef.ofBuf_toBuf]
  rfl
theorem c5_v75 (V : Valuation τ sig (Elt F)) :
    after ops5 V (Proc.devRef .tc main_v75) = Spec.reluU (F := F) (V (Proc.devRef .tc main_v73)) := by
  after_results_simp
  simp only [TRef.ofBuf_toBuf]
  rfl

/-! ## The contents after each stage -/

/-- The contents after stages 1 to 1. -/
abbrev V1 (V : Valuation τ sig (Elt F)) : Valuation τ sig (Elt F) := after ops1 V
/-- The contents after stages 1 to 2. -/
abbrev V2 (V : Valuation τ sig (Elt F)) : Valuation τ sig (Elt F) := after ops2 (V1 V)
/-- The contents after stages 1 to 3. -/
abbrev V3 (V : Valuation τ sig (Elt F)) : Valuation τ sig (Elt F) := after ops3 (V2 V)
/-- The contents after stages 1 to 4. -/
abbrev V4 (V : Valuation τ sig (Elt F)) : Valuation τ sig (Elt F) := after ops4 (V3 V)
/-- The contents after stages 1 to 5. -/
abbrev V5 (V : Valuation τ sig (Elt F)) : Valuation τ sig (Elt F) := after ops5 (V4 V)
/-- The contents after stages 1 to 6. -/
abbrev V6 (V : Valuation τ sig (Elt F)) : Valuation τ sig (Elt F) := after ops6 (V5 V)
/-- The contents after stages 1 to 7. -/
abbrev V7 (V : Valuation τ sig (Elt F)) : Valuation τ sig (Elt F) := after ops7 (V6 V)
/-- The contents after stages 1 to 8. -/
abbrev V8 (V : Valuation τ sig (Elt F)) : Valuation τ sig (Elt F) := after ops8 (V7 V)

theorem after_ops (V : Valuation τ sig (Elt F)) : after ops V = V8 V := by
  simp only [ops, after_append]

/-! ## No stage writes an argument -/

theorem keep1_arg0 (V : Valuation τ sig (Elt F)) : V1 V (Proc.devRef .tc main_arg0) = V (Proc.devRef .tc main_arg0) := skip1 (by decide) V
theorem keep2_arg0 (V : Valuation τ sig (Elt F)) : V2 V (Proc.devRef .tc main_arg0) = V (Proc.devRef .tc main_arg0) := (skip2 (by decide) (V1 V)).trans (keep1_arg0 V)
theorem keep3_arg0 (V : Valuation τ sig (Elt F)) : V3 V (Proc.devRef .tc main_arg0) = V (Proc.devRef .tc main_arg0) := (skip3 (by decide) (V2 V)).trans (keep2_arg0 V)
theorem keep4_arg0 (V : Valuation τ sig (Elt F)) : V4 V (Proc.devRef .tc main_arg0) = V (Proc.devRef .tc main_arg0) := (skip4 (by decide) (V3 V)).trans (keep3_arg0 V)
theorem keep5_arg0 (V : Valuation τ sig (Elt F)) : V5 V (Proc.devRef .tc main_arg0) = V (Proc.devRef .tc main_arg0) := (skip5 (by decide) (V4 V)).trans (keep4_arg0 V)
theorem keep6_arg0 (V : Valuation τ sig (Elt F)) : V6 V (Proc.devRef .tc main_arg0) = V (Proc.devRef .tc main_arg0) := (skip6 (by decide) (V5 V)).trans (keep5_arg0 V)
theorem keep7_arg0 (V : Valuation τ sig (Elt F)) : V7 V (Proc.devRef .tc main_arg0) = V (Proc.devRef .tc main_arg0) := (skip7 (by decide) (V6 V)).trans (keep6_arg0 V)
theorem keep8_arg0 (V : Valuation τ sig (Elt F)) : V8 V (Proc.devRef .tc main_arg0) = V (Proc.devRef .tc main_arg0) := (skip8 (by decide) (V7 V)).trans (keep7_arg0 V)
theorem keep1_arg1 (V : Valuation τ sig (Elt F)) : V1 V (Proc.devRef .tc main_arg1) = V (Proc.devRef .tc main_arg1) := skip1 (by decide) V
theorem keep2_arg1 (V : Valuation τ sig (Elt F)) : V2 V (Proc.devRef .tc main_arg1) = V (Proc.devRef .tc main_arg1) := (skip2 (by decide) (V1 V)).trans (keep1_arg1 V)
theorem keep3_arg1 (V : Valuation τ sig (Elt F)) : V3 V (Proc.devRef .tc main_arg1) = V (Proc.devRef .tc main_arg1) := (skip3 (by decide) (V2 V)).trans (keep2_arg1 V)
theorem keep4_arg1 (V : Valuation τ sig (Elt F)) : V4 V (Proc.devRef .tc main_arg1) = V (Proc.devRef .tc main_arg1) := (skip4 (by decide) (V3 V)).trans (keep3_arg1 V)
theorem keep5_arg1 (V : Valuation τ sig (Elt F)) : V5 V (Proc.devRef .tc main_arg1) = V (Proc.devRef .tc main_arg1) := (skip5 (by decide) (V4 V)).trans (keep4_arg1 V)
theorem keep6_arg1 (V : Valuation τ sig (Elt F)) : V6 V (Proc.devRef .tc main_arg1) = V (Proc.devRef .tc main_arg1) := (skip6 (by decide) (V5 V)).trans (keep5_arg1 V)
theorem keep7_arg1 (V : Valuation τ sig (Elt F)) : V7 V (Proc.devRef .tc main_arg1) = V (Proc.devRef .tc main_arg1) := (skip7 (by decide) (V6 V)).trans (keep6_arg1 V)
theorem keep8_arg1 (V : Valuation τ sig (Elt F)) : V8 V (Proc.devRef .tc main_arg1) = V (Proc.devRef .tc main_arg1) := (skip8 (by decide) (V7 V)).trans (keep7_arg1 V)
theorem keep1_arg2 (V : Valuation τ sig (Elt F)) : V1 V (Proc.devRef .tc main_arg2) = V (Proc.devRef .tc main_arg2) := skip1 (by decide) V
theorem keep2_arg2 (V : Valuation τ sig (Elt F)) : V2 V (Proc.devRef .tc main_arg2) = V (Proc.devRef .tc main_arg2) := (skip2 (by decide) (V1 V)).trans (keep1_arg2 V)
theorem keep3_arg2 (V : Valuation τ sig (Elt F)) : V3 V (Proc.devRef .tc main_arg2) = V (Proc.devRef .tc main_arg2) := (skip3 (by decide) (V2 V)).trans (keep2_arg2 V)
theorem keep4_arg2 (V : Valuation τ sig (Elt F)) : V4 V (Proc.devRef .tc main_arg2) = V (Proc.devRef .tc main_arg2) := (skip4 (by decide) (V3 V)).trans (keep3_arg2 V)
theorem keep5_arg2 (V : Valuation τ sig (Elt F)) : V5 V (Proc.devRef .tc main_arg2) = V (Proc.devRef .tc main_arg2) := (skip5 (by decide) (V4 V)).trans (keep4_arg2 V)
theorem keep6_arg2 (V : Valuation τ sig (Elt F)) : V6 V (Proc.devRef .tc main_arg2) = V (Proc.devRef .tc main_arg2) := (skip6 (by decide) (V5 V)).trans (keep5_arg2 V)
theorem keep7_arg2 (V : Valuation τ sig (Elt F)) : V7 V (Proc.devRef .tc main_arg2) = V (Proc.devRef .tc main_arg2) := (skip7 (by decide) (V6 V)).trans (keep6_arg2 V)
theorem keep8_arg2 (V : Valuation τ sig (Elt F)) : V8 V (Proc.devRef .tc main_arg2) = V (Proc.devRef .tc main_arg2) := (skip8 (by decide) (V7 V)).trans (keep7_arg2 V)
theorem keep1_arg3 (V : Valuation τ sig (Elt F)) : V1 V (Proc.devRef .tc main_arg3) = V (Proc.devRef .tc main_arg3) := skip1 (by decide) V
theorem keep2_arg3 (V : Valuation τ sig (Elt F)) : V2 V (Proc.devRef .tc main_arg3) = V (Proc.devRef .tc main_arg3) := (skip2 (by decide) (V1 V)).trans (keep1_arg3 V)
theorem keep3_arg3 (V : Valuation τ sig (Elt F)) : V3 V (Proc.devRef .tc main_arg3) = V (Proc.devRef .tc main_arg3) := (skip3 (by decide) (V2 V)).trans (keep2_arg3 V)
theorem keep4_arg3 (V : Valuation τ sig (Elt F)) : V4 V (Proc.devRef .tc main_arg3) = V (Proc.devRef .tc main_arg3) := (skip4 (by decide) (V3 V)).trans (keep3_arg3 V)
theorem keep5_arg3 (V : Valuation τ sig (Elt F)) : V5 V (Proc.devRef .tc main_arg3) = V (Proc.devRef .tc main_arg3) := (skip5 (by decide) (V4 V)).trans (keep4_arg3 V)
theorem keep6_arg3 (V : Valuation τ sig (Elt F)) : V6 V (Proc.devRef .tc main_arg3) = V (Proc.devRef .tc main_arg3) := (skip6 (by decide) (V5 V)).trans (keep5_arg3 V)
theorem keep7_arg3 (V : Valuation τ sig (Elt F)) : V7 V (Proc.devRef .tc main_arg3) = V (Proc.devRef .tc main_arg3) := (skip7 (by decide) (V6 V)).trans (keep6_arg3 V)
theorem keep8_arg3 (V : Valuation τ sig (Elt F)) : V8 V (Proc.devRef .tc main_arg3) = V (Proc.devRef .tc main_arg3) := (skip8 (by decide) (V7 V)).trans (keep7_arg3 V)
theorem keep1_arg4 (V : Valuation τ sig (Elt F)) : V1 V (Proc.devRef .tc main_arg4) = V (Proc.devRef .tc main_arg4) := skip1 (by decide) V
theorem keep2_arg4 (V : Valuation τ sig (Elt F)) : V2 V (Proc.devRef .tc main_arg4) = V (Proc.devRef .tc main_arg4) := (skip2 (by decide) (V1 V)).trans (keep1_arg4 V)
theorem keep3_arg4 (V : Valuation τ sig (Elt F)) : V3 V (Proc.devRef .tc main_arg4) = V (Proc.devRef .tc main_arg4) := (skip3 (by decide) (V2 V)).trans (keep2_arg4 V)
theorem keep4_arg4 (V : Valuation τ sig (Elt F)) : V4 V (Proc.devRef .tc main_arg4) = V (Proc.devRef .tc main_arg4) := (skip4 (by decide) (V3 V)).trans (keep3_arg4 V)
theorem keep5_arg4 (V : Valuation τ sig (Elt F)) : V5 V (Proc.devRef .tc main_arg4) = V (Proc.devRef .tc main_arg4) := (skip5 (by decide) (V4 V)).trans (keep4_arg4 V)
theorem keep6_arg4 (V : Valuation τ sig (Elt F)) : V6 V (Proc.devRef .tc main_arg4) = V (Proc.devRef .tc main_arg4) := (skip6 (by decide) (V5 V)).trans (keep5_arg4 V)
theorem keep7_arg4 (V : Valuation τ sig (Elt F)) : V7 V (Proc.devRef .tc main_arg4) = V (Proc.devRef .tc main_arg4) := (skip7 (by decide) (V6 V)).trans (keep6_arg4 V)
theorem keep8_arg4 (V : Valuation τ sig (Elt F)) : V8 V (Proc.devRef .tc main_arg4) = V (Proc.devRef .tc main_arg4) := (skip8 (by decide) (V7 V)).trans (keep7_arg4 V)
theorem keep1_arg5 (V : Valuation τ sig (Elt F)) : V1 V (Proc.devRef .tc main_arg5) = V (Proc.devRef .tc main_arg5) := skip1 (by decide) V
theorem keep2_arg5 (V : Valuation τ sig (Elt F)) : V2 V (Proc.devRef .tc main_arg5) = V (Proc.devRef .tc main_arg5) := (skip2 (by decide) (V1 V)).trans (keep1_arg5 V)
theorem keep3_arg5 (V : Valuation τ sig (Elt F)) : V3 V (Proc.devRef .tc main_arg5) = V (Proc.devRef .tc main_arg5) := (skip3 (by decide) (V2 V)).trans (keep2_arg5 V)
theorem keep4_arg5 (V : Valuation τ sig (Elt F)) : V4 V (Proc.devRef .tc main_arg5) = V (Proc.devRef .tc main_arg5) := (skip4 (by decide) (V3 V)).trans (keep3_arg5 V)
theorem keep5_arg5 (V : Valuation τ sig (Elt F)) : V5 V (Proc.devRef .tc main_arg5) = V (Proc.devRef .tc main_arg5) := (skip5 (by decide) (V4 V)).trans (keep4_arg5 V)
theorem keep6_arg5 (V : Valuation τ sig (Elt F)) : V6 V (Proc.devRef .tc main_arg5) = V (Proc.devRef .tc main_arg5) := (skip6 (by decide) (V5 V)).trans (keep5_arg5 V)
theorem keep7_arg5 (V : Valuation τ sig (Elt F)) : V7 V (Proc.devRef .tc main_arg5) = V (Proc.devRef .tc main_arg5) := (skip7 (by decide) (V6 V)).trans (keep6_arg5 V)
theorem keep8_arg5 (V : Valuation τ sig (Elt F)) : V8 V (Proc.devRef .tc main_arg5) = V (Proc.devRef .tc main_arg5) := (skip8 (by decide) (V7 V)).trans (keep7_arg5 V)
theorem keep1_arg6 (V : Valuation τ sig (Elt F)) : V1 V (Proc.devRef .tc main_arg6) = V (Proc.devRef .tc main_arg6) := skip1 (by decide) V
theorem keep2_arg6 (V : Valuation τ sig (Elt F)) : V2 V (Proc.devRef .tc main_arg6) = V (Proc.devRef .tc main_arg6) := (skip2 (by decide) (V1 V)).trans (keep1_arg6 V)
theorem keep3_arg6 (V : Valuation τ sig (Elt F)) : V3 V (Proc.devRef .tc main_arg6) = V (Proc.devRef .tc main_arg6) := (skip3 (by decide) (V2 V)).trans (keep2_arg6 V)
theorem keep4_arg6 (V : Valuation τ sig (Elt F)) : V4 V (Proc.devRef .tc main_arg6) = V (Proc.devRef .tc main_arg6) := (skip4 (by decide) (V3 V)).trans (keep3_arg6 V)
theorem keep5_arg6 (V : Valuation τ sig (Elt F)) : V5 V (Proc.devRef .tc main_arg6) = V (Proc.devRef .tc main_arg6) := (skip5 (by decide) (V4 V)).trans (keep4_arg6 V)
theorem keep6_arg6 (V : Valuation τ sig (Elt F)) : V6 V (Proc.devRef .tc main_arg6) = V (Proc.devRef .tc main_arg6) := (skip6 (by decide) (V5 V)).trans (keep5_arg6 V)
theorem keep7_arg6 (V : Valuation τ sig (Elt F)) : V7 V (Proc.devRef .tc main_arg6) = V (Proc.devRef .tc main_arg6) := (skip7 (by decide) (V6 V)).trans (keep6_arg6 V)
theorem keep8_arg6 (V : Valuation τ sig (Elt F)) : V8 V (Proc.devRef .tc main_arg6) = V (Proc.devRef .tc main_arg6) := (skip8 (by decide) (V7 V)).trans (keep7_arg6 V)
theorem keep1_arg7 (V : Valuation τ sig (Elt F)) : V1 V (Proc.devRef .tc main_arg7) = V (Proc.devRef .tc main_arg7) := skip1 (by decide) V
theorem keep2_arg7 (V : Valuation τ sig (Elt F)) : V2 V (Proc.devRef .tc main_arg7) = V (Proc.devRef .tc main_arg7) := (skip2 (by decide) (V1 V)).trans (keep1_arg7 V)
theorem keep3_arg7 (V : Valuation τ sig (Elt F)) : V3 V (Proc.devRef .tc main_arg7) = V (Proc.devRef .tc main_arg7) := (skip3 (by decide) (V2 V)).trans (keep2_arg7 V)
theorem keep4_arg7 (V : Valuation τ sig (Elt F)) : V4 V (Proc.devRef .tc main_arg7) = V (Proc.devRef .tc main_arg7) := (skip4 (by decide) (V3 V)).trans (keep3_arg7 V)
theorem keep5_arg7 (V : Valuation τ sig (Elt F)) : V5 V (Proc.devRef .tc main_arg7) = V (Proc.devRef .tc main_arg7) := (skip5 (by decide) (V4 V)).trans (keep4_arg7 V)
theorem keep6_arg7 (V : Valuation τ sig (Elt F)) : V6 V (Proc.devRef .tc main_arg7) = V (Proc.devRef .tc main_arg7) := (skip6 (by decide) (V5 V)).trans (keep5_arg7 V)
theorem keep7_arg7 (V : Valuation τ sig (Elt F)) : V7 V (Proc.devRef .tc main_arg7) = V (Proc.devRef .tc main_arg7) := (skip7 (by decide) (V6 V)).trans (keep6_arg7 V)
theorem keep8_arg7 (V : Valuation τ sig (Elt F)) : V8 V (Proc.devRef .tc main_arg7) = V (Proc.devRef .tc main_arg7) := (skip8 (by decide) (V7 V)).trans (keep7_arg7 V)
theorem keep1_arg8 (V : Valuation τ sig (Elt F)) : V1 V (Proc.devRef .tc main_arg8) = V (Proc.devRef .tc main_arg8) := skip1 (by decide) V
theorem keep2_arg8 (V : Valuation τ sig (Elt F)) : V2 V (Proc.devRef .tc main_arg8) = V (Proc.devRef .tc main_arg8) := (skip2 (by decide) (V1 V)).trans (keep1_arg8 V)
theorem keep3_arg8 (V : Valuation τ sig (Elt F)) : V3 V (Proc.devRef .tc main_arg8) = V (Proc.devRef .tc main_arg8) := (skip3 (by decide) (V2 V)).trans (keep2_arg8 V)
theorem keep4_arg8 (V : Valuation τ sig (Elt F)) : V4 V (Proc.devRef .tc main_arg8) = V (Proc.devRef .tc main_arg8) := (skip4 (by decide) (V3 V)).trans (keep3_arg8 V)
theorem keep5_arg8 (V : Valuation τ sig (Elt F)) : V5 V (Proc.devRef .tc main_arg8) = V (Proc.devRef .tc main_arg8) := (skip5 (by decide) (V4 V)).trans (keep4_arg8 V)
theorem keep6_arg8 (V : Valuation τ sig (Elt F)) : V6 V (Proc.devRef .tc main_arg8) = V (Proc.devRef .tc main_arg8) := (skip6 (by decide) (V5 V)).trans (keep5_arg8 V)
theorem keep7_arg8 (V : Valuation τ sig (Elt F)) : V7 V (Proc.devRef .tc main_arg8) = V (Proc.devRef .tc main_arg8) := (skip7 (by decide) (V6 V)).trans (keep6_arg8 V)
theorem keep8_arg8 (V : Valuation τ sig (Elt F)) : V8 V (Proc.devRef .tc main_arg8) = V (Proc.devRef .tc main_arg8) := (skip8 (by decide) (V7 V)).trans (keep7_arg8 V)
theorem keep1_arg9 (V : Valuation τ sig (Elt F)) : V1 V (Proc.devRef .tc main_arg9) = V (Proc.devRef .tc main_arg9) := skip1 (by decide) V
theorem keep2_arg9 (V : Valuation τ sig (Elt F)) : V2 V (Proc.devRef .tc main_arg9) = V (Proc.devRef .tc main_arg9) := (skip2 (by decide) (V1 V)).trans (keep1_arg9 V)
theorem keep3_arg9 (V : Valuation τ sig (Elt F)) : V3 V (Proc.devRef .tc main_arg9) = V (Proc.devRef .tc main_arg9) := (skip3 (by decide) (V2 V)).trans (keep2_arg9 V)
theorem keep4_arg9 (V : Valuation τ sig (Elt F)) : V4 V (Proc.devRef .tc main_arg9) = V (Proc.devRef .tc main_arg9) := (skip4 (by decide) (V3 V)).trans (keep3_arg9 V)
theorem keep5_arg9 (V : Valuation τ sig (Elt F)) : V5 V (Proc.devRef .tc main_arg9) = V (Proc.devRef .tc main_arg9) := (skip5 (by decide) (V4 V)).trans (keep4_arg9 V)
theorem keep6_arg9 (V : Valuation τ sig (Elt F)) : V6 V (Proc.devRef .tc main_arg9) = V (Proc.devRef .tc main_arg9) := (skip6 (by decide) (V5 V)).trans (keep5_arg9 V)
theorem keep7_arg9 (V : Valuation τ sig (Elt F)) : V7 V (Proc.devRef .tc main_arg9) = V (Proc.devRef .tc main_arg9) := (skip7 (by decide) (V6 V)).trans (keep6_arg9 V)
theorem keep8_arg9 (V : Valuation τ sig (Elt F)) : V8 V (Proc.devRef .tc main_arg9) = V (Proc.devRef .tc main_arg9) := (skip8 (by decide) (V7 V)).trans (keep7_arg9 V)
theorem keep1_arg10 (V : Valuation τ sig (Elt F)) : V1 V (Proc.devRef .tc main_arg10) = V (Proc.devRef .tc main_arg10) := skip1 (by decide) V
theorem keep2_arg10 (V : Valuation τ sig (Elt F)) : V2 V (Proc.devRef .tc main_arg10) = V (Proc.devRef .tc main_arg10) := (skip2 (by decide) (V1 V)).trans (keep1_arg10 V)
theorem keep3_arg10 (V : Valuation τ sig (Elt F)) : V3 V (Proc.devRef .tc main_arg10) = V (Proc.devRef .tc main_arg10) := (skip3 (by decide) (V2 V)).trans (keep2_arg10 V)
theorem keep4_arg10 (V : Valuation τ sig (Elt F)) : V4 V (Proc.devRef .tc main_arg10) = V (Proc.devRef .tc main_arg10) := (skip4 (by decide) (V3 V)).trans (keep3_arg10 V)
theorem keep5_arg10 (V : Valuation τ sig (Elt F)) : V5 V (Proc.devRef .tc main_arg10) = V (Proc.devRef .tc main_arg10) := (skip5 (by decide) (V4 V)).trans (keep4_arg10 V)
theorem keep6_arg10 (V : Valuation τ sig (Elt F)) : V6 V (Proc.devRef .tc main_arg10) = V (Proc.devRef .tc main_arg10) := (skip6 (by decide) (V5 V)).trans (keep5_arg10 V)
theorem keep7_arg10 (V : Valuation τ sig (Elt F)) : V7 V (Proc.devRef .tc main_arg10) = V (Proc.devRef .tc main_arg10) := (skip7 (by decide) (V6 V)).trans (keep6_arg10 V)
theorem keep8_arg10 (V : Valuation τ sig (Elt F)) : V8 V (Proc.devRef .tc main_arg10) = V (Proc.devRef .tc main_arg10) := (skip8 (by decide) (V7 V)).trans (keep7_arg10 V)
theorem keep1_arg11 (V : Valuation τ sig (Elt F)) : V1 V (Proc.devRef .tc main_arg11) = V (Proc.devRef .tc main_arg11) := skip1 (by decide) V
theorem keep2_arg11 (V : Valuation τ sig (Elt F)) : V2 V (Proc.devRef .tc main_arg11) = V (Proc.devRef .tc main_arg11) := (skip2 (by decide) (V1 V)).trans (keep1_arg11 V)
theorem keep3_arg11 (V : Valuation τ sig (Elt F)) : V3 V (Proc.devRef .tc main_arg11) = V (Proc.devRef .tc main_arg11) := (skip3 (by decide) (V2 V)).trans (keep2_arg11 V)
theorem keep4_arg11 (V : Valuation τ sig (Elt F)) : V4 V (Proc.devRef .tc main_arg11) = V (Proc.devRef .tc main_arg11) := (skip4 (by decide) (V3 V)).trans (keep3_arg11 V)
theorem keep5_arg11 (V : Valuation τ sig (Elt F)) : V5 V (Proc.devRef .tc main_arg11) = V (Proc.devRef .tc main_arg11) := (skip5 (by decide) (V4 V)).trans (keep4_arg11 V)
theorem keep6_arg11 (V : Valuation τ sig (Elt F)) : V6 V (Proc.devRef .tc main_arg11) = V (Proc.devRef .tc main_arg11) := (skip6 (by decide) (V5 V)).trans (keep5_arg11 V)
theorem keep7_arg11 (V : Valuation τ sig (Elt F)) : V7 V (Proc.devRef .tc main_arg11) = V (Proc.devRef .tc main_arg11) := (skip7 (by decide) (V6 V)).trans (keep6_arg11 V)
theorem keep8_arg11 (V : Valuation τ sig (Elt F)) : V8 V (Proc.devRef .tc main_arg11) = V (Proc.devRef .tc main_arg11) := (skip8 (by decide) (V7 V)).trans (keep7_arg11 V)
theorem keep1_arg12 (V : Valuation τ sig (Elt F)) : V1 V (Proc.devRef .tc main_arg12) = V (Proc.devRef .tc main_arg12) := skip1 (by decide) V
theorem keep2_arg12 (V : Valuation τ sig (Elt F)) : V2 V (Proc.devRef .tc main_arg12) = V (Proc.devRef .tc main_arg12) := (skip2 (by decide) (V1 V)).trans (keep1_arg12 V)
theorem keep3_arg12 (V : Valuation τ sig (Elt F)) : V3 V (Proc.devRef .tc main_arg12) = V (Proc.devRef .tc main_arg12) := (skip3 (by decide) (V2 V)).trans (keep2_arg12 V)
theorem keep4_arg12 (V : Valuation τ sig (Elt F)) : V4 V (Proc.devRef .tc main_arg12) = V (Proc.devRef .tc main_arg12) := (skip4 (by decide) (V3 V)).trans (keep3_arg12 V)
theorem keep5_arg12 (V : Valuation τ sig (Elt F)) : V5 V (Proc.devRef .tc main_arg12) = V (Proc.devRef .tc main_arg12) := (skip5 (by decide) (V4 V)).trans (keep4_arg12 V)
theorem keep6_arg12 (V : Valuation τ sig (Elt F)) : V6 V (Proc.devRef .tc main_arg12) = V (Proc.devRef .tc main_arg12) := (skip6 (by decide) (V5 V)).trans (keep5_arg12 V)
theorem keep7_arg12 (V : Valuation τ sig (Elt F)) : V7 V (Proc.devRef .tc main_arg12) = V (Proc.devRef .tc main_arg12) := (skip7 (by decide) (V6 V)).trans (keep6_arg12 V)
theorem keep8_arg12 (V : Valuation τ sig (Elt F)) : V8 V (Proc.devRef .tc main_arg12) = V (Proc.devRef .tc main_arg12) := (skip8 (by decide) (V7 V)).trans (keep7_arg12 V)
theorem keep1_arg13 (V : Valuation τ sig (Elt F)) : V1 V (Proc.devRef .tc main_arg13) = V (Proc.devRef .tc main_arg13) := skip1 (by decide) V
theorem keep2_arg13 (V : Valuation τ sig (Elt F)) : V2 V (Proc.devRef .tc main_arg13) = V (Proc.devRef .tc main_arg13) := (skip2 (by decide) (V1 V)).trans (keep1_arg13 V)
theorem keep3_arg13 (V : Valuation τ sig (Elt F)) : V3 V (Proc.devRef .tc main_arg13) = V (Proc.devRef .tc main_arg13) := (skip3 (by decide) (V2 V)).trans (keep2_arg13 V)
theorem keep4_arg13 (V : Valuation τ sig (Elt F)) : V4 V (Proc.devRef .tc main_arg13) = V (Proc.devRef .tc main_arg13) := (skip4 (by decide) (V3 V)).trans (keep3_arg13 V)
theorem keep5_arg13 (V : Valuation τ sig (Elt F)) : V5 V (Proc.devRef .tc main_arg13) = V (Proc.devRef .tc main_arg13) := (skip5 (by decide) (V4 V)).trans (keep4_arg13 V)
theorem keep6_arg13 (V : Valuation τ sig (Elt F)) : V6 V (Proc.devRef .tc main_arg13) = V (Proc.devRef .tc main_arg13) := (skip6 (by decide) (V5 V)).trans (keep5_arg13 V)
theorem keep7_arg13 (V : Valuation τ sig (Elt F)) : V7 V (Proc.devRef .tc main_arg13) = V (Proc.devRef .tc main_arg13) := (skip7 (by decide) (V6 V)).trans (keep6_arg13 V)
theorem keep8_arg13 (V : Valuation τ sig (Elt F)) : V8 V (Proc.devRef .tc main_arg13) = V (Proc.devRef .tc main_arg13) := (skip8 (by decide) (V7 V)).trans (keep7_arg13 V)
theorem keep1_arg14 (V : Valuation τ sig (Elt F)) : V1 V (Proc.devRef .tc main_arg14) = V (Proc.devRef .tc main_arg14) := skip1 (by decide) V
theorem keep2_arg14 (V : Valuation τ sig (Elt F)) : V2 V (Proc.devRef .tc main_arg14) = V (Proc.devRef .tc main_arg14) := (skip2 (by decide) (V1 V)).trans (keep1_arg14 V)
theorem keep3_arg14 (V : Valuation τ sig (Elt F)) : V3 V (Proc.devRef .tc main_arg14) = V (Proc.devRef .tc main_arg14) := (skip3 (by decide) (V2 V)).trans (keep2_arg14 V)
theorem keep4_arg14 (V : Valuation τ sig (Elt F)) : V4 V (Proc.devRef .tc main_arg14) = V (Proc.devRef .tc main_arg14) := (skip4 (by decide) (V3 V)).trans (keep3_arg14 V)
theorem keep5_arg14 (V : Valuation τ sig (Elt F)) : V5 V (Proc.devRef .tc main_arg14) = V (Proc.devRef .tc main_arg14) := (skip5 (by decide) (V4 V)).trans (keep4_arg14 V)
theorem keep6_arg14 (V : Valuation τ sig (Elt F)) : V6 V (Proc.devRef .tc main_arg14) = V (Proc.devRef .tc main_arg14) := (skip6 (by decide) (V5 V)).trans (keep5_arg14 V)
theorem keep7_arg14 (V : Valuation τ sig (Elt F)) : V7 V (Proc.devRef .tc main_arg14) = V (Proc.devRef .tc main_arg14) := (skip7 (by decide) (V6 V)).trans (keep6_arg14 V)
theorem keep8_arg14 (V : Valuation τ sig (Elt F)) : V8 V (Proc.devRef .tc main_arg14) = V (Proc.devRef .tc main_arg14) := (skip8 (by decide) (V7 V)).trans (keep7_arg14 V)
theorem keep1_arg15 (V : Valuation τ sig (Elt F)) : V1 V (Proc.devRef .tc main_arg15) = V (Proc.devRef .tc main_arg15) := skip1 (by decide) V
theorem keep2_arg15 (V : Valuation τ sig (Elt F)) : V2 V (Proc.devRef .tc main_arg15) = V (Proc.devRef .tc main_arg15) := (skip2 (by decide) (V1 V)).trans (keep1_arg15 V)
theorem keep3_arg15 (V : Valuation τ sig (Elt F)) : V3 V (Proc.devRef .tc main_arg15) = V (Proc.devRef .tc main_arg15) := (skip3 (by decide) (V2 V)).trans (keep2_arg15 V)
theorem keep4_arg15 (V : Valuation τ sig (Elt F)) : V4 V (Proc.devRef .tc main_arg15) = V (Proc.devRef .tc main_arg15) := (skip4 (by decide) (V3 V)).trans (keep3_arg15 V)
theorem keep5_arg15 (V : Valuation τ sig (Elt F)) : V5 V (Proc.devRef .tc main_arg15) = V (Proc.devRef .tc main_arg15) := (skip5 (by decide) (V4 V)).trans (keep4_arg15 V)
theorem keep6_arg15 (V : Valuation τ sig (Elt F)) : V6 V (Proc.devRef .tc main_arg15) = V (Proc.devRef .tc main_arg15) := (skip6 (by decide) (V5 V)).trans (keep5_arg15 V)
theorem keep7_arg15 (V : Valuation τ sig (Elt F)) : V7 V (Proc.devRef .tc main_arg15) = V (Proc.devRef .tc main_arg15) := (skip7 (by decide) (V6 V)).trans (keep6_arg15 V)
theorem keep8_arg15 (V : Valuation τ sig (Elt F)) : V8 V (Proc.devRef .tc main_arg15) = V (Proc.devRef .tc main_arg15) := (skip8 (by decide) (V7 V)).trans (keep7_arg15 V)
theorem keep1_arg16 (V : Valuation τ sig (Elt F)) : V1 V (Proc.devRef .tc main_arg16) = V (Proc.devRef .tc main_arg16) := skip1 (by decide) V
theorem keep2_arg16 (V : Valuation τ sig (Elt F)) : V2 V (Proc.devRef .tc main_arg16) = V (Proc.devRef .tc main_arg16) := (skip2 (by decide) (V1 V)).trans (keep1_arg16 V)
theorem keep3_arg16 (V : Valuation τ sig (Elt F)) : V3 V (Proc.devRef .tc main_arg16) = V (Proc.devRef .tc main_arg16) := (skip3 (by decide) (V2 V)).trans (keep2_arg16 V)
theorem keep4_arg16 (V : Valuation τ sig (Elt F)) : V4 V (Proc.devRef .tc main_arg16) = V (Proc.devRef .tc main_arg16) := (skip4 (by decide) (V3 V)).trans (keep3_arg16 V)
theorem keep5_arg16 (V : Valuation τ sig (Elt F)) : V5 V (Proc.devRef .tc main_arg16) = V (Proc.devRef .tc main_arg16) := (skip5 (by decide) (V4 V)).trans (keep4_arg16 V)
theorem keep6_arg16 (V : Valuation τ sig (Elt F)) : V6 V (Proc.devRef .tc main_arg16) = V (Proc.devRef .tc main_arg16) := (skip6 (by decide) (V5 V)).trans (keep5_arg16 V)
theorem keep7_arg16 (V : Valuation τ sig (Elt F)) : V7 V (Proc.devRef .tc main_arg16) = V (Proc.devRef .tc main_arg16) := (skip7 (by decide) (V6 V)).trans (keep6_arg16 V)
theorem keep8_arg16 (V : Valuation τ sig (Elt F)) : V8 V (Proc.devRef .tc main_arg16) = V (Proc.devRef .tc main_arg16) := (skip8 (by decide) (V7 V)).trans (keep7_arg16 V)
theorem keep1_arg17 (V : Valuation τ sig (Elt F)) : V1 V (Proc.devRef .tc main_arg17) = V (Proc.devRef .tc main_arg17) := skip1 (by decide) V
theorem keep2_arg17 (V : Valuation τ sig (Elt F)) : V2 V (Proc.devRef .tc main_arg17) = V (Proc.devRef .tc main_arg17) := (skip2 (by decide) (V1 V)).trans (keep1_arg17 V)
theorem keep3_arg17 (V : Valuation τ sig (Elt F)) : V3 V (Proc.devRef .tc main_arg17) = V (Proc.devRef .tc main_arg17) := (skip3 (by decide) (V2 V)).trans (keep2_arg17 V)
theorem keep4_arg17 (V : Valuation τ sig (Elt F)) : V4 V (Proc.devRef .tc main_arg17) = V (Proc.devRef .tc main_arg17) := (skip4 (by decide) (V3 V)).trans (keep3_arg17 V)
theorem keep5_arg17 (V : Valuation τ sig (Elt F)) : V5 V (Proc.devRef .tc main_arg17) = V (Proc.devRef .tc main_arg17) := (skip5 (by decide) (V4 V)).trans (keep4_arg17 V)
theorem keep6_arg17 (V : Valuation τ sig (Elt F)) : V6 V (Proc.devRef .tc main_arg17) = V (Proc.devRef .tc main_arg17) := (skip6 (by decide) (V5 V)).trans (keep5_arg17 V)
theorem keep7_arg17 (V : Valuation τ sig (Elt F)) : V7 V (Proc.devRef .tc main_arg17) = V (Proc.devRef .tc main_arg17) := (skip7 (by decide) (V6 V)).trans (keep6_arg17 V)
theorem keep8_arg17 (V : Valuation τ sig (Elt F)) : V8 V (Proc.devRef .tc main_arg17) = V (Proc.devRef .tc main_arg17) := (skip8 (by decide) (V7 V)).trans (keep7_arg17 V)
theorem keep1_arg18 (V : Valuation τ sig (Elt F)) : V1 V (Proc.devRef .tc main_arg18) = V (Proc.devRef .tc main_arg18) := skip1 (by decide) V
theorem keep2_arg18 (V : Valuation τ sig (Elt F)) : V2 V (Proc.devRef .tc main_arg18) = V (Proc.devRef .tc main_arg18) := (skip2 (by decide) (V1 V)).trans (keep1_arg18 V)
theorem keep3_arg18 (V : Valuation τ sig (Elt F)) : V3 V (Proc.devRef .tc main_arg18) = V (Proc.devRef .tc main_arg18) := (skip3 (by decide) (V2 V)).trans (keep2_arg18 V)
theorem keep4_arg18 (V : Valuation τ sig (Elt F)) : V4 V (Proc.devRef .tc main_arg18) = V (Proc.devRef .tc main_arg18) := (skip4 (by decide) (V3 V)).trans (keep3_arg18 V)
theorem keep5_arg18 (V : Valuation τ sig (Elt F)) : V5 V (Proc.devRef .tc main_arg18) = V (Proc.devRef .tc main_arg18) := (skip5 (by decide) (V4 V)).trans (keep4_arg18 V)
theorem keep6_arg18 (V : Valuation τ sig (Elt F)) : V6 V (Proc.devRef .tc main_arg18) = V (Proc.devRef .tc main_arg18) := (skip6 (by decide) (V5 V)).trans (keep5_arg18 V)
theorem keep7_arg18 (V : Valuation τ sig (Elt F)) : V7 V (Proc.devRef .tc main_arg18) = V (Proc.devRef .tc main_arg18) := (skip7 (by decide) (V6 V)).trans (keep6_arg18 V)
theorem keep8_arg18 (V : Valuation τ sig (Elt F)) : V8 V (Proc.devRef .tc main_arg18) = V (Proc.devRef .tc main_arg18) := (skip8 (by decide) (V7 V)).trans (keep7_arg18 V)
theorem keep1_arg19 (V : Valuation τ sig (Elt F)) : V1 V (Proc.devRef .tc main_arg19) = V (Proc.devRef .tc main_arg19) := skip1 (by decide) V
theorem keep2_arg19 (V : Valuation τ sig (Elt F)) : V2 V (Proc.devRef .tc main_arg19) = V (Proc.devRef .tc main_arg19) := (skip2 (by decide) (V1 V)).trans (keep1_arg19 V)
theorem keep3_arg19 (V : Valuation τ sig (Elt F)) : V3 V (Proc.devRef .tc main_arg19) = V (Proc.devRef .tc main_arg19) := (skip3 (by decide) (V2 V)).trans (keep2_arg19 V)
theorem keep4_arg19 (V : Valuation τ sig (Elt F)) : V4 V (Proc.devRef .tc main_arg19) = V (Proc.devRef .tc main_arg19) := (skip4 (by decide) (V3 V)).trans (keep3_arg19 V)
theorem keep5_arg19 (V : Valuation τ sig (Elt F)) : V5 V (Proc.devRef .tc main_arg19) = V (Proc.devRef .tc main_arg19) := (skip5 (by decide) (V4 V)).trans (keep4_arg19 V)
theorem keep6_arg19 (V : Valuation τ sig (Elt F)) : V6 V (Proc.devRef .tc main_arg19) = V (Proc.devRef .tc main_arg19) := (skip6 (by decide) (V5 V)).trans (keep5_arg19 V)
theorem keep7_arg19 (V : Valuation τ sig (Elt F)) : V7 V (Proc.devRef .tc main_arg19) = V (Proc.devRef .tc main_arg19) := (skip7 (by decide) (V6 V)).trans (keep6_arg19 V)
theorem keep8_arg19 (V : Valuation τ sig (Elt F)) : V8 V (Proc.devRef .tc main_arg19) = V (Proc.devRef .tc main_arg19) := (skip8 (by decide) (V7 V)).trans (keep7_arg19 V)
theorem keep1_arg20 (V : Valuation τ sig (Elt F)) : V1 V (Proc.devRef .tc main_arg20) = V (Proc.devRef .tc main_arg20) := skip1 (by decide) V
theorem keep2_arg20 (V : Valuation τ sig (Elt F)) : V2 V (Proc.devRef .tc main_arg20) = V (Proc.devRef .tc main_arg20) := (skip2 (by decide) (V1 V)).trans (keep1_arg20 V)
theorem keep3_arg20 (V : Valuation τ sig (Elt F)) : V3 V (Proc.devRef .tc main_arg20) = V (Proc.devRef .tc main_arg20) := (skip3 (by decide) (V2 V)).trans (keep2_arg20 V)
theorem keep4_arg20 (V : Valuation τ sig (Elt F)) : V4 V (Proc.devRef .tc main_arg20) = V (Proc.devRef .tc main_arg20) := (skip4 (by decide) (V3 V)).trans (keep3_arg20 V)
theorem keep5_arg20 (V : Valuation τ sig (Elt F)) : V5 V (Proc.devRef .tc main_arg20) = V (Proc.devRef .tc main_arg20) := (skip5 (by decide) (V4 V)).trans (keep4_arg20 V)
theorem keep6_arg20 (V : Valuation τ sig (Elt F)) : V6 V (Proc.devRef .tc main_arg20) = V (Proc.devRef .tc main_arg20) := (skip6 (by decide) (V5 V)).trans (keep5_arg20 V)
theorem keep7_arg20 (V : Valuation τ sig (Elt F)) : V7 V (Proc.devRef .tc main_arg20) = V (Proc.devRef .tc main_arg20) := (skip7 (by decide) (V6 V)).trans (keep6_arg20 V)
theorem keep8_arg20 (V : Valuation τ sig (Elt F)) : V8 V (Proc.devRef .tc main_arg20) = V (Proc.devRef .tc main_arg20) := (skip8 (by decide) (V7 V)).trans (keep7_arg20 V)
theorem keep1_arg21 (V : Valuation τ sig (Elt F)) : V1 V (Proc.devRef .tc main_arg21) = V (Proc.devRef .tc main_arg21) := skip1 (by decide) V
theorem keep2_arg21 (V : Valuation τ sig (Elt F)) : V2 V (Proc.devRef .tc main_arg21) = V (Proc.devRef .tc main_arg21) := (skip2 (by decide) (V1 V)).trans (keep1_arg21 V)
theorem keep3_arg21 (V : Valuation τ sig (Elt F)) : V3 V (Proc.devRef .tc main_arg21) = V (Proc.devRef .tc main_arg21) := (skip3 (by decide) (V2 V)).trans (keep2_arg21 V)
theorem keep4_arg21 (V : Valuation τ sig (Elt F)) : V4 V (Proc.devRef .tc main_arg21) = V (Proc.devRef .tc main_arg21) := (skip4 (by decide) (V3 V)).trans (keep3_arg21 V)
theorem keep5_arg21 (V : Valuation τ sig (Elt F)) : V5 V (Proc.devRef .tc main_arg21) = V (Proc.devRef .tc main_arg21) := (skip5 (by decide) (V4 V)).trans (keep4_arg21 V)
theorem keep6_arg21 (V : Valuation τ sig (Elt F)) : V6 V (Proc.devRef .tc main_arg21) = V (Proc.devRef .tc main_arg21) := (skip6 (by decide) (V5 V)).trans (keep5_arg21 V)
theorem keep7_arg21 (V : Valuation τ sig (Elt F)) : V7 V (Proc.devRef .tc main_arg21) = V (Proc.devRef .tc main_arg21) := (skip7 (by decide) (V6 V)).trans (keep6_arg21 V)
theorem keep8_arg21 (V : Valuation τ sig (Elt F)) : V8 V (Proc.devRef .tc main_arg21) = V (Proc.devRef .tc main_arg21) := (skip8 (by decide) (V7 V)).trans (keep7_arg21 V)
theorem keep1_arg22 (V : Valuation τ sig (Elt F)) : V1 V (Proc.devRef .tc main_arg22) = V (Proc.devRef .tc main_arg22) := skip1 (by decide) V
theorem keep2_arg22 (V : Valuation τ sig (Elt F)) : V2 V (Proc.devRef .tc main_arg22) = V (Proc.devRef .tc main_arg22) := (skip2 (by decide) (V1 V)).trans (keep1_arg22 V)
theorem keep3_arg22 (V : Valuation τ sig (Elt F)) : V3 V (Proc.devRef .tc main_arg22) = V (Proc.devRef .tc main_arg22) := (skip3 (by decide) (V2 V)).trans (keep2_arg22 V)
theorem keep4_arg22 (V : Valuation τ sig (Elt F)) : V4 V (Proc.devRef .tc main_arg22) = V (Proc.devRef .tc main_arg22) := (skip4 (by decide) (V3 V)).trans (keep3_arg22 V)
theorem keep5_arg22 (V : Valuation τ sig (Elt F)) : V5 V (Proc.devRef .tc main_arg22) = V (Proc.devRef .tc main_arg22) := (skip5 (by decide) (V4 V)).trans (keep4_arg22 V)
theorem keep6_arg22 (V : Valuation τ sig (Elt F)) : V6 V (Proc.devRef .tc main_arg22) = V (Proc.devRef .tc main_arg22) := (skip6 (by decide) (V5 V)).trans (keep5_arg22 V)
theorem keep7_arg22 (V : Valuation τ sig (Elt F)) : V7 V (Proc.devRef .tc main_arg22) = V (Proc.devRef .tc main_arg22) := (skip7 (by decide) (V6 V)).trans (keep6_arg22 V)
theorem keep8_arg22 (V : Valuation τ sig (Elt F)) : V8 V (Proc.devRef .tc main_arg22) = V (Proc.devRef .tc main_arg22) := (skip8 (by decide) (V7 V)).trans (keep7_arg22 V)

/-! ## The named intermediate arrays, as functions of the arguments' contents -/

/-- The user features: the user embedding's rows at the user ids. -/
abbrev stXu (V : Valuation τ sig (Elt F)) := Spec.rowsU (F := F) (V (Proc.devRef .tc main_arg7)) (V (Proc.devRef .tc main_arg1))
/-- The movie features: the projection of the raw features plus the movie embedding's rows at the movie ids. -/
abbrev stXm (V : Valuation τ sig (Elt F)) := Spec.feat (F := F) (V (Proc.devRef .tc main_arg0)) (Spec.wT128 (V (Proc.devRef .tc main_arg9))) (V (Proc.devRef .tc main_arg10)) (Spec.rowsM (V (Proc.devRef .tc main_arg8)) (V (Proc.devRef .tc main_arg2)))
/-- The first round's combine on the movies, before the rectifier. -/
abbrev stPm (V : Valuation τ sig (Elt F)) := Spec.sageM (F := F) (Spec.aggToMovie (stXu V) (V (Proc.devRef .tc main_arg3)) (V (Proc.devRef .tc main_arg4))) (Spec.degMovie (V (Proc.devRef .tc main_arg4))) (stXm V) (Spec.wT64 (V (Proc.devRef .tc main_arg11))) (V (Proc.devRef .tc main_arg12)) (Spec.wT64 (V (Proc.devRef .tc main_arg13)))
/-- The first round's combine on the users, before the rectifier. -/
abbrev stPu (V : Valuation τ sig (Elt F)) := Spec.sageU (F := F) (Spec.aggToUser (stXm V) (V (Proc.devRef .tc main_arg4)) (V (Proc.devRef .tc main_arg3))) (Spec.degUser (V (Proc.devRef .tc main_arg3))) (stXu V) (Spec.wT64 (V (Proc.devRef .tc main_arg14))) (V (Proc.devRef .tc main_arg15)) (Spec.wT64 (V (Proc.devRef .tc main_arg16)))
/-- The first round's movie rows. -/
abbrev stHm (V : Valuation τ sig (Elt F)) := Spec.reluM (F := F) (stPm V)
/-- The first round's user rows. -/
abbrev stHu (V : Valuation τ sig (Elt F)) := Spec.reluU (F := F) (stPu V)
/-- The second round's movie rows. -/
abbrev stOm (V : Valuation τ sig (Elt F)) := Spec.sageM (F := F) (Spec.aggToMovie (stHu V) (V (Proc.devRef .tc main_arg3)) (V (Proc.devRef .tc main_arg4))) (Spec.degMovie (V (Proc.devRef .tc main_arg4))) (stHm V) (Spec.wT64 (V (Proc.devRef .tc main_arg17))) (V (Proc.devRef .tc main_arg18)) (Spec.wT64 (V (Proc.devRef .tc main_arg19)))
/-- The second round's user rows. -/
abbrev stOu (V : Valuation τ sig (Elt F)) := Spec.sageU (F := F) (Spec.aggToUser (stHm V) (V (Proc.devRef .tc main_arg4)) (V (Proc.devRef .tc main_arg3))) (Spec.degUser (V (Proc.devRef .tc main_arg3))) (stHu V) (Spec.wT64 (V (Proc.devRef .tc main_arg20))) (V (Proc.devRef .tc main_arg21)) (Spec.wT64 (V (Proc.devRef .tc main_arg22)))

/-! ## Each stage's result after the stages so far, in the arguments' contents -/

theorem s1 (V : Valuation τ sig (Elt F)) : V1 V (Proc.devRef .tc main_v6) = stXu V := c1_v6 V
theorem s2 (V : Valuation τ sig (Elt F)) : V2 V (Proc.devRef .tc main_v19) = stXm V :=
  (c2_v19 (V1 V)).trans (by rw [keep1_arg0, keep1_arg9, keep1_arg10, keep1_arg8, keep1_arg2])
theorem s2_v6 (V : Valuation τ sig (Elt F)) : V2 V (Proc.devRef .tc main_v6) = stXu V := (skip2 (by decide) (V1 V)).trans (s1 V)
theorem s3 (V : Valuation τ sig (Elt F)) : V3 V (Proc.devRef .tc main_v46) = stPm V :=
  (c3_v46 (V2 V)).trans (by rw [s2_v6, s2, keep2_arg3, keep2_arg4, keep2_arg11, keep2_arg12, keep2_arg13])
theorem s3_v19 (V : Valuation τ sig (Elt F)) : V3 V (Proc.devRef .tc main_v19) = stXm V := (skip3 (by decide) (V2 V)).trans (s2 V)
theorem s3_v6 (V : Valuation τ sig (Elt F)) : V3 V (Proc.devRef .tc main_v6) = stXu V := (skip3 (by decide) (V2 V)).trans (s2_v6 V)
theorem s4 (V : Valuation τ sig (Elt F)) : V4 V (Proc.devRef .tc main_v73) = stPu V :=
  (c4_v73 (V3 V)).trans (by rw [s3_v19, s3_v6, keep3_arg4, keep3_arg3, keep3_arg14, keep3_arg15, keep3_arg16])
theorem s4_v46 (V : Valuation τ sig (Elt F)) : V4 V (Proc.devRef .tc main_v46) = stPm V := (skip4 (by decide) (V3 V)).trans (s3 V)
theorem s5m (V : Valuation τ sig (Elt F)) : V5 V (Proc.devRef .tc main_v74) = stHm V :=
  (c5_v74 (V4 V)).trans (by rw [s4_v46])
theorem s5u (V : Valuation τ sig (Elt F)) : V5 V (Proc.devRef .tc main_v75) = stHu V :=
  (c5_v75 (V4 V)).trans (by rw [s4])
theorem s6 (V : Valuation τ sig (Elt F)) : V6 V (Proc.devRef .tc main_v102) = stOm V :=
  (c6_v102 (V5 V)).trans (by rw [s5u, s5m, keep5_arg3, keep5_arg4, keep5_arg17, keep5_arg18, keep5_arg19])
theorem s6_v74 (V : Valuation τ sig (Elt F)) : V6 V (Proc.devRef .tc main_v74) = stHm V := (skip6 (by decide) (V5 V)).trans (s5m V)
theorem s6_v75 (V : Valuation τ sig (Elt F)) : V6 V (Proc.devRef .tc main_v75) = stHu V := (skip6 (by decide) (V5 V)).trans (s5u V)
theorem s7 (V : Valuation τ sig (Elt F)) : V7 V (Proc.devRef .tc main_v129) = stOu V :=
  (c7_v129 (V6 V)).trans (by rw [s6_v74, s6_v75, keep6_arg4, keep6_arg3, keep6_arg20, keep6_arg21, keep6_arg22])
theorem s7_v102 (V : Valuation τ sig (Elt F)) : V7 V (Proc.devRef .tc main_v102) = stOm V := (skip7 (by decide) (V6 V)).trans (s6 V)
theorem s8 (V : Valuation τ sig (Elt F)) : V8 V (Proc.devRef .tc main_v145) = Spec.decode (F := F) (stOu V) (stOm V) (V (Proc.devRef .tc main_arg5)) (V (Proc.devRef .tc main_arg6)) :=
  (c8_v145 (V7 V)).trans (by rw [s7, s7_v102, keep7_arg5, keep7_arg6])

/-- The result buffer after all of @main, from any contents: the reference's result of the arguments' contents. -/
theorem out_eq (V : Valuation τ sig (Elt F)) :
    after ops V (Proc.devRef .tc main_v145) = Spec.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [after_ops]
  exact (s8 V).trans rfl

theorem arg0_eq (V : Valuation τ sig (Elt F)) : after ops V (Proc.devRef .tc main_arg0) = V (Proc.devRef .tc main_arg0) := by
  rw [after_ops]
  exact keep8_arg0 V
theorem arg1_eq (V : Valuation τ sig (Elt F)) : after ops V (Proc.devRef .tc main_arg1) = V (Proc.devRef .tc main_arg1) := by
  rw [after_ops]
  exact keep8_arg1 V
theorem arg2_eq (V : Valuation τ sig (Elt F)) : after ops V (Proc.devRef .tc main_arg2) = V (Proc.devRef .tc main_arg2) := by
  rw [after_ops]
  exact keep8_arg2 V
theorem arg3_eq (V : Valuation τ sig (Elt F)) : after ops V (Proc.devRef .tc main_arg3) = V (Proc.devRef .tc main_arg3) := by
  rw [after_ops]
  exact keep8_arg3 V
theorem arg4_eq (V : Valuation τ sig (Elt F)) : after ops V (Proc.devRef .tc main_arg4) = V (Proc.devRef .tc main_arg4) := by
  rw [after_ops]
  exact keep8_arg4 V
theorem arg5_eq (V : Valuation τ sig (Elt F)) : after ops V (Proc.devRef .tc main_arg5) = V (Proc.devRef .tc main_arg5) := by
  rw [after_ops]
  exact keep8_arg5 V
theorem arg6_eq (V : Valuation τ sig (Elt F)) : after ops V (Proc.devRef .tc main_arg6) = V (Proc.devRef .tc main_arg6) := by
  rw [after_ops]
  exact keep8_arg6 V
theorem arg7_eq (V : Valuation τ sig (Elt F)) : after ops V (Proc.devRef .tc main_arg7) = V (Proc.devRef .tc main_arg7) := by
  rw [after_ops]
  exact keep8_arg7 V
theorem arg8_eq (V : Valuation τ sig (Elt F)) : after ops V (Proc.devRef .tc main_arg8) = V (Proc.devRef .tc main_arg8) := by
  rw [after_ops]
  exact keep8_arg8 V
theorem arg9_eq (V : Valuation τ sig (Elt F)) : after ops V (Proc.devRef .tc main_arg9) = V (Proc.devRef .tc main_arg9) := by
  rw [after_ops]
  exact keep8_arg9 V
theorem arg10_eq (V : Valuation τ sig (Elt F)) : after ops V (Proc.devRef .tc main_arg10) = V (Proc.devRef .tc main_arg10) := by
  rw [after_ops]
  exact keep8_arg10 V
theorem arg11_eq (V : Valuation τ sig (Elt F)) : after ops V (Proc.devRef .tc main_arg11) = V (Proc.devRef .tc main_arg11) := by
  rw [after_ops]
  exact keep8_arg11 V
theorem arg12_eq (V : Valuation τ sig (Elt F)) : after ops V (Proc.devRef .tc main_arg12) = V (Proc.devRef .tc main_arg12) := by
  rw [after_ops]
  exact keep8_arg12 V
theorem arg13_eq (V : Valuation τ sig (Elt F)) : after ops V (Proc.devRef .tc main_arg13) = V (Proc.devRef .tc main_arg13) := by
  rw [after_ops]
  exact keep8_arg13 V
theorem arg14_eq (V : Valuation τ sig (Elt F)) : after ops V (Proc.devRef .tc main_arg14) = V (Proc.devRef .tc main_arg14) := by
  rw [after_ops]
  exact keep8_arg14 V
theorem arg15_eq (V : Valuation τ sig (Elt F)) : after ops V (Proc.devRef .tc main_arg15) = V (Proc.devRef .tc main_arg15) := by
  rw [after_ops]
  exact keep8_arg15 V
theorem arg16_eq (V : Valuation τ sig (Elt F)) : after ops V (Proc.devRef .tc main_arg16) = V (Proc.devRef .tc main_arg16) := by
  rw [after_ops]
  exact keep8_arg16 V
theorem arg17_eq (V : Valuation τ sig (Elt F)) : after ops V (Proc.devRef .tc main_arg17) = V (Proc.devRef .tc main_arg17) := by
  rw [after_ops]
  exact keep8_arg17 V
theorem arg18_eq (V : Valuation τ sig (Elt F)) : after ops V (Proc.devRef .tc main_arg18) = V (Proc.devRef .tc main_arg18) := by
  rw [after_ops]
  exact keep8_arg18 V
theorem arg19_eq (V : Valuation τ sig (Elt F)) : after ops V (Proc.devRef .tc main_arg19) = V (Proc.devRef .tc main_arg19) := by
  rw [after_ops]
  exact keep8_arg19 V
theorem arg20_eq (V : Valuation τ sig (Elt F)) : after ops V (Proc.devRef .tc main_arg20) = V (Proc.devRef .tc main_arg20) := by
  rw [after_ops]
  exact keep8_arg20 V
theorem arg21_eq (V : Valuation τ sig (Elt F)) : after ops V (Proc.devRef .tc main_arg21) = V (Proc.devRef .tc main_arg21) := by
  rw [after_ops]
  exact keep8_arg21 V
theorem arg22_eq (V : Valuation τ sig (Elt F)) : after ops V (Proc.devRef .tc main_arg22) = V (Proc.devRef .tc main_arg22) := by
  rw [after_ops]
  exact keep8_arg22 V

/-- On every device, for any float values, from any memory with zero counters: every weakly fair execution of
    @main terminates with the result at the reference's named computation of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145) = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v145).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c)),
      (h c main_arg21).trans (arg21_eq (launchContents m c)),
      (h c main_arg22).trans (arg22_eq (launchContents m c))⟩)
    (run_seq scopedRefs_eq scopedSems_eq defs main (fun _ => ops) main_eq (fun _ => ops_sub) m ρ (fun _ => ops_fresh))

end Cert.ReferenceIdeal.RefRun

end
-- ==== Proof.lean ====
/-
  The certificate's claim for the two-round bipartite mean-aggregation network with a dot-product decoder.
  The three frames are the programs' runs with their results forgotten; the idealization rewrote nothing. The value
  claim: under the precondition — every float input finite and every index array inside the table it indexes — the
  kernel program's row look-ups never meet their out-of-range fill, so they are the reference's look-ups; each of its
  five tiled regions leaves, block of rows by block of rows, the array that the reference's matrix products, division
  by the clamped in-degree, bias and rectifier define; and the per-edge sums and the decoder are the same host operations
  on both sides. So both results are one function of the arguments.
-/
import proofs.«406355_j49280454754830_3_alg».proof.Defs
import proofs.«406355_j49280454754830_3_alg».proof.Proof.Gen.Kernel
import proofs.«406355_j49280454754830_3_alg».proof.Proof.Gen.Kernel.Skeleton
import proofs.«406355_j49280454754830_3_alg».proof.Proof.Gen.Kernel.Launch
import proofs.«406355_j49280454754830_3_alg».proof.Proof.Gen.Kernel.Points
import proofs.«406355_j49280454754830_3_alg».proof.Proof.Gen.Kernel.Frame
import proofs.«406355_j49280454754830_3_alg».proof.Proof.Gen.KernelIdeal
import proofs.«406355_j49280454754830_3_alg».proof.Proof.Gen.KernelIdeal.Skeleton
import proofs.«406355_j49280454754830_3_alg».proof.Proof.Gen.KernelIdeal.Launch
import proofs.«406355_j49280454754830_3_alg».proof.Proof.Gen.KernelIdeal.Points
import proofs.«406355_j49280454754830_3_alg».proof.Proof.Gen.KernelIdeal.Frame
import proofs.«406355_j49280454754830_3_alg».proof.Proof.Gen.ReferenceIdeal
import proofs.«406355_j49280454754830_3_alg».proof.Proof.Gen.Pre_finite_inputs
import proofs.«406355_j49280454754830_3_alg».proof.Proof.IdxRange
import proofs.«406355_j49280454754830_3_alg».proof.Proof.KChain
import proofs.«406355_j49280454754830_3_alg».proof.Proof.RefRun
import Idealize.ShloMosaic.Adequacy
import Idealize.ShloMosaic.Init

noncomputable section

namespace Cert.Proof

open Idealize.ShloMosaic Idealize.SL.Sem Cert.Kernel

/-- The word-level kernel program runs and leaves its arguments in place. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the reference's function of the (agreeing) arguments. -/
theorem algebraic : Cert.algebraic_KernelIdeal_ReferenceIdeal := by
  intro m ρ m' ρ' hpre hagree
  refine ⟨fun c => Cert.ReferenceIdeal.Spec.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22)), ?_, ?_⟩
  · refine (θ_run Cert.KernelIdeal.defs _ _).mono (fun r h c => ⟨(h c).1.trans ?_, (h c).2⟩)
      (Cert.KernelIdeal.Gen.run_result (F := Ideal) m ρ)
    obtain ⟨h1, h2, h3, h4, h5, h6⟩ := Cert.IdxRange.ranges_of_pre _ _ _ _ _ _ _ _ _ _ _ _ _ _ _ _ _ _ _ _ _ _ _ (hpre c)
    exact Cert.KernelIdeal.Chain.result_val m ρ c h1 h2 h3 h4 h5 h6
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
